-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x3 : Shape := ⟨3, ![256, 2048, 3]⟩
abbrev S256 : Shape := ⟨1, ![256]⟩
abbrev S256x8x13 : Shape := ⟨3, ![256, 8, 13]⟩
abbrev S524288 : Shape := ⟨1, ![524288]⟩
abbrev S256x1x128 : Shape := ⟨3, ![256, 1, 128]⟩
abbrev S4194304 : Shape := ⟨1, ![4194304]⟩
abbrev S32768 : Shape := ⟨1, ![32768]⟩
abbrev S256x1x1 : Shape := ⟨3, ![256, 1, 1]⟩
abbrev S_ : Shape := ⟨0, ![]⟩

class Facts : Prop where
  bcast_S_S256x2048x3 : S_.BroadcastsInDim S256x2048x3 (![] : Fin 0 → Fin S256x2048x3.rank)
  reducesTo_S256x2048x3_S_d0_1_2 : S256x2048x3.ReducesTo [0, 1, 2] S_
  h_S_ : 0 < S_.numel
  bcast_S_S256x8x13 : S_.BroadcastsInDim S256x8x13 (![] : Fin 0 → Fin S256x8x13.rank)
  reducesTo_S256x8x13_S_d0_1_2 : S256x8x13.ReducesTo [0, 1, 2] S_
  bcast_S_S256 : S_.BroadcastsInDim S256 (![] : Fin 0 → Fin S256.rank)
  reducesTo_S256_S_d0 : S256.ReducesTo [0] S_
  bcast_S_S256x1x128 : S_.BroadcastsInDim S256x1x128 (![] : Fin 0 → Fin S256x1x128.rank)
  reducesTo_S256x1x128_S_d0_1_2 : S256x1x128.ReducesTo [0, 1, 2] S_
  bcast_S_S256x1x1 : S_.BroadcastsInDim S256x1x1 (![] : Fin 0 → Fin S256x1x1.rank)
  reducesTo_S256x1x1_S_d0_1_2 : S256x1x1.ReducesTo [0, 1, 2] S_
  bcast_S_S524288 : S_.BroadcastsInDim S524288 (![] : Fin 0 → Fin S524288.rank)
  reducesTo_S524288_S_d0 : S524288.ReducesTo [0] S_
  bcast_S_S4194304 : S_.BroadcastsInDim S4194304 (![] : Fin 0 → Fin S4194304.rank)
  reducesTo_S4194304_S_d0 : S4194304.ReducesTo [0] S_
  bcast_S_S32768 : S_.BroadcastsInDim S32768 (![] : Fin 0 → Fin S32768.rank)
  reducesTo_S32768_S_d0 : S32768.ReducesTo [0] S_

variable [Facts]

def fn_part4 {F : FTy → Type} [FloatOps F] (main_arg11 : IVec S4194304 32) (main_arg14 : IVec S32768 32) (main_v64 : IVec S_ 1) (main_v66 : IVec S4194304 1) : IVec S_ 1 :=
  let main_c_27 : IVec S_ 1 := constantI S_ 1 1#1
  let main_v67 : IVec S_ 1 := (fun x v => Host.reduce IntOp.andi x v reducesTo_S4194304_S_d0 h_S_) main_v66 main_c_27
  let main_v68 : IVec S_ 1 := andi main_v64 main_v67
  let main_c_28 : IVec S_ 32 := constantI S_ 32 256#32
  let main_v69 : IVec S4194304 32 := broadcastInDim S4194304 ![] bcast_S_S4194304 main_c_28
  let main_v70 : IVec S4194304 1 := cmpi .slt main_arg11 main_v69
  let main_c_29 : IVec S_ 1 := constantI S_ 1 1#1
  let main_v71 : IVec S_ 1 := (fun x v => Host.reduce IntOp.andi x v reducesTo_S4194304_S_d0 h_S_) main_v70 main_c_29
  let main_v72 : IVec S_ 1 := andi main_v68 main_v71
  let main_c_30 : IVec S_ 32 := constantI S_ 32 0#32
  let main_v73 : IVec S32768 32 := broadcastInDim S32768 ![] bcast_S_S32768 main_c_30
  let main_v74 : IVec S32768 1 := cmpi .sge main_arg14 main_v73
  let main_c_31 : IVec S_ 1 := constantI S_ 1 1#1
  let main_v75 : IVec S_ 1 := (fun x v => Host.reduce IntOp.andi x v reducesTo_S32768_S_d0 h_S_) main_v74 main_c_31
  let main_v76 : IVec S_ 1 := andi main_v72 main_v75
  let main_c_32 : IVec S_ 32 := constantI S_ 32 256#32
  let main_v77 : IVec S32768 32 := broadcastInDim S32768 ![] bcast_S_S32768 main_c_32
  let main_v78 : IVec S32768 1 := cmpi .slt main_arg14 main_v77
  let main_c_33 : IVec S_ 1 := constantI S_ 1 1#1
  let main_v79 : IVec S_ 1 := (fun x v => Host.reduce IntOp.andi x v reducesTo_S32768_S_d0 h_S_) main_v78 main_c_33
  let main_v80 : IVec S_ 1 := andi main_v76 main_v79
  main_v80

def fn_part3 {F : FTy → Type} [FloatOps F] (main_arg5 : IVec S524288 32) (main_arg8 : IVec S4194304 32) (main_arg11 : IVec S4194304 32) (main_arg14 : IVec S32768 32) (main_v48 : IVec S_ 1) (main_v50 : IVec S524288 1) : IVec S_ 1 :=
  let main_c_19 : IVec S_ 1 := constantI S_ 1 1#1
  let main_v51 : IVec S_ 1 := (fun x v => Host.reduce IntOp.andi x v reducesTo_S524288_S_d0 h_S_) main_v50 main_c_19
  let main_v52 : IVec S_ 1 := andi main_v48 main_v51
  let main_c_20 : IVec S_ 32 := constantI S_ 32 256#32
  let main_v53 : IVec S524288 32 := broadcastInDim S524288 ![] bcast_S_S524288 main_c_20
  let main_v54 : IVec S524288 1 := cmpi .slt main_arg5 main_v53
  let main_c_21 : IVec S_ 1 := constantI S_ 1 1#1
  let main_v55 : IVec S_ 1 := (fun x v => Host.reduce IntOp.andi x v reducesTo_S524288_S_d0 h_S_) main_v54 main_c_21
  let main_v56 : IVec S_ 1 := andi main_v52 main_v55
  let main_c_22 : IVec S_ 32 := constantI S_ 32 0#32
  let main_v57 : IVec S4194304 32 := broadcastInDim S4194304 ![] bcast_S_S4194304 main_c_22
  let main_v58 : IVec S4194304 1 := cmpi .sge main_arg8 main_v57
  let main_c_23 : IVec S_ 1 := constantI S_ 1 1#1
  let main_v59 : IVec S_ 1 := (fun x v => Host.reduce IntOp.andi x v reducesTo_S4194304_S_d0 h_S_) main_v58 main_c_23
  let main_v60 : IVec S_ 1 := andi main_v56 main_v59
  let main_c_24 : IVec S_ 32 := constantI S_ 32 256#32
  let main_v61 : IVec S4194304 32 := broadcastInDim S4194304 ![] bcast_S_S4194304 main_c_24
  let main_v62 : IVec S4194304 1 := cmpi .slt main_arg8 main_v61
  let main_c_25 : IVec S_ 1 := constantI S_ 1 1#1
  let main_v63 : IVec S_ 1 := (fun x v => Host.reduce IntOp.andi x v reducesTo_S4194304_S_d0 h_S_) main_v62 main_c_25
  let main_v64 : IVec S_ 1 := andi main_v60 main_v63
  let main_c_26 : IVec S_ 32 := constantI S_ 32 0#32
  let main_v65 : IVec S4194304 32 := broadcastInDim S4194304 ![] bcast_S_S4194304 main_c_26
  let main_v66 : IVec S4194304 1 := cmpi .sge main_arg11 main_v65
  fn_part4 (F := F) main_arg11 main_arg14 main_v64 main_v66

def fn_part2 {F : FTy → Type} [FloatOps F] (main_arg5 : IVec S524288 32) (main_arg8 : IVec S4194304 32) (main_arg11 : IVec S4194304 32) (main_arg12 : FVec F S256x1x128 .f32) (main_arg13 : FVec F S256 .f32) (main_arg14 : IVec S32768 32) (main_arg15 : FVec F S256x1x1 .f32) (main_v33 : IVec S_ 1) : IVec S_ 1 :=
  let main_v34 : FVec F S256x1x128 .f32 := Host.absf main_arg12
  let main_cst_12 : FVec F S_ .f32 := constant S_ .f32 0x7F800000#32
  let main_v35 : FVec F S256x1x128 .f32 := broadcastInDim S256x1x128 ![] bcast_S_S256x1x128 main_cst_12
  let main_v36 : IVec S256x1x128 1 := cmpf .olt main_v34 main_v35
  let main_c_13 : IVec S_ 1 := constantI S_ 1 1#1
  let main_v37 : IVec S_ 1 := (fun x v => Host.reduce IntOp.andi x v reducesTo_S256x1x128_S_d0_1_2 h_S_) main_v36 main_c_13
  let main_v38 : IVec S_ 1 := andi main_v33 main_v37
  let main_v39 : FVec F S256 .f32 := Host.absf main_arg13
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1x1 .f32 := Host.absf main_arg15
  let main_cst_16 : FVec F S_ .f32 := constant S_ .f32 0x7F800000#32
  let main_v45 : FVec F S256x1x1 .f32 := broadcastInDim S256x1x1 ![] bcast_S_S256x1x1 main_cst_16
  let main_v46 : IVec S256x1x1 1 := cmpf .olt main_v44 main_v45
  let main_c_17 : IVec S_ 1 := constantI S_ 1 1#1
  let main_v47 : IVec S_ 1 := (fun x v => Host.reduce IntOp.andi x v reducesTo_S256x1x1_S_d0_1_2 h_S_) main_v46 main_c_17
  let main_v48 : IVec S_ 1 := andi main_v43 main_v47
  let main_c_18 : IVec S_ 32 := constantI S_ 32 0#32
  let main_v49 : IVec S524288 32 := broadcastInDim S524288 ![] bcast_S_S524288 main_c_18
  let main_v50 : IVec S524288 1 := cmpi .sge main_arg5 main_v49
  fn_part3 (F := F) main_arg5 main_arg8 main_arg11 main_arg14 main_v48 main_v50

def fn_part1 {F : FTy → Type} [FloatOps F] (main_arg5 : IVec S524288 32) (main_arg7 : FVec F S256 .f32) (main_arg8 : IVec S4194304 32) (main_arg9 : FVec F S256x1x128 .f32) (main_arg10 : FVec F S256 .f32) (main_arg11 : IVec S4194304 32) (main_arg12 : FVec F S256x1x128 .f32) (main_arg13 : FVec F S256 .f32) (main_arg14 : IVec S32768 32) (main_arg15 : FVec F S256x1x1 .f32) (main_v13 : IVec S_ 1) (main_v16 : IVec S256x1x128 1) : IVec S_ 1 :=
  let main_c_5 : IVec S_ 1 := constantI S_ 1 1#1
  let main_v17 : IVec S_ 1 := (fun x v => Host.reduce IntOp.andi x v reducesTo_S256x1x128_S_d0_1_2 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1x128 .f32 := Host.absf main_arg9
  let main_cst_8 : FVec F S_ .f32 := constant S_ .f32 0x7F800000#32
  let main_v25 : FVec F S256x1x128 .f32 := broadcastInDim S256x1x128 ![] bcast_S_S256x1x128 main_cst_8
  let main_v26 : IVec S256x1x128 1 := cmpf .olt main_v24 main_v25
  let main_c_9 : IVec S_ 1 := constantI S_ 1 1#1
  let main_v27 : IVec S_ 1 := (fun x v => Host.reduce IntOp.andi x v reducesTo_S256x1x128_S_d0_1_2 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg5 main_arg8 main_arg11 main_arg12 main_arg13 main_arg14 main_arg15 main_v33

def fn {F : FTy → Type} [FloatOps F] (main_arg0 : FVec F S256x2048x3 .f32) (main_arg1 : IVec S256 32) (main_arg2 : IVec S256 32) (main_arg3 : FVec F S256x8x13 .f32) (main_arg4 : FVec F S256 .f32) (main_arg5 : IVec S524288 32) (main_arg6 : FVec F S256x1x128 .f32) (main_arg7 : FVec F S256 .f32) (main_arg8 : IVec S4194304 32) (main_arg9 : FVec F S256x1x128 .f32) (main_arg10 : FVec F S256 .f32) (main_arg11 : IVec S4194304 32) (main_arg12 : FVec F S256x1x128 .f32) (main_arg13 : FVec F S256 .f32) (main_arg14 : IVec S32768 32) (main_arg15 : FVec F S256x1x1 .f32) : IVec S_ 1 :=
  let main_v0 : FVec F S256x2048x3 .f32 := Host.absf main_arg0
  let main_cst : FVec F S_ .f32 := constant S_ .f32 0x7F800000#32
  let main_v1 : FVec F S256x2048x3 .f32 := broadcastInDim S256x2048x3 ![] bcast_S_S256x2048x3 main_cst
  let main_v2 : IVec S256x2048x3 1 := cmpf .olt main_v0 main_v1
  let main_c : IVec S_ 1 := constantI S_ 1 1#1
  let main_v3 : IVec S_ 1 := (fun x v => Host.reduce IntOp.andi x v reducesTo_S256x2048x3_S_d0_1_2 h_S_) main_v2 main_c
  let main_v4 : FVec F S256x8x13 .f32 := Host.absf main_arg3
  let main_cst_0 : FVec F S_ .f32 := constant S_ .f32 0x7F800000#32
  let main_v5 : FVec F S256x8x13 .f32 := broadcastInDim S256x8x13 ![] bcast_S_S256x8x13 main_cst_0
  let main_v6 : IVec S256x8x13 1 := cmpf .olt main_v4 main_v5
  let main_c_1 : IVec S_ 1 := constantI S_ 1 1#1
  let main_v7 : IVec S_ 1 := (fun x v => Host.reduce IntOp.andi x v reducesTo_S256x8x13_S_d0_1_2 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1x128 .f32 := Host.absf main_arg6
  let main_cst_4 : FVec F S_ .f32 := constant S_ .f32 0x7F800000#32
  let main_v15 : FVec F S256x1x128 .f32 := broadcastInDim S256x1x128 ![] bcast_S_S256x1x128 main_cst_4
  let main_v16 : IVec S256x1x128 1 := cmpf .olt main_v14 main_v15
  fn_part1 (F := F) main_arg5 main_arg7 main_arg8 main_arg9 main_arg10 main_arg11 main_arg12 main_arg13 main_arg14 main_arg15 main_v13 main_v16
-- ==== Kernel.lean ====
abbrev S256x2048x3 : Shape := ⟨3, ![256, 2048, 3]⟩
abbrev S256 : Shape := ⟨1, ![256]⟩
abbrev S256x8x13 : Shape := ⟨3, ![256, 8, 13]⟩
abbrev S524288 : Shape := ⟨1, ![524288]⟩
abbrev S256x1x128 : Shape := ⟨3, ![256, 1, 128]⟩
abbrev S4194304 : Shape := ⟨1, ![4194304]⟩
abbrev S32768 : Shape := ⟨1, ![32768]⟩
abbrev S256x1x1 : Shape := ⟨3, ![256, 1, 1]⟩
abbrev S4096x128 : Shape := ⟨2, ![4096, 128]⟩
abbrev S128 : Shape := ⟨1, ![128]⟩
abbrev S1x128 : Shape := ⟨2, ![1, 128]⟩
abbrev S4096x128x1 : Shape := ⟨3, ![4096, 128, 1]⟩
abbrev S256x16x128 : Shape := ⟨3, ![256, 16, 128]⟩
abbrev S32768x128 : Shape := ⟨2, ![32768, 128]⟩
abbrev S256x128x128 : Shape := ⟨3, ![256, 128, 128]⟩
abbrev S256x128 : Shape := ⟨2, ![256, 128]⟩
abbrev S256x128x1 : Shape := ⟨3, ![256, 128, 1]⟩
abbrev S_ : Shape := ⟨0, ![]⟩
abbrev S256x1 : Shape := ⟨2, ![256, 1]⟩
abbrev S256x2 : Shape := ⟨2, ![256, 2]⟩
abbrev S256x13 : Shape := ⟨2, ![256, 13]⟩
abbrev S256x13x1 : Shape := ⟨3, ![256, 13, 1]⟩
abbrev S256x3x2048 : Shape := ⟨3, ![256, 3, 2048]⟩
abbrev S256x1x2048 : Shape := ⟨3, ![256, 1, 2048]⟩
abbrev S8x3x2048 : Shape := ⟨3, ![8, 3, 2048]⟩
abbrev S8x13x1 : Shape := ⟨3, ![8, 13, 1]⟩
abbrev S8x16x128 : Shape := ⟨3, ![8, 16, 128]⟩
abbrev S8x1x128 : Shape := ⟨3, ![8, 1, 128]⟩
abbrev S8x128x128 : Shape := ⟨3, ![8, 128, 128]⟩
abbrev S8x128x1 : Shape := ⟨3, ![8, 128, 1]⟩
abbrev S8x1x1 : Shape := ⟨3, ![8, 1, 1]⟩
abbrev S8x1x2048 : Shape := ⟨3, ![8, 1, 2048]⟩
abbrev S1x3x2048 : Shape := ⟨3, ![1, 3, 2048]⟩
abbrev S3x2048 : Shape := ⟨2, ![3, 2048]⟩
abbrev S1x13x1 : Shape := ⟨3, ![1, 13, 1]⟩
abbrev S13x1 : Shape := ⟨2, ![13, 1]⟩
abbrev S13x2048 : Shape := ⟨2, ![13, 2048]⟩
abbrev S16x2048 : Shape := ⟨2, ![16, 2048]⟩
abbrev S1x16x128 : Shape := ⟨3, ![1, 16, 128]⟩
abbrev S16x128 : Shape := ⟨2, ![16, 128]⟩
abbrev S1x1x128 : Shape := ⟨3, ![1, 1, 128]⟩
abbrev S128x1 : Shape := ⟨2, ![128, 1]⟩
abbrev S128x2048 : Shape := ⟨2, ![128, 2048]⟩
abbrev S1x128x128 : Shape := ⟨3, ![1, 128, 128]⟩
abbrev S128x128 : Shape := ⟨2, ![128, 128]⟩
abbrev S1x128x1 : Shape := ⟨3, ![1, 128, 1]⟩
abbrev S1x1x1 : Shape := ⟨3, ![1, 1, 1]⟩
abbrev S1x1 : Shape := ⟨2, ![1, 1]⟩
abbrev S1x2048 : Shape := ⟨2, ![1, 2048]⟩
abbrev S1x1x2048 : Shape := ⟨3, ![1, 1, 2048]⟩
abbrev S256x2048x1 : Shape := ⟨3, ![256, 2048, 1]⟩

abbrev nBuf : Space → Nat
  | .hbm => 142
  | .vmem => 42
  | .smem => 0
  | _ => 0

abbrev hbmTy0_0 (i : Nat) : BufTy := match i % 128 with
  | 0 => ⟨S256x2048x3, .f32⟩
  | 1 => ⟨S256, .i32⟩
  | 2 => ⟨S256, .i32⟩
  | 3 => ⟨S256x8x13, .f32⟩
  | 4 => ⟨S256, .f32⟩
  | 5 => ⟨S524288, .i32⟩
  | 6 => ⟨S256x1x128, .f32⟩
  | 7 => ⟨S256, .f32⟩
  | 8 => ⟨S4194304, .i32⟩
  | 9 => ⟨S256x1x128, .f32⟩
  | 10 => ⟨S256, .f32⟩
  | 11 => ⟨S4194304, .i32⟩
  | 12 => ⟨S256x1x128, .f32⟩
  | 13 => ⟨S256, .f32⟩
  | 14 => ⟨S32768, .i32⟩
  | 15 => ⟨S256x1x1, .f32⟩
  | 16 => ⟨S4096x128, .i32⟩
  | 17 => ⟨S128, .f32⟩
  | 18 => ⟨S1x128, .f32⟩
  | 19 => ⟨S128, .f32⟩
  | 20 => ⟨S1x128, .f32⟩
  | 21 => ⟨S4096x128, .f32⟩
  | 22 => ⟨S524288, .f32⟩
  | 23 => ⟨S256x16x128, .f32⟩
  | 24 => ⟨S32768x128, .i32⟩
  | 25 => ⟨S128, .f32⟩
  | 26 => ⟨S1x128, .f32⟩
  | 27 => ⟨S128, .f32⟩
  | 28 => ⟨S1x128, .f32⟩
  | 29 => ⟨S32768x128, .f32⟩
  | 30 => ⟨S4194304, .f32⟩
  | 31 => ⟨S256x128x128, .f32⟩
  | 32 => ⟨S32768x128, .i32⟩
  | 33 => ⟨S128, .f32⟩
  | 34 => ⟨S1x128, .f32⟩
  | 35 => ⟨S128, .f32⟩
  | 36 => ⟨S1x128, .f32⟩
  | 37 => ⟨S32768x128, .f32⟩
  | 38 => ⟨S4194304, .f32⟩
  | 39 => ⟨S256x128x128, .f32⟩
  | 40 => ⟨S256x128, .i32⟩
  | 41 => ⟨S128, .f32⟩
  | 42 => ⟨S1x128, .f32⟩
  | 43 => ⟨S128, .f32⟩
  | 44 => ⟨S1x128, .f32⟩
  | 45 => ⟨S256x128, .f32⟩
  | 46 => ⟨S32768, .f32⟩
  | 47 => ⟨S256x128x1, .f32⟩
  | 48 => ⟨S_, .i32⟩
  | 49 => ⟨S256, .i32⟩
  | 50 => ⟨S256, .i1⟩
  | 51 => ⟨S_, .i32⟩
  | 52 => ⟨S256, .i32⟩
  | 53 => ⟨S256, .i32⟩
  | 54 => ⟨S256, .i32⟩
  | 55 => ⟨S256x1, .i32⟩
  | 56 => ⟨S256x16x128, .f32⟩
  | 57 => ⟨S_, .i32⟩
  | 58 => ⟨S256, .i32⟩
  | 59 => ⟨S256, .i1⟩
  | 60 => ⟨S_, .i32⟩
  | 61 => ⟨S256, .i32⟩
  | 62 => ⟨S256, .i32⟩
  | 63 => ⟨S256, .i32⟩
  | 64 => ⟨S256x1, .i32⟩
  | 65 => ⟨S256x128x128, .f32⟩
  | 66 => ⟨S_, .i32⟩
  | 67 => ⟨S256, .i32⟩
  | 68 => ⟨S256, .i1⟩
  | 69 => ⟨S_, .i32⟩
  | 70 => ⟨S256, .i32⟩
  | 71 => ⟨S256, .i32⟩
  | 72 => ⟨S256, .i32⟩
  | 73 => ⟨S256x1, .i32⟩
  | 74 => ⟨S256x128x128, .f32⟩
  | 75 => ⟨S_, .i32⟩
  | 76 => ⟨S256, .i32⟩
  | 77 => ⟨S256, .i1⟩
  | 78 => ⟨S_, .i32⟩
  | 79 => ⟨S256, .i32⟩
  | 80 => ⟨S256, .i32⟩
  | 81 => ⟨S256, .i32⟩
  | 82 => ⟨S256x1, .i32⟩
  | 83 => ⟨S256x128x1, .f32⟩
  | 84 => ⟨S_, .i32⟩
  | 85 => ⟨S256, .i32⟩
  | 86 => ⟨S256, .i1⟩
  | 87 => ⟨S_, .i32⟩
  | 88 => ⟨S256, .i32⟩
  | 89 => ⟨S256, .i32⟩
  | 90 => ⟨S256, .i32⟩
  | 91 => ⟨S256x1, .i32⟩
  | 92 => ⟨S256x1x128, .f32⟩
  | 93 => ⟨S_, .i32⟩
  | 94 => ⟨S256, .i32⟩
  | 95 => ⟨S256, .i1⟩
  | 96 => ⟨S_, .i32⟩
  | 97 => ⟨S256, .i32⟩
  | 98 => ⟨S256, .i32⟩
  | 99 => ⟨S256, .i32⟩
  | 100 => ⟨S256x1, .i32⟩
  | 101 => ⟨S256x1x128, .f32⟩
  | 102 => ⟨S_, .i32⟩
  | 103 => ⟨S256, .i32⟩
  | 104 => ⟨S256, .i1⟩
  | 105 => ⟨S_, .i32⟩
  | 106 => ⟨S256, .i32⟩
  | 107 => ⟨S256, .i32⟩
  | 108 => ⟨S256, .i32⟩
  | 109 => ⟨S256x1, .i32⟩
  | 110 => ⟨S256x1x128, .f32⟩
  | 111 => ⟨S_, .i32⟩
  | 112 => ⟨S256, .i32⟩
  | 113 => ⟨S256, .i1⟩
  | 114 => ⟨S_, .i32⟩
  | 115 => ⟨S256, .i32⟩
  | 116 => ⟨S256, .i32⟩
  | 117 => ⟨S256, .i32⟩
  | 118 => ⟨S256x1, .i32⟩
  | 119 => ⟨S256x1x1, .f32⟩
  | 120 => ⟨S_, .i32⟩
  | 121 => ⟨S256, .i32⟩
  | 122 => ⟨S256, .i1⟩
  | 123 => ⟨S_, .i32⟩
  | 124 => ⟨S256, .i32⟩
  | 125 => ⟨S256, .i32⟩
  | 126 => ⟨S256, .i32⟩
  | 127 => ⟨S_, .i32⟩
  | _ => ⟨S256x2048x3, .f32⟩

abbrev hbmTy0_1 (i : Nat) : BufTy := match i % 128 with
  | 0 => ⟨S256, .i32⟩
  | 1 => ⟨S256, .i1⟩
  | 2 => ⟨S_, .i32⟩
  | 3 => ⟨S256, .i32⟩
  | 4 => ⟨S256, .i32⟩
  | 5 => ⟨S256, .i32⟩
  | 6 => ⟨S256x1, .i32⟩
  | 7 => ⟨S256x1, .i32⟩
  | 8 => ⟨S256x2, .i32⟩
  | 9 => ⟨S256x13, .f32⟩
  | 10 => ⟨S256x13x1, .f32⟩
  | 11 => ⟨S256x3x2048, .f32⟩
  | 12 => ⟨S256x1x2048, .f32⟩
  | 13 => ⟨S256x2048x1, .f32⟩
  | _ => ⟨S256x2048x3, .f32⟩

abbrev hbmTy (i : Nat) : BufTy := match i / 128 with
  | 0 => hbmTy0_0 i
  | 1 => hbmTy0_1 i
  | _ => ⟨S256x2048x3, .f32⟩

abbrev bufTy : (tb : Table) → Fin (tcTables nBuf tb) → BufTy
  | .hbm, ⟨i, _⟩ => hbmTy i
  | .local _ .vmem, ⟨0, _⟩ => ⟨S1x128, .f32⟩
  | .local _ .vmem, ⟨1, _⟩ => ⟨S1x128, .f32⟩
  | .local _ .vmem, ⟨2, _⟩ => ⟨S4096x128, .i32⟩
  | .local _ .vmem, ⟨3, _⟩ => ⟨S4096x128, .f32⟩
  | .local _ .vmem, ⟨4, _⟩ => ⟨S1x128, .f32⟩
  | .local _ .vmem, ⟨5, _⟩ => ⟨S1x128, .f32⟩
  | .local _ .vmem, ⟨6, _⟩ => ⟨S4096x128, .i32⟩
  | .local _ .vmem, ⟨7, _⟩ => ⟨S4096x128, .i32⟩
  | .local _ .vmem, ⟨8, _⟩ => ⟨S4096x128, .f32⟩
  | .local _ .vmem, ⟨9, _⟩ => ⟨S4096x128, .f32⟩
  | .local _ .vmem, ⟨10, _⟩ => ⟨S1x128, .f32⟩
  | .local _ .vmem, ⟨11, _⟩ => ⟨S1x128, .f32⟩
  | .local _ .vmem, ⟨12, _⟩ => ⟨S4096x128, .i32⟩
  | .local _ .vmem, ⟨13, _⟩ => ⟨S4096x128, .i32⟩
  | .local _ .vmem, ⟨14, _⟩ => ⟨S4096x128, .f32⟩
  | .local _ .vmem, ⟨15, _⟩ => ⟨S4096x128, .f32⟩
  | .local _ .vmem, ⟨16, _⟩ => ⟨S1x128, .f32⟩
  | .local _ .vmem, ⟨17, _⟩ => ⟨S1x128, .f32⟩
  | .local _ .vmem, ⟨18, _⟩ => ⟨S256x128, .i32⟩
  | .local _ .vmem, ⟨19, _⟩ => ⟨S256x128, .f32⟩
  | .local _ .vmem, ⟨20, _⟩ => ⟨S8x3x2048, .f32⟩
  | .local _ .vmem, ⟨21, _⟩ => ⟨S8x3x2048, .f32⟩
  | .local _ .vmem, ⟨22, _⟩ => ⟨S8x13x1, .f32⟩
  | .local _ .vmem, ⟨23, _⟩ => ⟨S8x13x1, .f32⟩
  | .local _ .vmem, ⟨24, _⟩ => ⟨S8x16x128, .f32⟩
  | .local _ .vmem, ⟨25, _⟩ => ⟨S8x16x128, .f32⟩
  | .local _ .vmem, ⟨26, _⟩ => ⟨S8x1x128, .f32⟩
  | .local _ .vmem, ⟨27, _⟩ => ⟨S8x1x128, .f32⟩
  | .local _ .vmem, ⟨28, _⟩ => ⟨S8x128x128, .f32⟩
  | .local _ .vmem, ⟨29, _⟩ => ⟨S8x128x128, .f32⟩
  | .local _ .vmem, ⟨30, _⟩ => ⟨S8x1x128, .f32⟩
  | .local _ .vmem, ⟨31, _⟩ => ⟨S8x1x128, .f32⟩
  | .local _ .vmem, ⟨32, _⟩ => ⟨S8x128x128, .f32⟩
  | .local _ .vmem, ⟨33, _⟩ => ⟨S8x128x128, .f32⟩
  | .local _ .vmem, ⟨34, _⟩ => ⟨S8x1x128, .f32⟩
  | .local _ .vmem, ⟨35, _⟩ => ⟨S8x1x128, .f32⟩
  | .local _ .vmem, ⟨36, _⟩ => ⟨S8x128x1, .f32⟩
  | .local _ .vmem, ⟨37, _⟩ => ⟨S8x128x1, .f32⟩
  | .local _ .vmem, ⟨38, _⟩ => ⟨S8x1x1, .f32⟩
  | .local _ .vmem, ⟨39, _⟩ => ⟨S8x1x1, .f32⟩
  | .local _ .vmem, ⟨40, _⟩ => ⟨S8x1x2048, .f32⟩
  | .local _ .vmem, ⟨41, _⟩ => ⟨S8x1x2048, .f32⟩
  | _, _ => ⟨S256x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_c_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_1 : Ref sig .tc := ⟨.hbm, 57, rfl⟩
abbrev main_v39 : Ref sig .tc := ⟨.hbm, 58, rfl⟩
abbrev main_v40 : Ref sig .tc := ⟨.hbm, 59, rfl⟩
abbrev main_c_2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_3 : Ref sig .tc := ⟨.hbm, 66, rfl⟩
abbrev main_v46 : Ref sig .tc := ⟨.hbm, 67, rfl⟩
abbrev main_v47 : Ref sig .tc := ⟨.hbm, 68, rfl⟩
abbrev main_c_4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_5 : Ref sig .tc := ⟨.hbm, 75, rfl⟩
abbrev main_v53 : Ref sig .tc := ⟨.hbm, 76, rfl⟩
abbrev main_v54 : Ref sig .tc := ⟨.hbm, 77, rfl⟩
abbrev main_c_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_7 : Ref sig .tc := ⟨.hbm, 84, rfl⟩
abbrev main_v60 : Ref sig .tc := ⟨.hbm, 85, rfl⟩
abbrev main_v61 : Ref sig .tc := ⟨.hbm, 86, rfl⟩
abbrev main_c_8 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_9 : Ref sig .tc := ⟨.hbm, 93, rfl⟩
abbrev main_v67 : Ref sig .tc := ⟨.hbm, 94, rfl⟩
abbrev main_v68 : Ref sig .tc := ⟨.hbm, 95, rfl⟩
abbrev main_c_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_11 : Ref sig .tc := ⟨.hbm, 102, rfl⟩
abbrev main_v74 : Ref sig .tc := ⟨.hbm, 103, rfl⟩
abbrev main_v75 : Ref sig .tc := ⟨.hbm, 104, rfl⟩
abbrev main_c_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_c_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_c_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg4_1 : Ref sig .tc := ⟨.vmem, 29, rfl⟩
abbrev cc4_stg5_0 : Ref sig .tc := ⟨.vmem, 30, rfl⟩
abbrev cc4_stg5_1 : Ref sig .tc := ⟨.vmem, 31, rfl⟩
abbrev cc4_stg6_0 : Ref sig .tc := ⟨.vmem, 32, rfl⟩
abbrev cc4_stg6_1 : Ref sig .tc := ⟨.vmem, 33, rfl⟩
abbrev cc4_stg7_0 : Ref sig .tc := ⟨.vmem, 34, rfl⟩
abbrev cc4_stg7_1 : Ref sig .tc := ⟨.vmem, 35, rfl⟩
abbrev cc4_stg8_0 : Ref sig .tc := ⟨.vmem, 36, rfl⟩
abbrev cc4_stg8_1 : Ref sig .tc := ⟨.vmem, 37, rfl⟩
abbrev cc4_stg9_0 : Ref sig .tc := ⟨.vmem, 38, rfl⟩
abbrev cc4_stg9_1 : Ref sig .tc := ⟨.vmem, 39, rfl⟩
abbrev cc4_stg10_0 : Ref sig .tc := ⟨.vmem, 40, rfl⟩
abbrev cc4_stg10_1 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc4_sem4_0 : DmaSem sig := 28
abbrev cc4_sem4_1 : DmaSem sig := 29
abbrev cc4_sem5_0 : DmaSem sig := 30
abbrev cc4_sem5_1 : DmaSem sig := 31
abbrev cc4_sem6_0 : DmaSem sig := 32
abbrev cc4_sem6_1 : DmaSem sig := 33
abbrev cc4_sem7_0 : DmaSem sig := 34
abbrev cc4_sem7_1 : DmaSem sig := 35
abbrev cc4_sem8_0 : DmaSem sig := 36
abbrev cc4_sem8_1 : DmaSem sig := 37
abbrev cc4_sem9_0 : DmaSem sig := 38
abbrev cc4_sem9_1 : DmaSem sig := 39
abbrev cc4_sem10_0 : DmaSem sig := 40
abbrev cc4_sem10_1 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x128 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_10 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S8x3x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x13x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8x16x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x1x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8x128x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x128x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x1x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x128x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S8x1x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S8x1x2048 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  shapeCasts_S524288_S4096x128 : S524288.ShapeCasts S4096x128
  slices_S256_S128_0 : S256.Slices ![0] S128
  shapeCasts_S128_S1x128 : S128.ShapeCasts S1x128
  slices_S256_S128_128 : S256.Slices ![128] S128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S4096x128x1 : S4096x128.ShapeCasts S4096x128x1
  shapeCasts_S4096x128x1_S4096x128 : S4096x128x1.ShapeCasts S4096x128
  shapeCasts_S4096x128_S524288 : S4096x128.ShapeCasts S524288
  shapeCasts_S524288_S256x16x128 : S524288.ShapeCasts S256x16x128
  shapeCasts_S4194304_S32768x128 : S4194304.ShapeCasts S32768x128
  shapeCasts_S32768x128_S4194304 : S32768x128.ShapeCasts S4194304
  shapeCasts_S4194304_S256x128x128 : S4194304.ShapeCasts S256x128x128
  shapeCasts_S32768_S256x128 : S32768.ShapeCasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  shapeCasts_S256x128_S256x128x1 : S256x128.ShapeCasts S256x128x1
  shapeCasts_S256x128x1_S256x128 : S256x128x1.ShapeCasts S256x128
  shapeCasts_S256x128_S32768 : S256x128.ShapeCasts S32768
  shapeCasts_S32768_S256x128x1 : S32768.ShapeCasts S256x128x1
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  shapeCasts_S256x13_S256x13x1 : S256x13.ShapeCasts S256x13x1
  transposes_S256x2048x3_S256x3x2048_0_2_1 : S256x2048x3.Transposes [0, 2, 1] S256x3x2048
  inb_S8x3x2048_S1x3x2048_0_0_0 : ∀ a, (![0, 0, 0] : Fin 3 → Nat) a + S1x3x2048.size a ≤ S8x3x2048.size a
  h_S1x3x2048 : 0 < S1x3x2048.numel
  shapeCasts_S1x3x2048_S3x2048 : S1x3x2048.ShapeCasts S3x2048
  inb_S8x13x1_S1x13x1_0_0_0 : ∀ a, (![0, 0, 0] : Fin 3 → Nat) a + S1x13x1.size a ≤ S8x13x1.size a
  h_S1x13x1 : 0 < S1x13x1.numel
  shapeCasts_S1x13x1_S13x1 : S1x13x1.ShapeCasts S13x1
  shapeCasts_S13x1_S13x1 : S13x1.ShapeCasts S13x1
  broadcasts_S13x1_S13x2048 : S13x1.Broadcasts S13x2048
  concatenates_S3x2048_S13x2048_S16x2048_d0 : Shape.Concatenates [S3x2048, S13x2048] S16x2048 0
  inb_S8x16x128_S1x16x128_0_0_0 : ∀ a, (![0, 0, 0] : Fin 3 → Nat) a + S1x16x128.size a ≤ S8x16x128.size a
  h_S1x16x128 : 0 < S1x16x128.numel
  shapeCasts_S1x16x128_S16x128 : S1x16x128.ShapeCasts S16x128
  inb_S8x1x128_S1x1x128_0_0_0 : ∀ a, (![0, 0, 0] : Fin 3 → Nat) a + S1x1x128.size a ≤ S8x1x128.size a
  h_S1x1x128 : 0 < S1x1x128.numel
  shapeCasts_S1x1x128_S1x128 : S1x1x128.ShapeCasts S1x128
  transposes_S1x128_p1_0_S128x1 : S1x128.Transposes [1, 0] S128x1
  broadcasts_S128x1_S128x2048 : S128x1.Broadcasts S128x2048
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x128x1_S1x128x1_0_0_0 : ∀ a, (![0, 0, 0] : Fin 3 → Nat) a + S1x128x1.size a ≤ S8x128x1.size a
  h_S1x128x1 : 0 < S1x128x1.numel
  shapeCasts_S1x128x1_S128x1 : S1x128x1.ShapeCasts S128x1
  inb_S8x1x1_S1x1x1_0_0_0 : ∀ a, (![0, 0, 0] : Fin 3 → Nat) a + S1x1x1.size a ≤ S8x1x1.size a
  h_S1x1x1 : 0 < S1x1x1.numel
  shapeCasts_S1x1x1_S1x1 : S1x1x1.ShapeCasts S1x1
  transposes_S1x1_p1_0_S1x1 : S1x1.Transposes [1, 0] S1x1
  broadcasts_S1x1_S1x2048 : S1x1.Broadcasts S1x2048
  inb_S8x1x2048_S1x1x2048_0_0_0 : ∀ a, (![0, 0, 0] : Fin 3 → Nat) a + S1x1x2048.size a ≤ S8x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S8x3x2048_S1x3x2048_1_0_0 : ∀ a, (![1, 0, 0] : Fin 3 → Nat) a + S1x3x2048.size a ≤ S8x3x2048.size a
  inb_S8x13x1_S1x13x1_1_0_0 : ∀ a, (![1, 0, 0] : Fin 3 → Nat) a + S1x13x1.size a ≤ S8x13x1.size a
  inb_S8x16x128_S1x16x128_1_0_0 : ∀ a, (![1, 0, 0] : Fin 3 → Nat) a + S1x16x128.size a ≤ S8x16x128.size a
  inb_S8x1x128_S1x1x128_1_0_0 : ∀ a, (![1, 0, 0] : Fin 3 → Nat) a + S1x1x128.size a ≤ S8x1x128.size a
  inb_S8x128x128_S1x128x128_1_0_0 : ∀ a, (![1, 0, 0] : Fin 3 → Nat) a + S1x128x128.size a ≤ S8x128x128.size a
  inb_S8x128x1_S1x128x1_1_0_0 : ∀ a, (![1, 0, 0] : Fin 3 → Nat) a + S1x128x1.size a ≤ S8x128x1.size a
  inb_S8x1x1_S1x1x1_1_0_0 : ∀ a, (![1, 0, 0] : Fin 3 → Nat) a + S1x1x1.size a ≤ S8x1x1.size a
  inb_S8x1x2048_S1x1x2048_1_0_0 : ∀ a, (![1, 0, 0] : Fin 3 → Nat) a + S1x1x2048.size a ≤ S8x1x2048.size a
  inb_S8x3x2048_S1x3x2048_2_0_0 : ∀ a, (![2, 0, 0] : Fin 3 → Nat) a + S1x3x2048.size a ≤ S8x3x2048.size a
  inb_S8x13x1_S1x13x1_2_0_0 : ∀ a, (![2, 0, 0] : Fin 3 → Nat) a + S1x13x1.size a ≤ S8x13x1.size a
  inb_S8x16x128_S1x16x128_2_0_0 : ∀ a, (![2, 0, 0] : Fin 3 → Nat) a + S1x16x128.size a ≤ S8x16x128.size a
  inb_S8x1x128_S1x1x128_2_0_0 : ∀ a, (![2, 0, 0] : Fin 3 → Nat) a + S1x1x128.size a ≤ S8x1x128.size a
  inb_S8x128x128_S1x128x128_2_0_0 : ∀ a, (![2, 0, 0] : Fin 3 → Nat) a + S1x128x128.size a ≤ S8x128x128.size a
  inb_S8x128x1_S1x128x1_2_0_0 : ∀ a, (![2, 0, 0] : Fin 3 → Nat) a + S1x128x1.size a ≤ S8x128x1.size a
  inb_S8x1x1_S1x1x1_2_0_0 : ∀ a, (![2, 0, 0] : Fin 3 → Nat) a + S1x1x1.size a ≤ S8x1x1.size a
  inb_S8x1x2048_S1x1x2048_2_0_0 : ∀ a, (![2, 0, 0] : Fin 3 → Nat) a + S1x1x2048.size a ≤ S8x1x2048.size a
  inb_S8x3x2048_S1x3x2048_3_0_0 : ∀ a, (![3, 0, 0] : Fin 3 → Nat) a + S1x3x2048.size a ≤ S8x3x2048.size a
  inb_S8x13x1_S1x13x1_3_0_0 : ∀ a, (![3, 0, 0] : Fin 3 → Nat) a + S1x13x1.size a ≤ S8x13x1.size a
  inb_S8x16x128_S1x16x128_3_0_0 : ∀ a, (![3, 0, 0] : Fin 3 → Nat) a + S1x16x128.size a ≤ S8x16x128.size a
  inb_S8x1x128_S1x1x128_3_0_0 : ∀ a, (![3, 0, 0] : Fin 3 → Nat) a + S1x1x128.size a ≤ S8x1x128.size a
  inb_S8x128x128_S1x128x128_3_0_0 : ∀ a, (![3, 0, 0] : Fin 3 → Nat) a + S1x128x128.size a ≤ S8x128x128.size a
  inb_S8x128x1_S1x128x1_3_0_0 : ∀ a, (![3, 0, 0] : Fin 3 → Nat) a + S1x128x1.size a ≤ S8x128x1.size a
  inb_S8x1x1_S1x1x1_3_0_0 : ∀ a, (![3, 0, 0] : Fin 3 → Nat) a + S1x1x1.size a ≤ S8x1x1.size a
  inb_S8x1x2048_S1x1x2048_3_0_0 : ∀ a, (![3, 0, 0] : Fin 3 → Nat) a + S1x1x2048.size a ≤ S8x1x2048.size a
  inb_S8x3x2048_S1x3x2048_4_0_0 : ∀ a, (![4, 0, 0] : Fin 3 → Nat) a + S1x3x2048.size a ≤ S8x3x2048.size a
  inb_S8x13x1_S1x13x1_4_0_0 : ∀ a, (![4, 0, 0] : Fin 3 → Nat) a + S1x13x1.size a ≤ S8x13x1.size a
  inb_S8x16x128_S1x16x128_4_0_0 : ∀ a, (![4, 0, 0] : Fin 3 → Nat) a + S1x16x128.size a ≤ S8x16x128.size a
  inb_S8x1x128_S1x1x128_4_0_0 : ∀ a, (![4, 0, 0] : Fin 3 → Nat) a + S1x1x128.size a ≤ S8x1x128.size a
  inb_S8x128x128_S1x128x128_4_0_0 : ∀ a, (![4, 0, 0] : Fin 3 → Nat) a + S1x128x128.size a ≤ S8x128x128.size a
  inb_S8x128x1_S1x128x1_4_0_0 : ∀ a, (![4, 0, 0] : Fin 3 → Nat) a + S1x128x1.size a ≤ S8x128x1.size a
  inb_S8x1x1_S1x1x1_4_0_0 : ∀ a, (![4, 0, 0] : Fin 3 → Nat) a + S1x1x1.size a ≤ S8x1x1.size a
  inb_S8x1x2048_S1x1x2048_4_0_0 : ∀ a, (![4, 0, 0] : Fin 3 → Nat) a + S1x1x2048.size a ≤ S8x1x2048.size a
  inb_S8x3x2048_S1x3x2048_5_0_0 : ∀ a, (![5, 0, 0] : Fin 3 → Nat) a + S1x3x2048.size a ≤ S8x3x2048.size a
  inb_S8x13x1_S1x13x1_5_0_0 : ∀ a, (![5, 0, 0] : Fin 3 → Nat) a + S1x13x1.size a ≤ S8x13x1.size a
  inb_S8x16x128_S1x16x128_5_0_0 : ∀ a, (![5, 0, 0] : Fin 3 → Nat) a + S1x16x128.size a ≤ S8x16x128.size a
  inb_S8x1x128_S1x1x128_5_0_0 : ∀ a, (![5, 0, 0] : Fin 3 → Nat) a + S1x1x128.size a ≤ S8x1x128.size a
  inb_S8x128x128_S1x128x128_5_0_0 : ∀ a, (![5, 0, 0] : Fin 3 → Nat) a + S1x128x128.size a ≤ S8x128x128.size a
  inb_S8x128x1_S1x128x1_5_0_0 : ∀ a, (![5, 0, 0] : Fin 3 → Nat) a + S1x128x1.size a ≤ S8x128x1.size a
  inb_S8x1x1_S1x1x1_5_0_0 : ∀ a, (![5, 0, 0] : Fin 3 → Nat) a + S1x1x1.size a ≤ S8x1x1.size a
  inb_S8x1x2048_S1x1x2048_5_0_0 : ∀ a, (![5, 0, 0] : Fin 3 → Nat) a + S1x1x2048.size a ≤ S8x1x2048.size a
  inb_S8x3x2048_S1x3x2048_6_0_0 : ∀ a, (![6, 0, 0] : Fin 3 → Nat) a + S1x3x2048.size a ≤ S8x3x2048.size a
  inb_S8x13x1_S1x13x1_6_0_0 : ∀ a, (![6, 0, 0] : Fin 3 → Nat) a + S1x13x1.size a ≤ S8x13x1.size a
  inb_S8x16x128_S1x16x128_6_0_0 : ∀ a, (![6, 0, 0] : Fin 3 → Nat) a + S1x16x128.size a ≤ S8x16x128.size a
  inb_S8x1x128_S1x1x128_6_0_0 : ∀ a, (![6, 0, 0] : Fin 3 → Nat) a + S1x1x128.size a ≤ S8x1x128.size a
  inb_S8x128x128_S1x128x128_6_0_0 : ∀ a, (![6, 0, 0] : Fin 3 → Nat) a + S1x128x128.size a ≤ S8x128x128.size a
  inb_S8x128x1_S1x128x1_6_0_0 : ∀ a, (![6, 0, 0] : Fin 3 → Nat) a + S1x128x1.size a ≤ S8x128x1.size a
  inb_S8x1x1_S1x1x1_6_0_0 : ∀ a, (![6, 0, 0] : Fin 3 → Nat) a + S1x1x1.size a ≤ S8x1x1.size a
  inb_S8x1x2048_S1x1x2048_6_0_0 : ∀ a, (![6, 0, 0] : Fin 3 → Nat) a + S1x1x2048.size a ≤ S8x1x2048.size a
  inb_S8x3x2048_S1x3x2048_7_0_0 : ∀ a, (![7, 0, 0] : Fin 3 → Nat) a + S1x3x2048.size a ≤ S8x3x2048.size a
  inb_S8x13x1_S1x13x1_7_0_0 : ∀ a, (![7, 0, 0] : Fin 3 → Nat) a + S1x13x1.size a ≤ S8x13x1.size a
  inb_S8x16x128_S1x16x128_7_0_0 : ∀ a, (![7, 0, 0] : Fin 3 → Nat) a + S1x16x128.size a ≤ S8x16x128.size a
  inb_S8x1x128_S1x1x128_7_0_0 : ∀ a, (![7, 0, 0] : Fin 3 → Nat) a + S1x1x128.size a ≤ S8x1x128.size a
  inb_S8x128x128_S1x128x128_7_0_0 : ∀ a, (![7, 0, 0] : Fin 3 → Nat) a + S1x128x128.size a ≤ S8x128x128.size a
  inb_S8x128x1_S1x128x1_7_0_0 : ∀ a, (![7, 0, 0] : Fin 3 → Nat) a + S1x128x1.size a ≤ S8x128x1.size a
  inb_S8x1x1_S1x1x1_7_0_0 : ∀ a, (![7, 0, 0] : Fin 3 → Nat) a + S1x1x1.size a ≤ S8x1x1.size a
  inb_S8x1x2048_S1x1x2048_7_0_0 : ∀ a, (![7, 0, 0] : Fin 3 → Nat) a + S1x1x2048.size a ≤ S8x1x2048.size a
  transposes_S256x1x2048_S256x2048x1_0_2_1 : S256x1x2048.Transposes [0, 2, 1] S256x2048x1
  gather_S256x16x128_S256x1_S256x16x128_12_0_n_n_0_1_116128_wf : GatherDims.WF S256x16x128 S256x1 S256x16x128 [1, 2] [0] [] [0] [] 1 ![1, 16, 128]
  gather_S256x128x128_S256x1_S256x128x128_12_0_n_n_0_1_1128128_wf : GatherDims.WF S256x128x128 S256x1 S256x128x128 [1, 2] [0] [] [0] [] 1 ![1, 128, 128]
  gather_S256x128x1_S256x1_S256x128x1_12_0_n_n_0_1_11281_wf : GatherDims.WF S256x128x1 S256x1 S256x128x1 [1, 2] [0] [] [0] [] 1 ![1, 128, 1]
  gather_S256x1x128_S256x1_S256x1x128_12_0_n_n_0_1_11128_wf : GatherDims.WF S256x1x128 S256x1 S256x1x128 [1, 2] [0] [] [0] [] 1 ![1, 1, 128]
  gather_S256x1x1_S256x1_S256x1x1_12_0_n_n_0_1_111_wf : GatherDims.WF S256x1x1 S256x1 S256x1x1 [1, 2] [0] [] [0] [] 1 ![1, 1, 1]
  gather_S256x8x13_S256x2_S256x13_1_01_n_n_01_1_1113_wf : GatherDims.WF S256x8x13 S256x2 S256x13 [1] [0, 1] [] [0, 1] [] 1 ![1, 1, 13]
  dot_S16x128_S16x2048_S128x2048_0_0_1_1_n_n_wf : DotDims.WF S16x128 S16x2048 S128x2048 [0] [0] [1] [1] [] []
  dot_S128x128_S128x2048_S128x2048_0_0_1_1_n_n_wf : DotDims.WF S128x128 S128x2048 S128x2048 [0] [0] [1] [1] [] []
  dot_S128x1_S128x2048_S1x2048_0_0_1_1_n_n_wf : DotDims.WF S128x1 S128x2048 S1x2048 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .i32 = 32 ∨ (Rect.block (s := S4096x128) S4096x128.size (cc0_transform_2 i) (hinb0_2 i)).WholeWords (EltTy.packing .i32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S32768x128.size a
  hwx1_2 : ∀ i : grid1.Coords, EltTy.bits .i32 = 32 ∨ (Rect.block (s := S32768x128) S4096x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S32768x128.size a
  hwx1_3 : ∀ i : grid1.Coords, EltTy.bits .f32 = 32 ∨ (Rect.block (s := S32768x128) S4096x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128.size a ≤ S1x128.size a
  hwx2_0 : ∀ i : grid2.Coords, EltTy.bits .f32 = 32 ∨ (Rect.block (s := S1x128) S1x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S32768x128.size a
  hwx2_2 : ∀ i : grid2.Coords, EltTy.bits .i32 = 32 ∨ (Rect.block (s := S32768x128) S4096x128.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S32768x128.size a
  hwx2_3 : ∀ i : grid2.Coords, EltTy.bits .f32 = 32 ∨ (Rect.block (s := S32768x128) S4096x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x128.size a ≤ S1x128.size a
  hwx3_0 : ∀ i : grid3.Coords, EltTy.bits .f32 = 32 ∨ (Rect.block (s := S1x128) S1x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .i32 = 32 ∨ (Rect.block (s := S256x128) S256x128.size (cc3_transform_2 i) (hinb3_2 i)).WholeWords (EltTy.packing .i32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x3x2048.size a ≤ S256x3x2048.size a
  hwx4_0 : ∀ i : grid4.Coords, EltTy.bits .f32 = 32 ∨ (Rect.block (s := S256x3x2048) S8x3x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x13x1.size a ≤ S256x13x1.size a
  hwx4_1 : ∀ i : grid4.Coords, EltTy.bits .f32 = 32 ∨ (Rect.block (s := S256x13x1) S8x13x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x16x128.size a ≤ S256x16x128.size a
  hwx4_2 : ∀ i : grid4.Coords, EltTy.bits .f32 = 32 ∨ (Rect.block (s := S256x16x128) S8x16x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x1x128.size a ≤ S256x1x128.size a
  hwx4_3 : ∀ i : grid4.Coords, EltTy.bits .f32 = 32 ∨ (Rect.block (s := S256x1x128) S8x1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8x128x128.size a ≤ S256x128x128.size a
  hwx4_4 : ∀ i : grid4.Coords, EltTy.bits .f32 = 32 ∨ (Rect.block (s := S256x128x128) S8x128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x1x128.size a ≤ S256x1x128.size a
  hwx4_5 : ∀ i : grid4.Coords, EltTy.bits .f32 = 32 ∨ (Rect.block (s := S256x1x128) S8x1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x128x128.size a ≤ S256x128x128.size a
  hwx4_6 : ∀ i : grid4.Coords, EltTy.bits .f32 = 32 ∨ (Rect.block (s := S256x128x128) S8x128x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x1x128.size a ≤ S256x1x128.size a
  hwx4_7 : ∀ i : grid4.Coords, EltTy.bits .f32 = 32 ∨ (Rect.block (s := S256x1x128) S8x1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128x1.size a ≤ S256x128x1.size a
  hwx4_8 : ∀ i : grid4.Coords, EltTy.bits .f32 = 32 ∨ (Rect.block (s := S256x128x1) S8x128x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8x1x1.size a ≤ S256x1x1.size a
  hwx4_9 : ∀ i : grid4.Coords, EltTy.bits .f32 = 32 ∨ (Rect.block (s := S256x1x1) S8x1x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S8x1x2048.size a ≤ S256x1x2048.size a
  hwx4_10 : ∀ i : grid4.Coords, EltTy.bits .f32 = 32 ∨ (Rect.block (s := S256x1x2048) S8x1x2048.size (cc4_transform_10 i) (hinb4_10 i)).WholeWords (EltTy.packing .f32)

variable [Facts₀]

def gather_S256x16x128_S256x1_S256x16x128_12_0_n_n_0_1_116128 : GatherDims S256x16x128 S256x1 S256x16x128 where
  offsetDims := [1, 2]
  collapsedSliceDims := [0]
  operandBatchingDims := []
  startIndicesBatchingDims := []
  startIndexMap := [0]
  indexVectorDim := 1
  sliceSizes := ![1, 16, 128]
  wf := gather_S256x16x128_S256x1_S256x16x128_12_0_n_n_0_1_116128_wf
def gather_S256x128x128_S256x1_S256x128x128_12_0_n_n_0_1_1128128 : GatherDims S256x128x128 S256x1 S256x128x128 where
  offsetDims := [1, 2]
  collapsedSliceDims := [0]
  operandBatchingDims := []
  startIndicesBatchingDims := []
  startIndexMap := [0]
  indexVectorDim := 1
  sliceSizes := ![1, 128, 128]
  wf := gather_S256x128x128_S256x1_S256x128x128_12_0_n_n_0_1_1128128_wf
def gather_S256x128x1_S256x1_S256x128x1_12_0_n_n_0_1_11281 : GatherDims S256x128x1 S256x1 S256x128x1 where
  offsetDims := [1, 2]
  collapsedSliceDims := [0]
  operandBatchingDims := []
  startIndicesBatchingDims := []
  startIndexMap := [0]
  indexVectorDim := 1
  sliceSizes := ![1, 128, 1]
  wf := gather_S256x128x1_S256x1_S256x128x1_12_0_n_n_0_1_11281_wf
def gather_S256x1x128_S256x1_S256x1x128_12_0_n_n_0_1_11128 : GatherDims S256x1x128 S256x1 S256x1x128 where
  offsetDims := [1, 2]
  collapsedSliceDims := [0]
  operandBatchingDims := []
  startIndicesBatchingDims := []
  startIndexMap := [0]
  indexVectorDim := 1
  sliceSizes := ![1, 1, 128]
  wf := gather_S256x1x128_S256x1_S256x1x128_12_0_n_n_0_1_11128_wf
def gather_S256x1x1_S256x1_S256x1x1_12_0_n_n_0_1_111 : GatherDims S256x1x1 S256x1 S256x1x1 where
  offsetDims := [1, 2]
  collapsedSliceDims := [0]
  operandBatchingDims := []
  startIndicesBatchingDims := []
  startIndexMap := [0]
  indexVectorDim := 1
  sliceSizes := ![1, 1, 1]
  wf := gather_S256x1x1_S256x1_S256x1x1_12_0_n_n_0_1_111_wf
def gather_S256x8x13_S256x2_S256x13_1_01_n_n_01_1_1113 : GatherDims S256x8x13 S256x2 S256x13 where
  offsetDims := [1]
  collapsedSliceDims := [0, 1]
  operandBatchingDims := []
  startIndicesBatchingDims := []
  startIndexMap := [0, 1]
  indexVectorDim := 1
  sliceSizes := ![1, 1, 13]
  wf := gather_S256x8x13_S256x2_S256x13_1_01_n_n_01_1_1113_wf
def dot_S16x128_S16x2048_S128x2048_0_0_1_1_n_n : DotDims S16x128 S16x2048 S128x2048 where
  lhsContracting := [0]
  rhsContracting := [0]
  lhsNonContracting := [1]
  rhsNonContracting := [1]
  lhsBatch := []
  rhsBatch := []
  wf := dot_S16x128_S16x2048_S128x2048_0_0_1_1_n_n_wf
def dot_S128x128_S128x2048_S128x2048_0_0_1_1_n_n : DotDims S128x128 S128x2048 S128x2048 where
  lhsContracting := [0]
  rhsContracting := [0]
  lhsNonContracting := [1]
  rhsNonContracting := [1]
  lhsBatch := []
  rhsBatch := []
  wf := dot_S128x128_S128x2048_S128x2048_0_0_1_1_n_n_wf
def dot_S128x1_S128x2048_S1x2048_0_0_1_1_n_n : DotDims S128x1 S128x2048 S1x2048 where
  lhsContracting := [0]
  rhsContracting := [0]
  lhsNonContracting := [1]
  rhsNonContracting := [1]
  lhsBatch := []
  rhsBatch := []
  wf := dot_S128x1_S128x2048_S1x2048_0_0_1_1_n_n_wf

abbrev win0_0 : Pipeline.Window sig grid0 :=
  Pipeline.Window.ofSpec (Memref.whole main_v2) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S1x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S256x128.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S256x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v103) S8x3x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S8x13x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S8x16x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S8x1x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v45) S8x128x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v73) S8x1x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v52) S8x128x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v80) S8x1x128.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v59) S8x128x1.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v87) S8x1x1.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_v104) S8x1x2048.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S256x2048x3 : Shape := ⟨3, ![256, 2048, 3]⟩
abbrev S256 : Shape := ⟨1, ![256]⟩
abbrev S256x8x13 : Shape := ⟨3, ![256, 8, 13]⟩
abbrev S524288 : Shape := ⟨1, ![524288]⟩
abbrev S256x1x128 : Shape := ⟨3, ![256, 1, 128]⟩
abbrev S4194304 : Shape := ⟨1, ![4194304]⟩
abbrev S32768 : Shape := ⟨1, ![32768]⟩
abbrev S256x1x1 : Shape := ⟨3, ![256, 1, 1]⟩
abbrev S_ : Shape := ⟨0, ![]⟩
abbrev S256x1 : Shape := ⟨2, ![256, 1]⟩
abbrev S256x2 : Shape := ⟨2, ![256, 2]⟩
abbrev S256x13 : Shape := ⟨2, ![256, 13]⟩
abbrev S256x1x13 : Shape := ⟨3, ![256, 1, 13]⟩
abbrev S256x2048x13 : Shape := ⟨3, ![256, 2048, 13]⟩
abbrev S256x2048x16 : Shape := ⟨3, ![256, 2048, 16]⟩
abbrev S524288x1 : Shape := ⟨2, ![524288, 1]⟩
abbrev S256x16x128 : Shape := ⟨3, ![256, 16, 128]⟩
abbrev S256x2048x128 : Shape := ⟨3, ![256, 2048, 128]⟩
abbrev S4194304x1 : Shape := ⟨2, ![4194304, 1]⟩
abbrev S256x128x128 : Shape := ⟨3, ![256, 128, 128]⟩
abbrev S32768x1 : Shape := ⟨2, ![32768, 1]⟩
abbrev S256x128x1 : Shape := ⟨3, ![256, 128, 1]⟩
abbrev S256x2048x1 : Shape := ⟨3, ![256, 2048, 1]⟩

abbrev nBuf : Space → Nat
  | .hbm => 173
  | .vmem => 0
  | .smem => 0
  | _ => 0

abbrev hbmTy0_0 (i : Nat) : BufTy := match i % 128 with
  | 0 => ⟨S256x2048x3, .f32⟩
  | 1 => ⟨S256, .i32⟩
  | 2 => ⟨S256, .i32⟩
  | 3 => ⟨S256x8x13, .f32⟩
  | 4 => ⟨S256, .f32⟩
  | 5 => ⟨S524288, .i32⟩
  | 6 => ⟨S256x1x128, .f32⟩
  | 7 => ⟨S256, .f32⟩
  | 8 => ⟨S4194304, .i32⟩
  | 9 => ⟨S256x1x128, .f32⟩
  | 10 => ⟨S256, .f32⟩
  | 11 => ⟨S4194304, .i32⟩
  | 12 => ⟨S256x1x128, .f32⟩
  | 13 => ⟨S256, .f32⟩
  | 14 => ⟨S32768, .i32⟩
  | 15 => ⟨S256x1x1, .f32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S_, .i32⟩
  | 24 => ⟨S256, .i32⟩
  | 25 => ⟨S256, .i1⟩
  | 26 => ⟨S_, .i32⟩
  | 27 => ⟨S256, .i32⟩
  | 28 => ⟨S256, .i32⟩
  | 29 => ⟨S256, .i32⟩
  | 30 => ⟨S256x1, .i32⟩
  | 31 => ⟨S256x1, .i32⟩
  | 32 => ⟨S256x2, .i32⟩
  | 33 => ⟨S256x13, .f32⟩
  | 34 => ⟨S256x1x13, .f32⟩
  | 35 => ⟨S256x2048x13, .f32⟩
  | 36 => ⟨S256x2048x16, .f32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S524288, .f32⟩
  | 46 => ⟨S256x16x128, .f32⟩
  | 47 => ⟨S_, .i32⟩
  | 48 => ⟨S256, .i32⟩
  | 49 => ⟨S256, .i1⟩
  | 50 => ⟨S_, .i32⟩
  | 51 => ⟨S256, .i32⟩
  | 52 => ⟨S256, .i32⟩
  | 53 => ⟨S256, .i32⟩
  | 54 => ⟨S256x1, .i32⟩
  | 55 => ⟨S256x16x128, .f32⟩
  | 56 => ⟨S256x2048x128, .f32⟩
  | 57 => ⟨S_, .i32⟩
  | 58 => ⟨S256, .i32⟩
  | 59 => ⟨S256, .i1⟩
  | 60 => ⟨S_, .i32⟩
  | 61 => ⟨S256, .i32⟩
  | 62 => ⟨S256, .i32⟩
  | 63 => ⟨S256, .i32⟩
  | 64 => ⟨S256x1, .i32⟩
  | 65 => ⟨S256x1x128, .f32⟩
  | 66 => ⟨S256x2048x128, .f32⟩
  | 67 => ⟨S256x2048x128, .f32⟩
  | 68 => ⟨S_, .f32⟩
  | 69 => ⟨S256x2048x128, .f32⟩
  | 70 => ⟨S256x2048x128, .f32⟩
  | 71 => ⟨S256x2048x128, .f32⟩
  | 72 => ⟨S_, .i32⟩
  | 73 => ⟨S4194304, .i32⟩
  | 74 => ⟨S4194304, .i1⟩
  | 75 => ⟨S_, .i32⟩
  | 76 => ⟨S4194304, .i32⟩
  | 77 => ⟨S4194304, .i32⟩
  | 78 => ⟨S4194304, .i32⟩
  | 79 => ⟨S4194304x1, .i32⟩
  | 80 => ⟨S4194304, .f32⟩
  | 81 => ⟨S256x128x128, .f32⟩
  | 82 => ⟨S_, .i32⟩
  | 83 => ⟨S256, .i32⟩
  | 84 => ⟨S256, .i1⟩
  | 85 => ⟨S_, .i32⟩
  | 86 => ⟨S256, .i32⟩
  | 87 => ⟨S256, .i32⟩
  | 88 => ⟨S256, .i32⟩
  | 89 => ⟨S256x1, .i32⟩
  | 90 => ⟨S256x128x128, .f32⟩
  | 91 => ⟨S256x2048x128, .f32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S256x1x128, .f32⟩
  | 101 => ⟨S256x2048x128, .f32⟩
  | 102 => ⟨S256x2048x128, .f32⟩
  | 103 => ⟨S_, .f32⟩
  | 104 => ⟨S256x2048x128, .f32⟩
  | 105 => ⟨S256x2048x128, .f32⟩
  | 106 => ⟨S256x2048x128, .f32⟩
  | 107 => ⟨S_, .i32⟩
  | 108 => ⟨S4194304, .i32⟩
  | 109 => ⟨S4194304, .i1⟩
  | 110 => ⟨S_, .i32⟩
  | 111 => ⟨S4194304, .i32⟩
  | 112 => ⟨S4194304, .i32⟩
  | 113 => ⟨S4194304, .i32⟩
  | 114 => ⟨S4194304x1, .i32⟩
  | 115 => ⟨S4194304, .f32⟩
  | 116 => ⟨S256x128x128, .f32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S256x128x128, .f32⟩
  | 126 => ⟨S256x2048x128, .f32⟩
  | 127 => ⟨S_, .i32⟩
  | _ => ⟨S256x2048x3, .f32⟩

abbrev hbmTy0_1 (i : Nat) : BufTy := match i % 128 with
  | 0 => ⟨S256, .i32⟩
  | 1 => ⟨S256, .i1⟩
  | 2 => ⟨S_, .i32⟩
  | 3 => ⟨S256, .i32⟩
  | 4 => ⟨S256, .i32⟩
  | 5 => ⟨S256, .i32⟩
  | 6 => ⟨S256x1, .i32⟩
  | 7 => ⟨S256x1x128, .f32⟩
  | 8 => ⟨S256x2048x128, .f32⟩
  | 9 => ⟨S256x2048x128, .f32⟩
  | 10 => ⟨S_, .f32⟩
  | 11 => ⟨S256x2048x128, .f32⟩
  | 12 => ⟨S256x2048x128, .f32⟩
  | 13 => ⟨S256x2048x128, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768, .f32⟩
  | 23 => ⟨S256x128x1, .f32⟩
  | 24 => ⟨S_, .i32⟩
  | 25 => ⟨S256, .i32⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256x128x1, .f32⟩
  | 33 => ⟨S256x2048x1, .f32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256x1x1, .f32⟩
  | 43 => ⟨S256x2048x1, .f32⟩
  | 44 => ⟨S256x2048x1, .f32⟩
  | _ => ⟨S256x2048x3, .f32⟩

abbrev hbmTy (i : Nat) : BufTy := match i / 128 with
  | 0 => hbmTy0_0 i
  | 1 => hbmTy0_1 i
  | _ => ⟨S256x2048x3, .f32⟩

abbrev bufTy : (tb : Table) → Fin (tcTables nBuf tb) → BufTy
  | .hbm, ⟨i, _⟩ => hbmTy i
  | _, _ => ⟨S256x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_20 : Ref sig .tc := ⟨.hbm, 127, rfl⟩
abbrev main_v89 : Ref sig .tc := ⟨.hbm, 128, rfl⟩
abbrev main_v90 : Ref sig .tc := ⟨.hbm, 129, rfl⟩
abbrev main_c_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_23 : Ref sig .tc := ⟨.hbm, 142, rfl⟩
abbrev main_v101 : Ref sig .tc := ⟨.hbm, 143, rfl⟩
abbrev main_v102 : Ref sig .tc := ⟨.hbm, 144, rfl⟩
abbrev main_c_24 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_25 : Ref sig .tc := ⟨.hbm, 152, rfl⟩
abbrev main_v109 : Ref sig .tc := ⟨.hbm, 153, rfl⟩
abbrev main_v110 : Ref sig .tc := ⟨.hbm, 154, rfl⟩
abbrev main_c_26 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_c_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  bcast_S256x13_S256x1x13_0_2 : S256x13.BroadcastsInDim S256x1x13 (![0, 2] : Fin 2 → Fin S256x1x13.rank)
  bcast_S256x1x13_S256x2048x13_0_1_2 : S256x1x13.BroadcastsInDim S256x2048x13 (![0, 1, 2] : Fin 3 → Fin S256x2048x13.rank)
  concatenates_S256x2048x3_S256x2048x13_S256x2048x16_d2 : Shape.Concatenates [S256x2048x3, S256x2048x13] S256x2048x16 2
  bcast_S_S524288 : S_.BroadcastsInDim S524288 (![] : Fin 0 → Fin S524288.rank)
  bcast_S524288_S524288x1_0 : S524288.BroadcastsInDim S524288x1 (![0] : Fin 1 → Fin S524288x1.rank)
  shapeCasts_S524288_S256x16x128 : S524288.ShapeCasts S256x16x128
  bcast_S256x1x128_S256x2048x128_0_1_2 : S256x1x128.BroadcastsInDim S256x2048x128 (![0, 1, 2] : Fin 3 → Fin S256x2048x128.rank)
  bcast_S_S256x2048x128 : S_.BroadcastsInDim S256x2048x128 (![] : Fin 0 → Fin S256x2048x128.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S4194304_S256x128x128 : S4194304.ShapeCasts S256x128x128
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S256x128x1 : S32768.ShapeCasts S256x128x1
  bcast_S256x1x1_S256x2048x1_0_1_2 : S256x1x1.BroadcastsInDim S256x2048x1 (![0, 1, 2] : Fin 3 → Fin S256x2048x1.rank)
  gather_S256x8x13_S256x2_S256x13_1_01_n_n_01_1_1113_wf : GatherDims.WF S256x8x13 S256x2 S256x13 [1] [0, 1] [] [0, 1] [] 1 ![1, 1, 13]
  gather_S256_S524288x1_S524288_n_0_n_n_0_1_1_wf : GatherDims.WF S256 S524288x1 S524288 [] [0] [] [0] [] 1 ![1]
  gather_S256x16x128_S256x1_S256x16x128_12_0_n_n_0_1_116128_wf : GatherDims.WF S256x16x128 S256x1 S256x16x128 [1, 2] [0] [] [0] [] 1 ![1, 16, 128]
  dot_S256x2048x16_S256x16x128_S256x2048x128_2_1_1_2_0_0_wf : DotDims.WF S256x2048x16 S256x16x128 S256x2048x128 [2] [1] [1] [2] [0] [0]
  gather_S256x1x128_S256x1_S256x1x128_12_0_n_n_0_1_11128_wf : GatherDims.WF S256x1x128 S256x1 S256x1x128 [1, 2] [0] [] [0] [] 1 ![1, 1, 128]
  gather_S256_S4194304x1_S4194304_n_0_n_n_0_1_1_wf : GatherDims.WF S256 S4194304x1 S4194304 [] [0] [] [0] [] 1 ![1]
  gather_S256x128x128_S256x1_S256x128x128_12_0_n_n_0_1_1128128_wf : GatherDims.WF S256x128x128 S256x1 S256x128x128 [1, 2] [0] [] [0] [] 1 ![1, 128, 128]
  dot_S256x2048x128_S256x128x128_S256x2048x128_2_1_1_2_0_0_wf : DotDims.WF S256x2048x128 S256x128x128 S256x2048x128 [2] [1] [1] [2] [0] [0]
  gather_S256_S32768x1_S32768_n_0_n_n_0_1_1_wf : GatherDims.WF S256 S32768x1 S32768 [] [0] [] [0] [] 1 ![1]
  gather_S256x128x1_S256x1_S256x128x1_12_0_n_n_0_1_11281_wf : GatherDims.WF S256x128x1 S256x1 S256x128x1 [1, 2] [0] [] [0] [] 1 ![1, 128, 1]
  dot_S256x2048x128_S256x128x1_S256x2048x1_2_1_1_2_0_0_wf : DotDims.WF S256x2048x128 S256x128x1 S256x2048x1 [2] [1] [1] [2] [0] [0]
  gather_S256x1x1_S256x1_S256x1x1_12_0_n_n_0_1_111_wf : GatherDims.WF S256x1x1 S256x1 S256x1x1 [1, 2] [0] [] [0] [] 1 ![1, 1, 1]

variable [Facts₀]

def gather_S256x8x13_S256x2_S256x13_1_01_n_n_01_1_1113 : GatherDims S256x8x13 S256x2 S256x13 where
  offsetDims := [1]
  collapsedSliceDims := [0, 1]
  operandBatchingDims := []
  startIndicesBatchingDims := []
  startIndexMap := [0, 1]
  indexVectorDim := 1
  sliceSizes := ![1, 1, 13]
  wf := gather_S256x8x13_S256x2_S256x13_1_01_n_n_01_1_1113_wf
def gather_S256_S524288x1_S524288_n_0_n_n_0_1_1 : GatherDims S256 S524288x1 S524288 where
  offsetDims := []
  collapsedSliceDims := [0]
  operandBatchingDims := []
  startIndicesBatchingDims := []
  startIndexMap := [0]
  indexVectorDim := 1
  sliceSizes := ![1]
  wf := gather_S256_S524288x1_S524288_n_0_n_n_0_1_1_wf
def gather_S256x16x128_S256x1_S256x16x128_12_0_n_n_0_1_116128 : GatherDims S256x16x128 S256x1 S256x16x128 where
  offsetDims := [1, 2]
  collapsedSliceDims := [0]
  operandBatchingDims := []
  startIndicesBatchingDims := []
  startIndexMap := [0]
  indexVectorDim := 1
  sliceSizes := ![1, 16, 128]
  wf := gather_S256x16x128_S256x1_S256x16x128_12_0_n_n_0_1_116128_wf
def dot_S256x2048x16_S256x16x128_S256x2048x128_2_1_1_2_0_0 : DotDims S256x2048x16 S256x16x128 S256x2048x128 where
  lhsContracting := [2]
  rhsContracting := [1]
  lhsNonContracting := [1]
  rhsNonContracting := [2]
  lhsBatch := [0]
  rhsBatch := [0]
  wf := dot_S256x2048x16_S256x16x128_S256x2048x128_2_1_1_2_0_0_wf
def gather_S256x1x128_S256x1_S256x1x128_12_0_n_n_0_1_11128 : GatherDims S256x1x128 S256x1 S256x1x128 where
  offsetDims := [1, 2]
  collapsedSliceDims := [0]
  operandBatchingDims := []
  startIndicesBatchingDims := []
  startIndexMap := [0]
  indexVectorDim := 1
  sliceSizes := ![1, 1, 128]
  wf := gather_S256x1x128_S256x1_S256x1x128_12_0_n_n_0_1_11128_wf
def gather_S256_S4194304x1_S4194304_n_0_n_n_0_1_1 : GatherDims S256 S4194304x1 S4194304 where
  offsetDims := []
  collapsedSliceDims := [0]
  operandBatchingDims := []
  startIndicesBatchingDims := []
  startIndexMap := [0]
  indexVectorDim := 1
  sliceSizes := ![1]
  wf := gather_S256_S4194304x1_S4194304_n_0_n_n_0_1_1_wf
def gather_S256x128x128_S256x1_S256x128x128_12_0_n_n_0_1_1128128 : GatherDims S256x128x128 S256x1 S256x128x128 where
  offsetDims := [1, 2]
  collapsedSliceDims := [0]
  operandBatchingDims := []
  startIndicesBatchingDims := []
  startIndexMap := [0]
  indexVectorDim := 1
  sliceSizes := ![1, 128, 128]
  wf := gather_S256x128x128_S256x1_S256x128x128_12_0_n_n_0_1_1128128_wf
def dot_S256x2048x128_S256x128x128_S256x2048x128_2_1_1_2_0_0 : DotDims S256x2048x128 S256x128x128 S256x2048x128 where
  lhsContracting := [2]
  rhsContracting := [1]
  lhsNonContracting := [1]
  rhsNonContracting := [2]
  lhsBatch := [0]
  rhsBatch := [0]
  wf := dot_S256x2048x128_S256x128x128_S256x2048x128_2_1_1_2_0_0_wf
def gather_S256_S32768x1_S32768_n_0_n_n_0_1_1 : GatherDims S256 S32768x1 S32768 where
  offsetDims := []
  collapsedSliceDims := [0]
  operandBatchingDims := []
  startIndicesBatchingDims := []
  startIndexMap := [0]
  indexVectorDim := 1
  sliceSizes := ![1]
  wf := gather_S256_S32768x1_S32768_n_0_n_n_0_1_1_wf
def gather_S256x128x1_S256x1_S256x128x1_12_0_n_n_0_1_11281 : GatherDims S256x128x1 S256x1 S256x128x1 where
  offsetDims := [1, 2]
  collapsedSliceDims := [0]
  operandBatchingDims := []
  startIndicesBatchingDims := []
  startIndexMap := [0]
  indexVectorDim := 1
  sliceSizes := ![1, 128, 1]
  wf := gather_S256x128x1_S256x1_S256x128x1_12_0_n_n_0_1_11281_wf
def dot_S256x2048x128_S256x128x1_S256x2048x1_2_1_1_2_0_0 : DotDims S256x2048x128 S256x128x1 S256x2048x1 where
  lhsContracting := [2]
  rhsContracting := [1]
  lhsNonContracting := [1]
  rhsNonContracting := [2]
  lhsBatch := [0]
  rhsBatch := [0]
  wf := dot_S256x2048x128_S256x128x1_S256x2048x1_2_1_1_2_0_0_wf
def gather_S256x1x1_S256x1_S256x1x1_12_0_n_n_0_1_111 : GatherDims S256x1x1 S256x1 S256x1x1 where
  offsetDims := [1, 2]
  collapsedSliceDims := [0]
  operandBatchingDims := []
  startIndicesBatchingDims := []
  startIndexMap := [0]
  indexVectorDim := 1
  sliceSizes := ![1, 1, 1]
  wf := gather_S256x1x1_S256x1_S256x1x1_12_0_n_n_0_1_111_wf

class Facts : Prop extends Facts₀ where

variable [Facts]
-- ==== Proof.KHostB.lean ====
/-
  The host program, part two: what the main region is entered with, and how @main's result is read off the region's
  output.

  The points are transposed to [sample, coordinate, point]; each sample's latent code is looked up in the latent table
  by its (network, block) pair and laid as a column; each layer's weights and biases are looked up by the sample's
  network index, in the layer's table or in the bias argument. An index is first normalised the way array indexing
  does it (a negative index counts from the end) and the lookup clamps what is still out of range. The result is the
  region's output [sample, 0, point] transposed to [sample, point, 0].
-/
import proofs.«404252_j74268574482736_3_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Indexing's normalisation of an index vector over an axis of extent `n`: add `n` to the negative entries. -/
def wrap (n : BitVec 32) (a : IVec S256 32) : IVec S256 32 :=
  select (cmpi .slt a (broadcastInDim S256 ![] bcast_S_S256 (constantI S_ 32 0#32))) (addi a (broadcastInDim S256 ![] bcast_S_S256 (constantI S_ 32 n))) a

/-- The samples' network indices as a column of start indices. -/
def rowIdx (a1 : IVec S256 32) : IVec S256x1 32 := broadcastInDim S256x1 ![0] bcast_S256_S256x1_0 (wrap 256#32 a1)

/-- The samples' (network, block) pairs as rows of start indices into the latent table. -/
def latIdx (a1 a2 : IVec S256 32) : IVec S256x2 32 :=
  concatenate S256x2 1 [⟨S256x1, rowIdx a1⟩, ⟨S256x1, broadcastInDim S256x1 ![0] bcast_S256_S256x1_0 (wrap 8#32 a2)⟩] concatenates_S256x1_S256x1_S256x2_d1

/-! ## The arguments at region 3's exit are as launched -/

/-- A buffer none of a host stretch's operations writes is left as it was. -/
local macro "host_untouched" ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- No host operation before region 4's stretch and none of regions 0 … 3 writes one of these arguments (a region
    reads an argument through an input window or not at all), so at region 3's exit it holds the launch contents. -/
theorem W8_arg' (c : Dev nD) (b : Ref sig .tc)
    (hb : b = main_arg0 ∨ b = main_arg1 ∨ b = main_arg2 ∨ b = main_arg3 ∨ b = main_arg6 ∨ b = main_arg9 ∨ b = main_arg12 ∨ b = main_arg15) :
    W8 m ρ c (Proc.devRef .tc b) = m ((c : Thread nD τ).loc b) := by
  rcases hb with rfl | rfl | rfl | rfl | rfl | rfl | rfl | rfl
  all_goals exact
    (W8_of_ne m ρ c _ (by decide)).trans <|
    (host_untouched hostOps3).trans <|
    (W6_of_ne m ρ c _ (by decide)).trans <|
    (host_untouched hostOps2).trans <|
    (W4_of_ne m ρ c _ (by decide)).trans <|
    (host_untouched hostOps1).trans <|
    (W2_of_ne m ρ c _ (by decide)).trans <|
    (host_untouched hostOps0).trans rfl

private theorem W8_a0 (c : Dev nD) : W8 m ρ c (Proc.devRef .tc main_arg0) = m ((c : Thread nD τ).loc main_arg0) := W8_arg' m ρ c _ (.inl rfl)
private theorem W8_a1 (c : Dev nD) : W8 m ρ c (Proc.devRef .tc main_arg1) = m ((c : Thread nD τ).loc main_arg1) := W8_arg' m ρ c _ (.inr (.inl rfl))
private theorem W8_a2 (c : Dev nD) : W8 m ρ c (Proc.devRef .tc main_arg2) = m ((c : Thread nD τ).loc main_arg2) := W8_arg' m ρ c _ (.inr (.inr (.inl rfl)))
private theorem W8_a3 (c : Dev nD) : W8 m ρ c (Proc.devRef .tc main_arg3) = m ((c : Thread nD τ).loc main_arg3) := W8_arg' m ρ c _ (.inr (.inr (.inr (.inl rfl))))
private theorem W8_a6 (c : Dev nD) : W8 m ρ c (Proc.devRef .tc main_arg6) = m ((c : Thread nD τ).loc main_arg6) := W8_arg' m ρ c _ (.inr (.inr (.inr (.inr (.inl rfl)))))
private theorem W8_a9 (c : Dev nD) : W8 m ρ c (Proc.devRef .tc main_arg9) = m ((c : Thread nD τ).loc main_arg9) := W8_arg' m ρ c _ (.inr (.inr (.inr (.inr (.inr (.inl rfl))))))
private theorem W8_a12 (c : Dev nD) : W8 m ρ c (Proc.devRef .tc main_arg12) = m ((c : Thread nD τ).loc main_arg12) := W8_arg' m ρ c _ (.inr (.inr (.inr (.inr (.inr (.inr (.inl rfl)))))))
private theorem W8_a15 (c : Dev nD) : W8 m ρ c (Proc.devRef .tc main_arg15) = m ((c : Thread nD τ).loc main_arg15) := W8_arg' m ρ c _ (.inr (.inr (.inr (.inr (.inr (.inr (.inr rfl)))))))

/-! ## What the main region is entered with -/

set_option maxHeartbeats 40000000 in
theorem v103_eq (c : Dev nD) : V9 m ρ c main_v103 = transpose S256x3x2048 [0, 2, 1] (m ((c : Thread nD τ).loc main_arg0)) transposes_S256x2048x3_S256x3x2048_0_2_1 := by
  show StableHlo.after hostOps4 (W8 m ρ c) (Proc.devRef .tc main_v103) = _
  after_results
  rw [W8_a0]
set_option maxHeartbeats 40000000 in
theorem v102_eq (c : Dev nD) : V9 m ρ c main_v102
    = shapeCast S256x13x1 (Host.gather gather_S256x8x13_S256x2_S256x13_1_01_n_n_01_1_1113 (m ((c : Thread nD τ).loc main_arg3))
        (latIdx (m ((c : Thread nD τ).loc main_arg1)) (m ((c : Thread nD τ).loc main_arg2)))) shapeCasts_S256x13_S256x13x1 := by
  show StableHlo.after hostOps4 (W8 m ρ c) (Proc.devRef .tc main_v102) = _
  after_results
  rw [W8_a1, W8_a2, W8_a3]; rfl
set_option maxHeartbeats 40000000 in
theorem v38_eq (c : Dev nD) : V9 m ρ c main_v38
    = Host.gather gather_S256x16x128_S256x1_S256x16x128_12_0_n_n_0_1_116128 (W8 m ρ c (Proc.devRef .tc main_v7)) (rowIdx (m ((c : Thread nD τ).loc main_arg1))) := by
  show StableHlo.after hostOps4 (W8 m ρ c) (Proc.devRef .tc main_v38) = _
  after_results
  rw [W8_a1]; rfl
set_option maxHeartbeats 40000000 in
theorem v66_eq (c : Dev nD) : V9 m ρ c main_v66
    = Host.gather gather_S256x1x128_S256x1_S256x1x128_12_0_n_n_0_1_11128 (m ((c : Thread nD τ).loc main_arg6)) (rowIdx (m ((c : Thread nD τ).loc main_arg1))) := by
  show StableHlo.after hostOps4 (W8 m ρ c) (Proc.devRef .tc main_v66) = _
  after_results
  rw [W8_a1, W8_a6]; rfl
set_option maxHeartbeats 40000000 in
theorem v45_eq (c : Dev nD) : V9 m ρ c main_v45
    = Host.gather gather_S256x128x128_S256x1_S256x128x128_12_0_n_n_0_1_1128128 (W8 m ρ c (Proc.devRef .tc main_v15)) (rowIdx (m ((c : Thread nD τ).loc main_arg1))) := by
  show StableHlo.after hostOps4 (W8 m ρ c) (Proc.devRef .tc main_v45) = _
  after_results
  rw [W8_a1]; rfl
set_option maxHeartbeats 40000000 in
theorem v73_eq (c : Dev nD) : V9 m ρ c main_v73
    = Host.gather gather_S256x1x128_S256x1_S256x1x128_12_0_n_n_0_1_11128 (m ((c : Thread nD τ).loc main_arg9)) (rowIdx (m ((c : Thread nD τ).loc main_arg1))) := by
  show StableHlo.after hostOps4 (W8 m ρ c) (Proc.devRef .tc main_v73) = _
  after_results
  rw [W8_a1, W8_a9]; rfl
set_option maxHeartbeats 40000000 in
theorem v52_eq (c : Dev nD) : V9 m ρ c main_v52
    = Host.gather gather_S256x128x128_S256x1_S256x128x128_12_0_n_n_0_1_1128128 (W8 m ρ c (Proc.devRef .tc main_v23)) (rowIdx (m ((c : Thread nD τ).loc main_arg1))) := by
  show StableHlo.after hostOps4 (W8 m ρ c) (Proc.devRef .tc main_v52) = _
  after_results
  rw [W8_a1]; rfl
set_option maxHeartbeats 40000000 in
theorem v80_eq (c : Dev nD) : V9 m ρ c main_v80
    = Host.gather gather_S256x1x128_S256x1_S256x1x128_12_0_n_n_0_1_11128 (m ((c : Thread nD τ).loc main_arg12)) (rowIdx (m ((c : Thread nD τ).loc main_arg1))) := by
  show StableHlo.after hostOps4 (W8 m ρ c) (Proc.devRef .tc main_v80) = _
  after_results
  rw [W8_a1, W8_a12]; rfl
set_option maxHeartbeats 40000000 in
theorem v59_eq (c : Dev nD) : V9 m ρ c main_v59
    = Host.gather gather_S256x128x1_S256x1_S256x128x1_12_0_n_n_0_1_11281
        (shapeCast S256x128x1 (shapeCast S32768 (W8 m ρ c (Proc.devRef .tc main_v29)) shapeCasts_S256x128_S32768) shapeCasts_S32768_S256x128x1)
        (rowIdx (m ((c : Thread nD τ).loc main_arg1))) := by
  show StableHlo.after hostOps4 (W8 m ρ c) (Proc.devRef .tc main_v59) = _
  after_results
  rw [W8_a1]; rfl
set_option maxHeartbeats 40000000 in
theorem v87_eq (c : Dev nD) : V9 m ρ c main_v87
    = Host.gather gather_S256x1x1_S256x1_S256x1x1_12_0_n_n_0_1_111 (m ((c : Thread nD τ).loc main_arg15)) (rowIdx (m ((c : Thread nD τ).loc main_arg1))) := by
  show StableHlo.after hostOps4 (W8 m ρ c) (Proc.devRef .tc main_v87) = _
  after_results
  rw [W8_a1, W8_a15]; rfl

/-! ## @main's result -/

theorem v105_eq (c : Dev nD) : W11 m ρ c (Proc.devRef .tc main_v105)
    = transpose S256x2048x1 [0, 2, 1] ((dat4 (V9 m ρ) c).arrAt 10 cfg4.N) transposes_S256x1x2048_S256x2048x1_0_2_1 := by
  show StableHlo.after hostOps5 (W10 m ρ c) (Proc.devRef .tc main_v105) = _
  after_results
  exact congrArg (transpose S256x2048x1 [0, 2, 1] · transposes_S256x1x2048_S256x2048x1_0_2_1) (W10_arr m ρ c 10)

end Cert.KernelIdeal.Host

end
-- ==== Proof.KSample.lean ====
/-
  One sample's pass through the network, as the kernel's body computes it in its feature-major layout.

  A grid step holds 8 samples and treats them one after the other with the same operations: the sample's 3 × 2048
  coordinates and its 13 × 1 latent code (laid along all 2048 points) are stacked into 16 × 2048 features; each
  hidden layer contracts the (input, output) weight matrix with the activations over the INPUT axis of both, adds
  the bias as a column, scales by 30 and takes the sine; the last layer has one output row and no activation.
  The generated payloads cut this chain at positions that differ from sample to sample; here it is written once,
  and each of the eight cuts is identified with it.
-/
import proofs.«404252_j74268574482736_3_alg».proof.Proof.Gen.KernelIdeal.Skeleton

noncomputable section

namespace Cert.KernelIdeal.Sample

open Idealize.ShloMosaic Cert.KernelIdeal Cert.KernelIdeal.Gen

variable {F : FTy → Type} [FloatOps F]

/-- The 16 × 2048 features of one sample: rows 0–2 its coordinates, rows 3–15 its latent code repeated along the points. -/
def feats (x : Vec F S1x3x2048 .f32) (z : Vec F S1x13x1 .f32) : FVec F S16x2048 .f32 :=
  concatenate S16x2048 0 [⟨S3x2048, shapeCast S3x2048 x shapeCasts_S1x3x2048_S3x2048⟩,
    ⟨S13x2048, broadcastTo S13x2048 (shapeCast S13x1 (shapeCast S13x1 z shapeCasts_S1x13x1_S13x1) shapeCasts_S13x1_S13x1) broadcasts_S13x1_S13x2048⟩]
    concatenates_S3x2048_S13x2048_S16x2048_d0

/-- A hidden layer's bias row [1, 1, 128] as a column repeated along the 2048 points. -/
def colBias (b : Vec F S1x1x128 .f32) : FVec F S128x2048 .f32 :=
  broadcastTo S128x2048 (transpose S128x1 [1, 0] (shapeCast S1x128 b shapeCasts_S1x1x128_S1x128) transposes_S1x128_p1_0_S128x1) broadcasts_S128x1_S128x2048

/-- The activation y ↦ sin (30 · y), entry by entry. -/
def actv (y : FVec F S128x2048 .f32) : FVec F S128x2048 .f32 :=
  sin (mulf (broadcast S128x2048 (Scalar.ofBits .f32 0x41F00000#32)) y)

/-- The first layer: 16 input features, 128 outputs. -/
def layer0 (w : Vec F S1x16x128 .f32) (b : Vec F S1x1x128 .f32) (h : FVec F S16x2048 .f32) : FVec F S128x2048 .f32 :=
  actv (addf (matmul dot_S16x128_S16x2048_S128x2048_0_0_1_1_n_n (some .fp32) (shapeCast S16x128 w shapeCasts_S1x16x128_S16x128) h
    (constant S128x2048 .f32 0x00000000#32)) (colBias b))

/-- A middle layer: 128 input features, 128 outputs. -/
def layerH (w : Vec F S1x128x128 .f32) (b : Vec F S1x1x128 .f32) (h : FVec F S128x2048 .f32) : FVec F S128x2048 .f32 :=
  actv (addf (matmul dot_S128x128_S128x2048_S128x2048_0_0_1_1_n_n (some .fp32) (shapeCast S128x128 w shapeCasts_S1x128x128_S128x128) h
    (constant S128x2048 .f32 0x00000000#32)) (colBias b))

/-- The last layer: 128 input features, one output, no activation; stored as [1, 1, 2048]. -/
def layerOut (w : Vec F S1x128x1 .f32) (b : Vec F S1x1x1 .f32) (h : FVec F S128x2048 .f32) : FVec F S1x1x2048 .f32 :=
  shapeCast S1x1x2048 (addf (matmul dot_S128x1_S128x2048_S1x2048_0_0_1_1_n_n (some .fp32) (shapeCast S128x1 w shapeCasts_S1x128x1_S128x1) h
    (constant S1x2048 .f32 0x00000000#32))
    (broadcastTo S1x2048 (transpose S1x1 [1, 0] (shapeCast S1x1 b shapeCasts_S1x1x1_S1x1) transposes_S1x1_p1_0_S1x1) broadcasts_S1x1_S1x2048))
    shapeCasts_S1x2048_S1x1x2048

/-- One sample's output row from its slices of the ten input blocks. -/
def mlpSample (x : Vec F S1x3x2048 .f32) (z : Vec F S1x13x1 .f32) (w0 : Vec F S1x16x128 .f32) (b0 : Vec F S1x1x128 .f32)
    (w1 : Vec F S1x128x128 .f32) (b1 : Vec F S1x1x128 .f32) (w2 : Vec F S1x128x128 .f32) (b2 : Vec F S1x1x128 .f32)
    (w3 : Vec F S1x128x1 .f32) (b3 : Vec F S1x1x1 .f32) : FVec F S1x1x2048 .f32 :=
  layerOut w3 b3 (layerH w2 b2 (layerH w1 b1 (layer0 w0 b0 (feats x z))))

section Cuts
variable (x : Vec F S1x3x2048 .f32) (z : Vec F S1x13x1 .f32) (w0 : Vec F S1x16x128 .f32) (b0 : Vec F S1x1x128 .f32)
    (w1 : Vec F S1x128x128 .f32) (b1 : Vec F S1x1x128 .f32) (w2 : Vec F S1x128x128 .f32) (b2 : Vec F S1x1x128 .f32)
    (w3 : Vec F S1x128x1 .f32) (b3 : Vec F S1x1x1 .f32)

/-! The eight samples of a grid step: each generated cut of the chain is the chain. -/

theorem cut0 : k4_pay4 (k4_pay2 x z w0 b0 w1 b1) (k4_pay3 w2) b2 w3 b3 = mlpSample x z w0 b0 w1 b1 w2 b2 w3 b3 := rfl

theorem cut1 : k4_pay9 (k4_pay8 (k4_pay5 x z) (k4_pay6 w0) (k4_pay7 b0) (constant S128x2048 .f32 0x00000000#32) w1 b1 w2 b2 w3 b3)
    = mlpSample x z w0 b0 w1 b1 w2 b2 w3 b3 := rfl

theorem cut2 : k4_pay11 (k4_pay10 x z w0 b0 w1 b1) w2 b2 w3 b3 = mlpSample x z w0 b0 w1 b1 w2 b2 w3 b3 := rfl

theorem cut3 : k4_pay16 (k4_pay14 (k4_pay12 x z) (k4_pay13 w0) b0 w1 b1 w2 b2) (k4_pay15 w3) b3
    = mlpSample x z w0 b0 w1 b1 w2 b2 w3 b3 := rfl

theorem cut4 : k4_pay19 (k4_pay17 x z w0 b0 w1) (k4_pay18 b1) w2 b2 w3 b3 = mlpSample x z w0 b0 w1 b1 w2 b2 w3 b3 := rfl

theorem cut5 : k4_pay22 (k4_pay21 (k4_pay20 x z) w0 b0 w1 b1 w2 b2) w3 b3 = mlpSample x z w0 b0 w1 b1 w2 b2 w3 b3 := rfl

theorem cut6 : k4_pay25 (k4_pay23 x z w0 b0) (k4_pay24 w1) b1 w2 b2 w3 b3 = mlpSample x z w0 b0 w1 b1 w2 b2 w3 b3 := rfl

theorem cut7 : k4_pay1 (k4_pay27 (k4_pay26 x) z w0 b0 w1 b1 w2 b2) (Scalar.ofBits .f32 0x41F00000#32) w3 b3
    = mlpSample x z w0 b0 w1 b1 w2 b2 w3 b3 := rfl

end Cuts

end Cert.KernelIdeal.Sample

end
-- ==== Proof.Mlp.lean ====
/-
  The network both programs compute, as plain mathematics over the extended reals.

  One sample is a point cloud of 2048 points with 3 coordinates each, and a latent code of 13 numbers shared by all
  its points. A point's feature vector is its 3 coordinates followed by the 13 code entries (16 features). Three
  affine layers follow, each composed with the activation y ↦ sin (30 · y), and one last affine layer with a single
  output and no activation:

      h₁ = act (W₀ᵀ h₀ + b₀),  h₂ = act (W₁ᵀ h₁ + b₁),  h₃ = act (W₂ᵀ h₂ + b₂),  out = W₃ᵀ h₃ + b₃ .

  A layer's weights are indexed (input feature, output feature). Everything here is stated over functions of
  `Fin` indices, so that a row-major and a feature-major layout of the same numbers read as the same network.
-/
import Idealize.ShloMosaic.PureOps.Ideal
import Idealize.ShloMosaic.Lib.ValueIdx

noncomputable section

open Idealize.ShloMosaic Idealize.ShloMosaic.ValueIdx

namespace Cert.Mlp

/-- The activation's scale, 30, as the extended real its single-precision word denotes. -/
abbrev omega : EReal := Ideal.ofBits .f32 0x41F00000#32

/-- The activation y ↦ sin (30 · y) on the extended reals. -/
def act (y : EReal) : EReal := Ideal.sin (omega * y)

/-- One affine layer: output feature `o` is the sum over the input features `k` of weight (k, o) times input `k`,
    plus bias `o`. -/
def dense {K O : Nat} (w : Fin K → Fin O → EReal) (b : Fin O → EReal) (h : Fin K → EReal) (o : Fin O) : EReal :=
  (∑ k : Fin K, w k o * h k) + b o

/-- The same layer with each product written input-first: multiplication of extended reals commutes, and the sum is
    taken over the same index in the same order, so nothing about finiteness is needed. -/
theorem dense_comm {K O : Nat} (w : Fin K → Fin O → EReal) (b : Fin O → EReal) (h : Fin K → EReal) (o : Fin O) :
    (∑ k : Fin K, h k * w k o) + b o = dense w b h o := by
  unfold dense
  exact congrArg (· + b o) (Finset.sum_congr rfl fun k _ => mul_comm _ _)

/-- A point's 16 features: its 3 coordinates, then the 13 entries of its sample's latent code. -/
def feat (x : Fin 3 → EReal) (z : Fin 13 → EReal) : Fin 16 → EReal :=
  fun i => if h : i.val < 3 then x ⟨i.val, h⟩ else z ⟨i.val - 3, by have := i.isLt; omega⟩

/-- The network's one output at a point with coordinates `x` and latent code `z`. -/
def net (x : Fin 3 → EReal) (z : Fin 13 → EReal)
    (w0 : Fin 16 → Fin 128 → EReal) (b0 : Fin 128 → EReal)
    (w1 : Fin 128 → Fin 128 → EReal) (b1 : Fin 128 → EReal)
    (w2 : Fin 128 → Fin 128 → EReal) (b2 : Fin 128 → EReal)
    (w3 : Fin 128 → Fin 1 → EReal) (b3 : Fin 1 → EReal) : EReal :=
  dense w3 b3 (fun o3 => act (dense w2 b2 (fun o2 => act (dense w1 b1 (fun o1 => act (dense w0 b0 (feat x z) o1)) o2)) o3)) 0

/-! ## The whole batch: 256 samples, each with its own weights -/

abbrev SX : Shape := ⟨3, ![256, 2048, 3]⟩
abbrev SZ : Shape := ⟨2, ![256, 13]⟩
abbrev SW0 : Shape := ⟨3, ![256, 16, 128]⟩
abbrev SB : Shape := ⟨3, ![256, 1, 128]⟩
abbrev SW : Shape := ⟨3, ![256, 128, 128]⟩
abbrev SW3 : Shape := ⟨3, ![256, 128, 1]⟩
abbrev SB3 : Shape := ⟨3, ![256, 1, 1]⟩
abbrev SOut : Shape := ⟨3, ![256, 2048, 1]⟩

/-- The network's output for sample `s` at point `n`, from the batch's arrays: the points `X` [sample, point,
    coordinate], the latent codes `Z` [sample, entry], and per layer the weights [sample, input, output] and the
    biases [sample, 0, output] already selected for each sample. -/
def netAt (X : SX.Idx → EReal) (Z : SZ.Idx → EReal)
    (W0 : SW0.Idx → EReal) (B0 : SB.Idx → EReal) (W1 : SW.Idx → EReal) (B1 : SB.Idx → EReal)
    (W2 : SW.Idx → EReal) (B2 : SB.Idx → EReal) (W3 : SW3.Idx → EReal) (B3 : SB3.Idx → EReal)
    (s : Fin 256) (n : Fin 2048) : EReal :=
  net (fun a => X (ix3 s n a)) (fun j => Z (ix2 s j))
    (fun k o => W0 (ix3 s k o)) (fun o => B0 (ix3 s 0 o))
    (fun k o => W1 (ix3 s k o)) (fun o => B1 (ix3 s 0 o))
    (fun k o => W2 (ix3 s k o)) (fun o => B2 (ix3 s 0 o))
    (fun k o => W3 (ix3 s k o)) (fun o => B3 (ix3 s 0 o))

/-- The result array [sample, point, 0]. -/
def netOut (X : SX.Idx → EReal) (Z : SZ.Idx → EReal)
    (W0 : SW0.Idx → EReal) (B0 : SB.Idx → EReal) (W1 : SW.Idx → EReal) (B1 : SB.Idx → EReal)
    (W2 : SW.Idx → EReal) (B2 : SB.Idx → EReal) (W3 : SW3.Idx → EReal) (B3 : SB3.Idx → EReal) : SOut.Idx → EReal :=
  fun i => netAt X Z W0 B0 W1 B1 W2 B2 W3 B3 (i 0) (i 1)

end Cert.Mlp

end
-- ==== Proof.KSampleAt.lean ====
/-
  One sample's output row, read at a point: it is the network of Mlp.lean at that point's features.

  The feature-major matrix products contract the weight matrix (input, output) with the activations (input, point)
  over the input axis of both, so entry (output o, point n) of a layer is the sum over inputs k of weight (k, o) times
  activation (k, n), plus bias o: exactly `Mlp.dense`. The stacked features read a coordinate for rows 0–2 and a latent
  entry for rows 3–15: `Mlp.feat`.
-/
import proofs.«404252_j74268574482736_3_alg».proof.Proof.KSample
import proofs.«404252_j74268574482736_3_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sample

open Idealize.ShloMosaic Idealize.ShloMosaic.ValueIdx Cert.KernelIdeal Cert.KernelIdeal.Gen

/-! ## The stacked features and the bias column, at an entry -/

/-- Row `i` of the stacked features at point `n`: coordinate `i` of the point for `i < 3`, entry `i - 3` of the
    latent code otherwise (the code has one column, repeated along the points). -/
private theorem feats_apply (x : Vec Ideal S1x3x2048 .f32) (z : Vec Ideal S1x13x1 .f32) (i : Fin 16) (n : Fin 2048) :
    feats (F := Ideal) x z (ix2 i n) = Cert.Mlp.feat (fun a => x (ix3 0 a n)) (fun j => z (ix3 0 j 0)) i := by
  unfold feats Cert.Mlp.feat
  by_cases h : i.val < 3
  · rw [dif_pos h]
    refine (concatenate_pair_apply_left (0 : Fin S16x2048.rank) _ _ concatenates_S3x2048_S13x2048_S16x2048_d0
      (ix2 i n) rfl (ix2 (⟨i.val, h⟩ : Fin 3) n) (fun b => ?_)).trans ?_
    · match b with
      | ⟨0, _⟩ => rfl
      | ⟨1, _⟩ => rfl
    · exact shapeCast_1ab_ab_apply x shapeCasts_S1x3x2048_S3x2048 ⟨i.val, h⟩ n
  · rw [dif_neg h]
    have hi := i.isLt
    have h13 : i.val - 3 < 13 := by omega
    refine (concatenate_pair_apply_right (0 : Fin S16x2048.rank) _ _ concatenates_S3x2048_S13x2048_S16x2048_d0
      (ix2 i n) rfl rfl (ix2 (⟨i.val - 3, h13⟩ : Fin 13) n) (fun b hb => ?_) ?_).trans ?_
    · match b with
      | ⟨0, _⟩ => exact absurd rfl hb
      | ⟨1, _⟩ => rfl
    · show (i.val - 3) + 3 = i.val
      omega
    · refine (broadcastTo_apply _ broadcasts_S13x1_S13x2048 (ix2 (⟨i.val - 3, h13⟩ : Fin 13) n)
        (ix2 (⟨i.val - 3, h13⟩ : Fin 13) (0 : Fin 1)) (fun a => ?_)).trans ?_
      · match a with
        | ⟨0, _⟩ =>
          show i.val - 3 = if (13 : Nat) = 1 then 0 else (i.val - 3)
          rw [if_neg (by decide)]
        | ⟨1, _⟩ =>
          show 0 = if (1 : Nat) = 1 then 0 else n.val
          rw [if_pos rfl]
      · rw [shapeCast_self]
        exact shapeCast_1ab_ab_apply z shapeCasts_S1x13x1_S13x1 _ _

/-- The bias column at (output `o`, point `n`) is bias `o`: the row is transposed to a column and repeated along the points. -/
private theorem colBias_apply (b : Vec Ideal S1x1x128 .f32) (o : Fin 128) (n : Fin 2048) :
    colBias (F := Ideal) b (ix2 o n) = b (ix3 0 0 o) := by
  unfold colBias
  refine (broadcastTo_apply _ broadcasts_S128x1_S128x2048 (ix2 o n) (ix2 o (0 : Fin 1)) (fun a => ?_)).trans ?_
  · match a with
    | ⟨0, _⟩ =>
      show o.val = if (128 : Nat) = 1 then 0 else o.val
      rw [if_neg (by decide)]
    | ⟨1, _⟩ =>
      show 0 = if (1 : Nat) = 1 then 0 else n.val
      rw [if_pos rfl]
  · refine (transpose_ix2_apply _ transposes_S1x128_p1_0_S128x1 o (0 : Fin 1)).trans ?_
    exact shapeCast_1ab_ab_apply b shapeCasts_S1x1x128_S1x128 0 o

/-! ## The three matrix products, at an entry

Each contracts axis 0 of the weights (input, output) with axis 0 of the activations (input, point); the result's axes
are (output, point). The four lemmas before each say which coordinate every operand axis reads. -/

private theorem lhs_d0_0 (i : S128x2048.Idx) (q : dot_S16x128_S16x2048_S128x2048_0_0_1_1_n_n.contr.Idx) :
    (dot_S16x128_S16x2048_S128x2048_0_0_1_1_n_n.lhsIdx i q 0).val = (q ⟨0, by decide⟩).val :=
  dot_S16x128_S16x2048_S128x2048_0_0_1_1_n_n.lhsIdx_val_of_single rfl i q
private theorem lhs_d0_1 (i : S128x2048.Idx) (q : dot_S16x128_S16x2048_S128x2048_0_0_1_1_n_n.contr.Idx) :
    (dot_S16x128_S16x2048_S128x2048_0_0_1_1_n_n.lhsIdx i q 1).val = (i 0).val := by
  unfold DotDims.lhsIdx
  rw [dif_neg (show ¬(1 : Fin S16x128.rank) ∈ dot_S16x128_S16x2048_S128x2048_0_0_1_1_n_n.lhsBatch by decide), dif_pos (show (1 : Fin S16x128.rank) ∈ dot_S16x128_S16x2048_S128x2048_0_0_1_1_n_n.lhsNonContracting by decide)]
  rfl
private theorem rhs_d0_0 (i : S128x2048.Idx) (q : dot_S16x128_S16x2048_S128x2048_0_0_1_1_n_n.contr.Idx) :
    (dot_S16x128_S16x2048_S128x2048_0_0_1_1_n_n.rhsIdx i q 0).val = (q ⟨0, by decide⟩).val :=
  dot_S16x128_S16x2048_S128x2048_0_0_1_1_n_n.rhsIdx_val_of_single rfl i q
private theorem rhs_d0_1 (i : S128x2048.Idx) (q : dot_S16x128_S16x2048_S128x2048_0_0_1_1_n_n.contr.Idx) :
    (dot_S16x128_S16x2048_S128x2048_0_0_1_1_n_n.rhsIdx i q 1).val = (i 1).val := by
  unfold DotDims.rhsIdx
  rw [dif_neg (show ¬(1 : Fin S16x2048.rank) ∈ dot_S16x128_S16x2048_S128x2048_0_0_1_1_n_n.rhsBatch by decide), dif_pos (show (1 : Fin S16x2048.rank) ∈ dot_S16x128_S16x2048_S128x2048_0_0_1_1_n_n.rhsNonContracting by decide)]
  rfl

/-- The first layer's product at (output `o`, point `n`): the sum over the 16 inputs `k` of weight (k, o) times feature (k, n). -/
private theorem mm_d0_apply (W : FVec Ideal S16x128 .f32) (h : FVec Ideal S16x2048 .f32) (o : Fin 128) (n : Fin 2048) :
    matmul (F := Ideal) dot_S16x128_S16x2048_S128x2048_0_0_1_1_n_n (some .fp32) W h (constant (F := Ideal) S128x2048 .f32 0x00000000#32) (ix2 o n)
      = ∑ k : Fin 16, W (ix2 k o) * h (ix2 k n) := by
  refine (Ideal.matmul_constant_zero_apply dot_S16x128_S16x2048_S128x2048_0_0_1_1_n_n (some .fp32) W h (ix2 o n)).trans ?_
  rw [← Equiv.sum_comp (ValueIdx.contrEquiv1 dot_S16x128_S16x2048_S128x2048_0_0_1_1_n_n 16 rfl rfl).symm]
  refine Finset.sum_congr rfl fun k _ => ?_
  have hk := ValueIdx.contrEquiv1_symm_val dot_S16x128_S16x2048_S128x2048_0_0_1_1_n_n 16 rfl rfl k
  have el : dot_S16x128_S16x2048_S128x2048_0_0_1_1_n_n.lhsIdx (ix2 o n) ((ValueIdx.contrEquiv1 dot_S16x128_S16x2048_S128x2048_0_0_1_1_n_n 16 rfl rfl).symm k) = ix2 k o := funext fun a => Fin.ext (by
    match a with
    | ⟨0, _⟩ => exact (lhs_d0_0 _ _).trans hk
    | ⟨1, _⟩ => exact lhs_d0_1 _ _)
  have er : dot_S16x128_S16x2048_S128x2048_0_0_1_1_n_n.rhsIdx (ix2 o n) ((ValueIdx.contrEquiv1 dot_S16x128_S16x2048_S128x2048_0_0_1_1_n_n 16 rfl rfl).symm k) = ix2 k n := funext fun a => Fin.ext (by
    match a with
    | ⟨0, _⟩ => exact (rhs_d0_0 _ _).trans hk
    | ⟨1, _⟩ => exact rhs_d0_1 _ _)
  rw [el, er]

private theorem lhs_dh_0 (i : S128x2048.Idx) (q : dot_S128x128_S128x2048_S128x2048_0_0_1_1_n_n.contr.Idx) :
    (dot_S128x128_S128x2048_S128x2048_0_0_1_1_n_n.lhsIdx i q 0).val = (q ⟨0, by decide⟩).val :=
  dot_S128x128_S128x2048_S128x2048_0_0_1_1_n_n.lhsIdx_val_of_single rfl i q
private theorem lhs_dh_1 (i : S128x2048.Idx) (q : dot_S128x128_S128x2048_S128x2048_0_0_1_1_n_n.contr.Idx) :
    (dot_S128x128_S128x2048_S128x2048_0_0_1_1_n_n.lhsIdx i q 1).val = (i 0).val := by
  unfold DotDims.lhsIdx
  rw [dif_neg (show ¬(1 : Fin S128x128.rank) ∈ dot_S128x128_S128x2048_S128x2048_0_0_1_1_n_n.lhsBatch by decide), dif_pos (show (1 : Fin S128x128.rank) ∈ dot_S128x128_S128x2048_S128x2048_0_0_1_1_n_n.lhsNonContracting by decide)]
  rfl
private theorem rhs_dh_0 (i : S128x2048.Idx) (q : dot_S128x128_S128x2048_S128x2048_0_0_1_1_n_n.contr.Idx) :
    (dot_S128x128_S128x2048_S128x2048_0_0_1_1_n_n.rhsIdx i q 0).val = (q ⟨0, by decide⟩).val :=
  dot_S128x128_S128x2048_S128x2048_0_0_1_1_n_n.rhsIdx_val_of_single rfl i q
private theorem rhs_dh_1 (i : S128x2048.Idx) (q : dot_S128x128_S128x2048_S128x2048_0_0_1_1_n_n.contr.Idx) :
    (dot_S128x128_S128x2048_S128x2048_0_0_1_1_n_n.rhsIdx i q 1).val = (i 1).val := by
  unfold DotDims.rhsIdx
  rw [dif_neg (show ¬(1 : Fin S128x2048.rank) ∈ dot_S128x128_S128x2048_S128x2048_0_0_1_1_n_n.rhsBatch by decide), dif_pos (show (1 : Fin S128x2048.rank) ∈ dot_S128x128_S128x2048_S128x2048_0_0_1_1_n_n.rhsNonContracting by decide)]
  rfl

/-- A middle layer's product at (output `o`, point `n`): the sum over the 128 inputs `k` of weight (k, o) times activation (k, n). -/
private theorem mm_dh_apply (W : FVec Ideal S128x128 .f32) (h : FVec Ideal S128x2048 .f32) (o : Fin 128) (n : Fin 2048) :
    matmul (F := Ideal) dot_S128x128_S128x2048_S128x2048_0_0_1_1_n_n (some .fp32) W h (constant (F := Ideal) S128x2048 .f32 0x00000000#32) (ix2 o n)
      = ∑ k : Fin 128, W (ix2 k o) * h (ix2 k n) := by
  refine (Ideal.matmul_constant_zero_apply dot_S128x128_S128x2048_S128x2048_0_0_1_1_n_n (some .fp32) W h (ix2 o n)).trans ?_
  rw [← Equiv.sum_comp (ValueIdx.contrEquiv1 dot_S128x128_S128x2048_S128x2048_0_0_1_1_n_n 128 rfl rfl).symm]
  refine Finset.sum_congr rfl fun k _ => ?_
  have hk := ValueIdx.contrEquiv1_symm_val dot_S128x128_S128x2048_S128x2048_0_0_1_1_n_n 128 rfl rfl k
  have el : dot_S128x128_S128x2048_S128x2048_0_0_1_1_n_n.lhsIdx (ix2 o n) ((ValueIdx.contrEquiv1 dot_S128x128_S128x2048_S128x2048_0_0_1_1_n_n 128 rfl rfl).symm k) = ix2 k o := funext fun a => Fin.ext (by
    match a with
    | ⟨0, _⟩ => exact (lhs_dh_0 _ _).trans hk
    | ⟨1, _⟩ => exact lhs_dh_1 _ _)
  have er : dot_S128x128_S128x2048_S128x2048_0_0_1_1_n_n.rhsIdx (ix2 o n) ((ValueIdx.contrEquiv1 dot_S128x128_S128x2048_S128x2048_0_0_1_1_n_n 128 rfl rfl).symm k) = ix2 k n := funext fun a => Fin.ext (by
    match a with
    | ⟨0, _⟩ => exact (rhs_dh_0 _ _).trans hk
    | ⟨1, _⟩ => exact rhs_dh_1 _ _)
  rw [el, er]

private theorem lhs_do_0 (i : S1x2048.Idx) (q : dot_S128x1_S128x2048_S1x2048_0_0_1_1_n_n.contr.Idx) :
    (dot_S128x1_S128x2048_S1x2048_0_0_1_1_n_n.lhsIdx i q 0).val = (q ⟨0, by decide⟩).val :=
  dot_S128x1_S128x2048_S1x2048_0_0_1_1_n_n.lhsIdx_val_of_single rfl i q
private theorem lhs_do_1 (i : S1x2048.Idx) (q : dot_S128x1_S128x2048_S1x2048_0_0_1_1_n_n.contr.Idx) :
    (dot_S128x1_S128x2048_S1x2048_0_0_1_1_n_n.lhsIdx i q 1).val = (i 0).val := by
  unfold DotDims.lhsIdx
  rw [dif_neg (show ¬(1 : Fin S128x1.rank) ∈ dot_S128x1_S128x2048_S1x2048_0_0_1_1_n_n.lhsBatch by decide), dif_pos (show (1 : Fin S128x1.rank) ∈ dot_S128x1_S128x2048_S1x2048_0_0_1_1_n_n.lhsNonContracting by decide)]
  rfl
private theorem rhs_do_0 (i : S1x2048.Idx) (q : dot_S128x1_S128x2048_S1x2048_0_0_1_1_n_n.contr.Idx) :
    (dot_S128x1_S128x2048_S1x2048_0_0_1_1_n_n.rhsIdx i q 0).val = (q ⟨0, by decide⟩).val :=
  dot_S128x1_S128x2048_S1x2048_0_0_1_1_n_n.rhsIdx_val_of_single rfl i q
private theorem rhs_do_1 (i : S1x2048.Idx) (q : dot_S128x1_S128x2048_S1x2048_0_0_1_1_n_n.contr.Idx) :
    (dot_S128x1_S128x2048_S1x2048_0_0_1_1_n_n.rhsIdx i q 1).val = (i 1).val := by
  unfold DotDims.rhsIdx
  rw [dif_neg (show ¬(1 : Fin S128x2048.rank) ∈ dot_S128x1_S128x2048_S1x2048_0_0_1_1_n_n.rhsBatch by decide), dif_pos (show (1 : Fin S128x2048.rank) ∈ dot_S128x1_S128x2048_S1x2048_0_0_1_1_n_n.rhsNonContracting by decide)]
  rfl

/-- The last layer's product at (output `o`, point `n`), `o` the single output: the sum over the 128 inputs `k` of weight (k, o) times activation (k, n). -/
private theorem mm_do_apply (W : FVec Ideal S128x1 .f32) (h : FVec Ideal S128x2048 .f32) (o : Fin 1) (n : Fin 2048) :
    matmul (F := Ideal) dot_S128x1_S128x2048_S1x2048_0_0_1_1_n_n (some .fp32) W h (constant (F := Ideal) S1x2048 .f32 0x00000000#32) (ix2 o n)
      = ∑ k : Fin 128, W (ix2 k o) * h (ix2 k n) := by
  refine (Ideal.matmul_constant_zero_apply dot_S128x1_S128x2048_S1x2048_0_0_1_1_n_n (some .fp32) W h (ix2 o n)).trans ?_
  rw [← Equiv.sum_comp (ValueIdx.contrEquiv1 dot_S128x1_S128x2048_S1x2048_0_0_1_1_n_n 128 rfl rfl).symm]
  refine Finset.sum_congr rfl fun k _ => ?_
  have hk := ValueIdx.contrEquiv1_symm_val dot_S128x1_S128x2048_S1x2048_0_0_1_1_n_n 128 rfl rfl k
  have el : dot_S128x1_S128x2048_S1x2048_0_0_1_1_n_n.lhsIdx (ix2 o n) ((ValueIdx.contrEquiv1 dot_S128x1_S128x2048_S1x2048_0_0_1_1_n_n 128 rfl rfl).symm k) = ix2 k o := funext fun a => Fin.ext (by
    match a with
    | ⟨0, _⟩ => exact (lhs_do_0 _ _).trans hk
    | ⟨1, _⟩ => exact lhs_do_1 _ _)
  have er : dot_S128x1_S128x2048_S1x2048_0_0_1_1_n_n.rhsIdx (ix2 o n) ((ValueIdx.contrEquiv1 dot_S128x1_S128x2048_S1x2048_0_0_1_1_n_n 128 rfl rfl).symm k) = ix2 k n := funext fun a => Fin.ext (by
    match a with
    | ⟨0, _⟩ => exact (rhs_do_0 _ _).trans hk
    | ⟨1, _⟩ => exact rhs_do_1 _ _)
  rw [el, er]

/-! ## The layers, at an entry -/

/-- The activation at an entry: the sine of 30 times the entry. -/
private theorem actv_apply (y : FVec Ideal S128x2048 .f32) (i : S128x2048.Idx) :
    actv (F := Ideal) y i = Cert.Mlp.act (y i) := rfl

/-- The first layer at (output `o`, point `n`): the activation of the affine layer of the point's 16 features. -/
private theorem layer0_apply (w : Vec Ideal S1x16x128 .f32) (b : Vec Ideal S1x1x128 .f32) (h : FVec Ideal S16x2048 .f32)
    (o : Fin 128) (n : Fin 2048) :
    layer0 (F := Ideal) w b h (ix2 o n)
      = Cert.Mlp.act (Cert.Mlp.dense (fun k o => w (ix3 0 k o)) (fun o => b (ix3 0 0 o)) (fun k => h (ix2 k n)) o) := by
  unfold layer0
  rw [actv_apply, addf_apply, mm_d0_apply, colBias_apply]
  unfold Cert.Mlp.dense
  refine congrArg Cert.Mlp.act (congrArg (· + b (ix3 0 0 o)) (Finset.sum_congr rfl fun k _ => ?_))
  rw [shapeCast_1ab_ab_apply w shapeCasts_S1x16x128_S16x128 k o]

/-- A middle layer at (output `o`, point `n`): the activation of the affine layer of the point's 128 activations. -/
private theorem layerH_apply (w : Vec Ideal S1x128x128 .f32) (b : Vec Ideal S1x1x128 .f32) (h : FVec Ideal S128x2048 .f32)
    (o : Fin 128) (n : Fin 2048) :
    layerH (F := Ideal) w b h (ix2 o n)
      = Cert.Mlp.act (Cert.Mlp.dense (fun k o => w (ix3 0 k o)) (fun o => b (ix3 0 0 o)) (fun k => h (ix2 k n)) o) := by
  unfold layerH
  rw [actv_apply, addf_apply, mm_dh_apply, colBias_apply]
  unfold Cert.Mlp.dense
  refine congrArg Cert.Mlp.act (congrArg (· + b (ix3 0 0 o)) (Finset.sum_congr rfl fun k _ => ?_))
  rw [shapeCast_1ab_ab_apply w shapeCasts_S1x128x128_S128x128 k o]

/-- The last layer at point `n`: the affine layer with one output of the point's 128 activations, no activation. -/
private theorem layerOut_apply (w : Vec Ideal S1x128x1 .f32) (b : Vec Ideal S1x1x1 .f32) (h : FVec Ideal S128x2048 .f32)
    (n : Fin 2048) :
    layerOut (F := Ideal) w b h (ix3 0 0 n)
      = Cert.Mlp.dense (fun k o => w (ix3 0 k o)) (fun o => b (ix3 0 0 o)) (fun k => h (ix2 k n)) 0 := by
  unfold layerOut
  rw [shapeCast_ab_1ab_apply _ shapeCasts_S1x2048_S1x1x2048 0 0 n, addf_apply, mm_do_apply]
  unfold Cert.Mlp.dense
  have hb : broadcastTo S1x2048 (transpose S1x1 [1, 0] (shapeCast S1x1 b shapeCasts_S1x1x1_S1x1) transposes_S1x1_p1_0_S1x1)
      broadcasts_S1x1_S1x2048 (ix2 (0 : Fin 1) n) = b (ix3 0 0 0) := by
    refine (broadcastTo_apply _ broadcasts_S1x1_S1x2048 (ix2 (0 : Fin 1) n) (ix2 (0 : Fin 1) (0 : Fin 1)) (fun a => ?_)).trans ?_
    · match a with
      | ⟨0, _⟩ =>
        show 0 = if (1 : Nat) = 1 then 0 else 0
        rw [if_pos rfl]
      | ⟨1, _⟩ =>
        show 0 = if (1 : Nat) = 1 then 0 else n.val
        rw [if_pos rfl]
    · refine (transpose_ix2_apply _ transposes_S1x1_p1_0_S1x1 (0 : Fin 1) (0 : Fin 1)).trans ?_
      exact shapeCast_1ab_ab_apply b shapeCasts_S1x1x1_S1x1 0 0
  rw [hb]
  refine congrArg (· + b (ix3 0 0 0)) (Finset.sum_congr rfl fun k _ => ?_)
  rw [shapeCast_1ab_ab_apply w shapeCasts_S1x128x1_S128x1 k 0]

/-- The sample's output at point `n` is the network's output at the point's coordinates and the sample's latent
    code, with the sample's own weights and biases. -/
theorem mlpSample_apply (x : Vec Ideal S1x3x2048 .f32) (z : Vec Ideal S1x13x1 .f32) (w0 : Vec Ideal S1x16x128 .f32) (b0 : Vec Ideal S1x1x128 .f32)
    (w1 : Vec Ideal S1x128x128 .f32) (b1 : Vec Ideal S1x1x128 .f32) (w2 : Vec Ideal S1x128x128 .f32) (b2 : Vec Ideal S1x1x128 .f32)
    (w3 : Vec Ideal S1x128x1 .f32) (b3 : Vec Ideal S1x1x1 .f32) (n : Fin 2048) :
    mlpSample (F := Ideal) x z w0 b0 w1 b1 w2 b2 w3 b3 (ix3 0 0 n)
      = Cert.Mlp.net (fun a => x (ix3 0 a n)) (fun j => z (ix3 0 j 0))
          (fun k o => w0 (ix3 0 k o)) (fun o => b0 (ix3 0 0 o))
          (fun k o => w1 (ix3 0 k o)) (fun o => b1 (ix3 0 0 o))
          (fun k o => w2 (ix3 0 k o)) (fun o => b2 (ix3 0 0 o))
          (fun k o => w3 (ix3 0 k o)) (fun o => b3 (ix3 0 0 o)) := by
  unfold mlpSample Cert.Mlp.net
  rw [layerOut_apply]
  simp only [layerH_apply, layer0_apply, feats_apply]

end Cert.KernelIdeal.Sample

end
-- ==== Proof.KRegion4.lean ====
/-
  What the main region leaves in its output array [256 samples, 1, 2048 points]: entry (s, 0, n) is the network's
  output for sample s at point n, read from the arrays the region was entered with — the transposed points
  [sample, coordinate, point], the latent codes [sample, entry, 0], and per layer the sample's weights and biases.

  Grid step t treats samples 8t … 8t+7; sample 8t+j is slice j of each of the step's blocks, and its output row is
  slice j of the output block.
-/
import proofs.«404252_j74268574482736_3_alg».proof.Proof.Gen.KernelIdeal.Frame
import proofs.«404252_j74268574482736_3_alg».proof.Proof.KSampleAt
import Idealize.ShloMosaic.Lib.Pipeline.Value

set_option maxRecDepth 16384

noncomputable section

namespace Cert.KernelIdeal.Region4

open Idealize.ShloMosaic Idealize.ShloMosaic.ValueIdx Idealize.ShloMosaic.TcCoe Idealize.SL.Sem
open Cert.KernelIdeal Cert.KernelIdeal.Gen

/-- Slice `o` of a block along its first axis: the unit-stride rectangle at offsets (o, 0, 0) with one row places its
    index (0, a, b) at (o, a, b) of the block. -/
private theorem idx_slice {m0 k1 k2 : Nat} (o : Nat) (h0 : o < m0) (inb) (a : Fin k1) (b : Fin k2) :
    LoadRect.idx (Rect.unit (s := ⟨3, ![m0, k1, k2]⟩) ![o, 0, 0] (⟨3, ![1, k1, k2]⟩ : Shape).size inb).toLoadRect (ix3 0 a b)
      = ix3 ⟨o, h0⟩ a b := by
  funext d; apply Fin.ext
  match d with
  | ⟨0, _⟩ => show o + 1 * 0 = o; omega
  | ⟨1, _⟩ => show 0 + 1 * a.val = a.val; omega
  | ⟨2, _⟩ => show 0 + 1 * b.val = b.val; omega

/-- The same placement, for the rectangle as the target of a store. -/
private theorem emb_slice {m0 k1 k2 : Nat} (o : Nat) (h0 : o < m0) (inb) (a : Fin k1) (b : Fin k2) :
    (Rect.unit (s := ⟨3, ![m0, k1, k2]⟩) ![o, 0, 0] (⟨3, ![1, k1, k2]⟩ : Shape).size inb).emb (ix3 0 a b)
      = ix3 ⟨o, h0⟩ a b := idx_slice o h0 inb a b

/-- The output block of one grid step as one function of the step's ten input blocks: row `s` at point `n` is the
    network's output for slice `s` of each block. -/
def blockOut (x0 : Vec Ideal S8x3x2048 .f32) (x1 : Vec Ideal S8x13x1 .f32) (x2 : Vec Ideal S8x16x128 .f32) (x3 : Vec Ideal S8x1x128 .f32)
    (x4 : Vec Ideal S8x128x128 .f32) (x5 : Vec Ideal S8x1x128 .f32) (x6 : Vec Ideal S8x128x128 .f32) (x7 : Vec Ideal S8x1x128 .f32)
    (x8 : Vec Ideal S8x128x1 .f32) (x9 : Vec Ideal S8x1x1 .f32) : Vec Ideal S8x1x2048 .f32 := fun y =>
  Cert.Mlp.net (fun a => x0 (ix3 (y 0 : Fin 8) a (y 2 : Fin 2048))) (fun j => x1 (ix3 (y 0 : Fin 8) j 0))
    (fun k o => x2 (ix3 (y 0 : Fin 8) k o)) (fun o => x3 (ix3 (y 0 : Fin 8) 0 o))
    (fun k o => x4 (ix3 (y 0 : Fin 8) k o)) (fun o => x5 (ix3 (y 0 : Fin 8) 0 o))
    (fun k o => x6 (ix3 (y 0 : Fin 8) k o)) (fun o => x7 (ix3 (y 0 : Fin 8) 0 o))
    (fun k o => x8 (ix3 (y 0 : Fin 8) k o)) (fun o => x9 (ix3 (y 0 : Fin 8) 0 o))

/-- One sample's stored row is that function on the row's rectangle: the row's payload is the sample's pass through
    the network, read at a point, and each of its loads reads slice `o` of a block. -/
private theorem piece_eq (x0 : Vec Ideal S8x3x2048 .f32) (x1 : Vec Ideal S8x13x1 .f32) (x2 : Vec Ideal S8x16x128 .f32) (x3 : Vec Ideal S8x1x128 .f32)
    (x4 : Vec Ideal S8x128x128 .f32) (x5 : Vec Ideal S8x1x128 .f32) (x6 : Vec Ideal S8x128x128 .f32) (x7 : Vec Ideal S8x1x128 .f32)
    (x8 : Vec Ideal S8x128x1 .f32) (x9 : Vec Ideal S8x1x1 .f32) (o : Nat) (h0 : o < 8)
    (i0 i1 i2 i3 i4 i5 i6 i7 i8 i9 i10)
    (x : S1x1x2048.Idx) :
    Sample.mlpSample (F := Ideal)
        (View.ld x0 (Rect.unit (s := S8x3x2048) ![o, 0, 0] S1x3x2048.size i0))
        (View.ld x1 (Rect.unit (s := S8x13x1) ![o, 0, 0] S1x13x1.size i1))
        (View.ld x2 (Rect.unit (s := S8x16x128) ![o, 0, 0] S1x16x128.size i2))
        (View.ld x3 (Rect.unit (s := S8x1x128) ![o, 0, 0] S1x1x128.size i3))
        (View.ld x4 (Rect.unit (s := S8x128x128) ![o, 0, 0] S1x128x128.size i4))
        (View.ld x5 (Rect.unit (s := S8x1x128) ![o, 0, 0] S1x1x128.size i5))
        (View.ld x6 (Rect.unit (s := S8x128x128) ![o, 0, 0] S1x128x128.size i6))
        (View.ld x7 (Rect.unit (s := S8x1x128) ![o, 0, 0] S1x1x128.size i7))
        (View.ld x8 (Rect.unit (s := S8x128x1) ![o, 0, 0] S1x128x1.size i8))
        (View.ld x9 (Rect.unit (s := S8x1x1) ![o, 0, 0] S1x1x1.size i9)) x
      = blockOut x0 x1 x2 x3 x4 x5 x6 x7 x8 x9 ((Rect.unit (s := S8x1x2048) ![o, 0, 0] S1x1x2048.size i10).emb x) := by
  obtain ⟨n, rfl⟩ : ∃ n : Fin 2048, x = ix3 (0 : Fin 1) (0 : Fin 1) n := by
    refine ⟨x 2, ?_⟩
    funext d
    match d with
    | ⟨0, _⟩ => exact Subsingleton.elim (α := Fin 1) _ _
    | ⟨1, _⟩ => exact Subsingleton.elim (α := Fin 1) _ _
    | ⟨2, _⟩ => rfl
  rw [Sample.mlpSample_apply]
  rw [emb_slice (m0 := 8) (k1 := 1) (k2 := 2048) o h0 i10 0 n]
  unfold blockOut
  simp only [View.ld, idx_slice o h0]

/-- The body's eight stored rows are the eight rows of that one function, and they tile the output block: so the
    block the body leaves is that function. -/
theorem out4_10_eq (x0 : Vec Ideal S8x3x2048 .f32) (x1 : Vec Ideal S8x13x1 .f32) (x2 : Vec Ideal S8x16x128 .f32) (x3 : Vec Ideal S8x1x128 .f32)
    (x4 : Vec Ideal S8x128x128 .f32) (x5 : Vec Ideal S8x1x128 .f32) (x6 : Vec Ideal S8x128x128 .f32) (x7 : Vec Ideal S8x1x128 .f32)
    (x8 : Vec Ideal S8x128x1 .f32) (x9 : Vec Ideal S8x1x1 .f32) :
    out4_10 (F := Ideal) x0 x1 x2 x3 x4 x5 x6 x7 x8 x9 = blockOut x0 x1 x2 x3 x4 x5 x6 x7 x8 x9 := by
  funext y
  unfold out4_10
  refine View.canon_apply_of_pieces (blockOut x0 x1 x2 x3 x4 x5 x6 x7 x8 x9) _ ?_ y (cover4_10 _ _ _ _ _ _ _ _ y)
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun _ h => absurd h List.not_mem_nil⟩⟩⟩⟩⟩⟩⟩⟩
  · exact (congrFun (Sample.cut7 (F := Ideal) _ _ _ _ _ _ _ _ _ _) x).trans
      (piece_eq x0 x1 x2 x3 x4 x5 x6 x7 x8 x9 7 (by decide) inb_S8x3x2048_S1x3x2048_7_0_0 inb_S8x13x1_S1x13x1_7_0_0 inb_S8x16x128_S1x16x128_7_0_0 inb_S8x1x128_S1x1x128_7_0_0 inb_S8x128x128_S1x128x128_7_0_0 inb_S8x1x128_S1x1x128_7_0_0 inb_S8x128x128_S1x128x128_7_0_0 inb_S8x1x128_S1x1x128_7_0_0 inb_S8x128x1_S1x128x1_7_0_0 inb_S8x1x1_S1x1x1_7_0_0 inb_S8x1x2048_S1x1x2048_7_0_0 x)
  · exact (congrFun (Sample.cut6 (F := Ideal) _ _ _ _ _ _ _ _ _ _) x).trans
      (piece_eq x0 x1 x2 x3 x4 x5 x6 x7 x8 x9 6 (by decide) inb_S8x3x2048_S1x3x2048_6_0_0 inb_S8x13x1_S1x13x1_6_0_0 inb_S8x16x128_S1x16x128_6_0_0 inb_S8x1x128_S1x1x128_6_0_0 inb_S8x128x128_S1x128x128_6_0_0 inb_S8x1x128_S1x1x128_6_0_0 inb_S8x128x128_S1x128x128_6_0_0 inb_S8x1x128_S1x1x128_6_0_0 inb_S8x128x1_S1x128x1_6_0_0 inb_S8x1x1_S1x1x1_6_0_0 inb_S8x1x2048_S1x1x2048_6_0_0 x)
  · exact (congrFun (Sample.cut5 (F := Ideal) _ _ _ _ _ _ _ _ _ _) x).trans
      (piece_eq x0 x1 x2 x3 x4 x5 x6 x7 x8 x9 5 (by decide) inb_S8x3x2048_S1x3x2048_5_0_0 inb_S8x13x1_S1x13x1_5_0_0 inb_S8x16x128_S1x16x128_5_0_0 inb_S8x1x128_S1x1x128_5_0_0 inb_S8x128x128_S1x128x128_5_0_0 inb_S8x1x128_S1x1x128_5_0_0 inb_S8x128x128_S1x128x128_5_0_0 inb_S8x1x128_S1x1x128_5_0_0 inb_S8x128x1_S1x128x1_5_0_0 inb_S8x1x1_S1x1x1_5_0_0 inb_S8x1x2048_S1x1x2048_5_0_0 x)
  · exact (congrFun (Sample.cut4 (F := Ideal) _ _ _ _ _ _ _ _ _ _) x).trans
      (piece_eq x0 x1 x2 x3 x4 x5 x6 x7 x8 x9 4 (by decide) inb_S8x3x2048_S1x3x2048_4_0_0 inb_S8x13x1_S1x13x1_4_0_0 inb_S8x16x128_S1x16x128_4_0_0 inb_S8x1x128_S1x1x128_4_0_0 inb_S8x128x128_S1x128x128_4_0_0 inb_S8x1x128_S1x1x128_4_0_0 inb_S8x128x128_S1x128x128_4_0_0 inb_S8x1x128_S1x1x128_4_0_0 inb_S8x128x1_S1x128x1_4_0_0 inb_S8x1x1_S1x1x1_4_0_0 inb_S8x1x2048_S1x1x2048_4_0_0 x)
  · exact (congrFun (Sample.cut3 (F := Ideal) _ _ _ _ _ _ _ _ _ _) x).trans
      (piece_eq x0 x1 x2 x3 x4 x5 x6 x7 x8 x9 3 (by decide) inb_S8x3x2048_S1x3x2048_3_0_0 inb_S8x13x1_S1x13x1_3_0_0 inb_S8x16x128_S1x16x128_3_0_0 inb_S8x1x128_S1x1x128_3_0_0 inb_S8x128x128_S1x128x128_3_0_0 inb_S8x1x128_S1x1x128_3_0_0 inb_S8x128x128_S1x128x128_3_0_0 inb_S8x1x128_S1x1x128_3_0_0 inb_S8x128x1_S1x128x1_3_0_0 inb_S8x1x1_S1x1x1_3_0_0 inb_S8x1x2048_S1x1x2048_3_0_0 x)
  · exact (congrFun (Sample.cut2 (F := Ideal) _ _ _ _ _ _ _ _ _ _) x).trans
      (piece_eq x0 x1 x2 x3 x4 x5 x6 x7 x8 x9 2 (by decide) inb_S8x3x2048_S1x3x2048_2_0_0 inb_S8x13x1_S1x13x1_2_0_0 inb_S8x16x128_S1x16x128_2_0_0 inb_S8x1x128_S1x1x128_2_0_0 inb_S8x128x128_S1x128x128_2_0_0 inb_S8x1x128_S1x1x128_2_0_0 inb_S8x128x128_S1x128x128_2_0_0 inb_S8x1x128_S1x1x128_2_0_0 inb_S8x128x1_S1x128x1_2_0_0 inb_S8x1x1_S1x1x1_2_0_0 inb_S8x1x2048_S1x1x2048_2_0_0 x)
  · exact (congrFun (Sample.cut1 (F := Ideal) _ _ _ _ _ _ _ _ _ _) x).trans
      (piece_eq x0 x1 x2 x3 x4 x5 x6 x7 x8 x9 1 (by decide) inb_S8x3x2048_S1x3x2048_1_0_0 inb_S8x13x1_S1x13x1_1_0_0 inb_S8x16x128_S1x16x128_1_0_0 inb_S8x1x128_S1x1x128_1_0_0 inb_S8x128x128_S1x128x128_1_0_0 inb_S8x1x128_S1x1x128_1_0_0 inb_S8x128x128_S1x128x128_1_0_0 inb_S8x1x128_S1x1x128_1_0_0 inb_S8x128x1_S1x128x1_1_0_0 inb_S8x1x1_S1x1x1_1_0_0 inb_S8x1x2048_S1x1x2048_1_0_0 x)
  · exact (congrFun (Sample.cut0 (F := Ideal) _ _ _ _ _ _ _ _ _ _) x).trans
      (piece_eq x0 x1 x2 x3 x4 x5 x6 x7 x8 x9 0 (by decide) inb_S8x3x2048_S1x3x2048_0_0_0 inb_S8x13x1_S1x13x1_0_0_0 inb_S8x16x128_S1x16x128_0_0_0 inb_S8x1x128_S1x1x128_0_0_0 inb_S8x128x128_S1x128x128_0_0_0 inb_S8x1x128_S1x1x128_0_0_0 inb_S8x128x128_S1x128x128_0_0_0 inb_S8x1x128_S1x1x128_0_0_0 inb_S8x128x1_S1x128x1_0_0_0 inb_S8x1x1_S1x1x1_0_0_0 inb_S8x1x2048_S1x1x2048_0_0_0 x)

variable (V : (c : Dev nD) → (b : Ref sig .tc) → Buf (Elt Ideal) ((c : Thread nD τ).loc b))

/-- The network's output for sample `s` at point `n`, read from the region's ten input arrays. -/
def outAt (c : Dev nD) (s : Fin 256) (n : Fin 2048) : EReal :=
  Cert.Mlp.net (fun a => V c main_v103 (ix3 s a n)) (fun j => V c main_v102 (ix3 s j 0))
    (fun k o => V c main_v38 (ix3 s k o)) (fun o => V c main_v66 (ix3 s 0 o))
    (fun k o => V c main_v45 (ix3 s k o)) (fun o => V c main_v73 (ix3 s 0 o))
    (fun k o => V c main_v52 (ix3 s k o)) (fun o => V c main_v80 (ix3 s 0 o))
    (fun k o => V c main_v59 (ix3 s k o)) (fun o => V c main_v87 (ix3 s 0 o))

/-! ## Where a step's blocks sit in their arrays

Every window's index map sends grid step `t` to block (t, 0, 0): rows 8t … 8t + 7 of its array. -/

private theorem idx4_0 : ∀ t : Fin cfg4.N, win4_0.index t (0 : Fin 3) = t.val ∧ win4_0.index t (1 : Fin 3) = 0 ∧ win4_0.index t (2 : Fin 3) = 0 :=
  (by decide +kernel : ∀ t : Fin grid4.N, _)
private theorem idx4_1 : ∀ t : Fin cfg4.N, win4_1.index t (0 : Fin 3) = t.val ∧ win4_1.index t (1 : Fin 3) = 0 ∧ win4_1.index t (2 : Fin 3) = 0 :=
  (by decide +kernel : ∀ t : Fin grid4.N, _)
private theorem idx4_2 : ∀ t : Fin cfg4.N, win4_2.index t (0 : Fin 3) = t.val ∧ win4_2.index t (1 : Fin 3) = 0 ∧ win4_2.index t (2 : Fin 3) = 0 :=
  (by decide +kernel : ∀ t : Fin grid4.N, _)
private theorem idx4_3 : ∀ t : Fin cfg4.N, win4_3.index t (0 : Fin 3) = t.val ∧ win4_3.index t (1 : Fin 3) = 0 ∧ win4_3.index t (2 : Fin 3) = 0 :=
  (by decide +kernel : ∀ t : Fin grid4.N, _)
private theorem idx4_4 : ∀ t : Fin cfg4.N, win4_4.index t (0 : Fin 3) = t.val ∧ win4_4.index t (1 : Fin 3) = 0 ∧ win4_4.index t (2 : Fin 3) = 0 :=
  (by decide +kernel : ∀ t : Fin grid4.N, _)
private theorem idx4_5 : ∀ t : Fin cfg4.N, win4_5.index t (0 : Fin 3) = t.val ∧ win4_5.index t (1 : Fin 3) = 0 ∧ win4_5.index t (2 : Fin 3) = 0 :=
  (by decide +kernel : ∀ t : Fin grid4.N, _)
private theorem idx4_6 : ∀ t : Fin cfg4.N, win4_6.index t (0 : Fin 3) = t.val ∧ win4_6.index t (1 : Fin 3) = 0 ∧ win4_6.index t (2 : Fin 3) = 0 :=
  (by decide +kernel : ∀ t : Fin grid4.N, _)
private theorem idx4_7 : ∀ t : Fin cfg4.N, win4_7.index t (0 : Fin 3) = t.val ∧ win4_7.index t (1 : Fin 3) = 0 ∧ win4_7.index t (2 : Fin 3) = 0 :=
  (by decide +kernel : ∀ t : Fin grid4.N, _)
private theorem idx4_8 : ∀ t : Fin cfg4.N, win4_8.index t (0 : Fin 3) = t.val ∧ win4_8.index t (1 : Fin 3) = 0 ∧ win4_8.index t (2 : Fin 3) = 0 :=
  (by decide +kernel : ∀ t : Fin grid4.N, _)
private theorem idx4_9 : ∀ t : Fin cfg4.N, win4_9.index t (0 : Fin 3) = t.val ∧ win4_9.index t (1 : Fin 3) = 0 ∧ win4_9.index t (2 : Fin 3) = 0 :=
  (by decide +kernel : ∀ t : Fin grid4.N, _)
private theorem idx4_10 : ∀ t : Fin cfg4.N, win4_10.index t (0 : Fin 3) = t.val ∧ win4_10.index t (1 : Fin 3) = 0 ∧ win4_10.index t (2 : Fin 3) = 0 :=
  (by decide +kernel : ∀ t : Fin grid4.N, _)

/-- Window 0's block at step `t`, read at an index, is its array at the same index moved down 8t rows. -/
private theorem iblk4_0_apply (c : Dev nD) (t : Fin cfg4.N) (x : S8x3x2048.Idx) (k : S256x3x2048.Idx)
    (hk0 : (k 0).val = 8 * t.val + (x 0).val) (hk1 : (k 1).val = (x 1).val) (hk2 : (k 2).val = (x 2).val) :
    (iblk4 V c 0 t : Vec Ideal S8x3x2048 .f32) x = (V c main_v103 : S256x3x2048.Idx → EReal) k := by
  obtain ⟨e0, e1, e2⟩ := idx4_0 t
  unfold iblk4
  rw [View.read_apply]
  show V c main_v103 _ = V c main_v103 _
  congr 1
  funext a; apply Fin.ext
  match a with
  | ⟨0, _⟩ => show win4_0.index t (0 : Fin 3) * 8 + 1 * (x 0).val = (k 0).val; rw [e0, hk0]; omega
  | ⟨1, _⟩ => show win4_0.index t (1 : Fin 3) * 3 + 1 * (x 1).val = (k 1).val; rw [e1, hk1]; omega
  | ⟨2, _⟩ => show win4_0.index t (2 : Fin 3) * 2048 + 1 * (x 2).val = (k 2).val; rw [e2, hk2]; omega

/-- Window 1's block at step `t`, read at an index, is its array at the same index moved down 8t rows. -/
private theorem iblk4_1_apply (c : Dev nD) (t : Fin cfg4.N) (x : S8x13x1.Idx) (k : S256x13x1.Idx)
    (hk0 : (k 0).val = 8 * t.val + (x 0).val) (hk1 : (k 1).val = (x 1).val) (hk2 : (k 2).val = (x 2).val) :
    (iblk4 V c 1 t : Vec Ideal S8x13x1 .f32) x = (V c main_v102 : S256x13x1.Idx → EReal) k := by
  obtain ⟨e0, e1, e2⟩ := idx4_1 t
  unfold iblk4
  rw [View.read_apply]
  show V c main_v102 _ = V c main_v102 _
  congr 1
  funext a; apply Fin.ext
  match a with
  | ⟨0, _⟩ => show win4_1.index t (0 : Fin 3) * 8 + 1 * (x 0).val = (k 0).val; rw [e0, hk0]; omega
  | ⟨1, _⟩ => show win4_1.index t (1 : Fin 3) * 13 + 1 * (x 1).val = (k 1).val; rw [e1, hk1]; omega
  | ⟨2, _⟩ => show win4_1.index t (2 : Fin 3) * 1 + 1 * (x 2).val = (k 2).val; rw [e2, hk2]; omega

/-- Window 2's block at step `t`, read at an index, is its array at the same index moved down 8t rows. -/
private theorem iblk4_2_apply (c : Dev nD) (t : Fin cfg4.N) (x : S8x16x128.Idx) (k : S256x16x128.Idx)
    (hk0 : (k 0).val = 8 * t.val + (x 0).val) (hk1 : (k 1).val = (x 1).val) (hk2 : (k 2).val = (x 2).val) :
    (iblk4 V c 2 t : Vec Ideal S8x16x128 .f32) x = (V c main_v38 : S256x16x128.Idx → EReal) k := by
  obtain ⟨e0, e1, e2⟩ := idx4_2 t
  unfold iblk4
  rw [View.read_apply]
  show V c main_v38 _ = V c main_v38 _
  congr 1
  funext a; apply Fin.ext
  match a with
  | ⟨0, _⟩ => show win4_2.index t (0 : Fin 3) * 8 + 1 * (x 0).val = (k 0).val; rw [e0, hk0]; omega
  | ⟨1, _⟩ => show win4_2.index t (1 : Fin 3) * 16 + 1 * (x 1).val = (k 1).val; rw [e1, hk1]; omega
  | ⟨2, _⟩ => show win4_2.index t (2 : Fin 3) * 128 + 1 * (x 2).val = (k 2).val; rw [e2, hk2]; omega

/-- Window 3's block at step `t`, read at an index, is its array at the same index moved down 8t rows. -/
private theorem iblk4_3_apply (c : Dev nD) (t : Fin cfg4.N) (x : S8x1x128.Idx) (k : S256x1x128.Idx)
    (hk0 : (k 0).val = 8 * t.val + (x 0).val) (hk1 : (k 1).val = (x 1).val) (hk2 : (k 2).val = (x 2).val) :
    (iblk4 V c 3 t : Vec Ideal S8x1x128 .f32) x = (V c main_v66 : S256x1x128.Idx → EReal) k := by
  obtain ⟨e0, e1, e2⟩ := idx4_3 t
  unfold iblk4
  rw [View.read_apply]
  show V c main_v66 _ = V c main_v66 _
  congr 1
  funext a; apply Fin.ext
  match a with
  | ⟨0, _⟩ => show win4_3.index t (0 : Fin 3) * 8 + 1 * (x 0).val = (k 0).val; rw [e0, hk0]; omega
  | ⟨1, _⟩ => show win4_3.index t (1 : Fin 3) * 1 + 1 * (x 1).val = (k 1).val; rw [e1, hk1]; omega
  | ⟨2, _⟩ => show win4_3.index t (2 : Fin 3) * 128 + 1 * (x 2).val = (k 2).val; rw [e2, hk2]; omega

/-- Window 4's block at step `t`, read at an index, is its array at the same index moved down 8t rows. -/
private theorem iblk4_4_apply (c : Dev nD) (t : Fin cfg4.N) (x : S8x128x128.Idx) (k : S256x128x128.Idx)
    (hk0 : (k 0).val = 8 * t.val + (x 0).val) (hk1 : (k 1).val = (x 1).val) (hk2 : (k 2).val = (x 2).val) :
    (iblk4 V c 4 t : Vec Ideal S8x128x128 .f32) x = (V c main_v45 : S256x128x128.Idx → EReal) k := by
  obtain ⟨e0, e1, e2⟩ := idx4_4 t
  unfold iblk4
  rw [View.read_apply]
  show V c main_v45 _ = V c main_v45 _
  congr 1
  funext a; apply Fin.ext
  match a with
  | ⟨0, _⟩ => show win4_4.index t (0 : Fin 3) * 8 + 1 * (x 0).val = (k 0).val; rw [e0, hk0]; omega
  | ⟨1, _⟩ => show win4_4.index t (1 : Fin 3) * 128 + 1 * (x 1).val = (k 1).val; rw [e1, hk1]; omega
  | ⟨2, _⟩ => show win4_4.index t (2 : Fin 3) * 128 + 1 * (x 2).val = (k 2).val; rw [e2, hk2]; omega

/-- Window 5's block at step `t`, read at an index, is its array at the same index moved down 8t rows. -/
private theorem iblk4_5_apply (c : Dev nD) (t : Fin cfg4.N) (x : S8x1x128.Idx) (k : S256x1x128.Idx)
    (hk0 : (k 0).val = 8 * t.val + (x 0).val) (hk1 : (k 1).val = (x 1).val) (hk2 : (k 2).val = (x 2).val) :
    (iblk4 V c 5 t : Vec Ideal S8x1x128 .f32) x = (V c main_v73 : S256x1x128.Idx → EReal) k := by
  obtain ⟨e0, e1, e2⟩ := idx4_5 t
  unfold iblk4
  rw [View.read_apply]
  show V c main_v73 _ = V c main_v73 _
  congr 1
  funext a; apply Fin.ext
  match a with
  | ⟨0, _⟩ => show win4_5.index t (0 : Fin 3) * 8 + 1 * (x 0).val = (k 0).val; rw [e0, hk0]; omega
  | ⟨1, _⟩ => show win4_5.index t (1 : Fin 3) * 1 + 1 * (x 1).val = (k 1).val; rw [e1, hk1]; omega
  | ⟨2, _⟩ => show win4_5.index t (2 : Fin 3) * 128 + 1 * (x 2).val = (k 2).val; rw [e2, hk2]; omega

/-- Window 6's block at step `t`, read at an index, is its array at the same index moved down 8t rows. -/
private theorem iblk4_6_apply (c : Dev nD) (t : Fin cfg4.N) (x : S8x128x128.Idx) (k : S256x128x128.Idx)
    (hk0 : (k 0).val = 8 * t.val + (x 0).val) (hk1 : (k 1).val = (x 1).val) (hk2 : (k 2).val = (x 2).val) :
    (iblk4 V c 6 t : Vec Ideal S8x128x128 .f32) x = (V c main_v52 : S256x128x128.Idx → EReal) k := by
  obtain ⟨e0, e1, e2⟩ := idx4_6 t
  unfold iblk4
  rw [View.read_apply]
  show V c main_v52 _ = V c main_v52 _
  congr 1
  funext a; apply Fin.ext
  match a with
  | ⟨0, _⟩ => show win4_6.index t (0 : Fin 3) * 8 + 1 * (x 0).val = (k 0).val; rw [e0, hk0]; omega
  | ⟨1, _⟩ => show win4_6.index t (1 : Fin 3) * 128 + 1 * (x 1).val = (k 1).val; rw [e1, hk1]; omega
  | ⟨2, _⟩ => show win4_6.index t (2 : Fin 3) * 128 + 1 * (x 2).val = (k 2).val; rw [e2, hk2]; omega

/-- Window 7's block at step `t`, read at an index, is its array at the same index moved down 8t rows. -/
private theorem iblk4_7_apply (c : Dev nD) (t : Fin cfg4.N) (x : S8x1x128.Idx) (k : S256x1x128.Idx)
    (hk0 : (k 0).val = 8 * t.val + (x 0).val) (hk1 : (k 1).val = (x 1).val) (hk2 : (k 2).val = (x 2).val) :
    (iblk4 V c 7 t : Vec Ideal S8x1x128 .f32) x = (V c main_v80 : S256x1x128.Idx → EReal) k := by
  obtain ⟨e0, e1, e2⟩ := idx4_7 t
  unfold iblk4
  rw [View.read_apply]
  show V c main_v80 _ = V c main_v80 _
  congr 1
  funext a; apply Fin.ext
  match a with
  | ⟨0, _⟩ => show win4_7.index t (0 : Fin 3) * 8 + 1 * (x 0).val = (k 0).val; rw [e0, hk0]; omega
  | ⟨1, _⟩ => show win4_7.index t (1 : Fin 3) * 1 + 1 * (x 1).val = (k 1).val; rw [e1, hk1]; omega
  | ⟨2, _⟩ => show win4_7.index t (2 : Fin 3) * 128 + 1 * (x 2).val = (k 2).val; rw [e2, hk2]; omega

/-- Window 8's block at step `t`, read at an index, is its array at the same index moved down 8t rows. -/
private theorem iblk4_8_apply (c : Dev nD) (t : Fin cfg4.N) (x : S8x128x1.Idx) (k : S256x128x1.Idx)
    (hk0 : (k 0).val = 8 * t.val + (x 0).val) (hk1 : (k 1).val = (x 1).val) (hk2 : (k 2).val = (x 2).val) :
    (iblk4 V c 8 t : Vec Ideal S8x128x1 .f32) x = (V c main_v59 : S256x128x1.Idx → EReal) k := by
  obtain ⟨e0, e1, e2⟩ := idx4_8 t
  unfold iblk4
  rw [View.read_apply]
  show V c main_v59 _ = V c main_v59 _
  congr 1
  funext a; apply Fin.ext
  match a with
  | ⟨0, _⟩ => show win4_8.index t (0 : Fin 3) * 8 + 1 * (x 0).val = (k 0).val; rw [e0, hk0]; omega
  | ⟨1, _⟩ => show win4_8.index t (1 : Fin 3) * 128 + 1 * (x 1).val = (k 1).val; rw [e1, hk1]; omega
  | ⟨2, _⟩ => show win4_8.index t (2 : Fin 3) * 1 + 1 * (x 2).val = (k 2).val; rw [e2, hk2]; omega

/-- Window 9's block at step `t`, read at an index, is its array at the same index moved down 8t rows. -/
private theorem iblk4_9_apply (c : Dev nD) (t : Fin cfg4.N) (x : S8x1x1.Idx) (k : S256x1x1.Idx)
    (hk0 : (k 0).val = 8 * t.val + (x 0).val) (hk1 : (k 1).val = (x 1).val) (hk2 : (k 2).val = (x 2).val) :
    (iblk4 V c 9 t : Vec Ideal S8x1x1 .f32) x = (V c main_v87 : S256x1x1.Idx → EReal) k := by
  obtain ⟨e0, e1, e2⟩ := idx4_9 t
  unfold iblk4
  rw [View.read_apply]
  show V c main_v87 _ = V c main_v87 _
  congr 1
  funext a; apply Fin.ext
  match a with
  | ⟨0, _⟩ => show win4_9.index t (0 : Fin 3) * 8 + 1 * (x 0).val = (k 0).val; rw [e0, hk0]; omega
  | ⟨1, _⟩ => show win4_9.index t (1 : Fin 3) * 1 + 1 * (x 1).val = (k 1).val; rw [e1, hk1]; omega
  | ⟨2, _⟩ => show win4_9.index t (2 : Fin 3) * 1 + 1 * (x 2).val = (k 2).val; rw [e2, hk2]; omega

/-! ## From the blocks to the array -/

/-- Row `y 0` of step `t`'s output block at point `y 2` is the network's output for sample 8t + y 0 at that point,
    read from the arrays: each of the step's input blocks is its array moved down 8t rows. -/
private theorem blockOut_at (c : Dev nD) (t : Fin cfg4.N) (y : S8x1x2048.Idx) (s : Fin 256) (n : Fin 2048)
    (hs : s.val = 8 * t.val + (y 0).val) (hn : n.val = (y 2).val) :
    blockOut (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) y = outAt V c s n := by
  have e0 : (fun a : Fin 3 => (iblk4 V c 0 t : Vec Ideal S8x3x2048 .f32) (ix3 (y 0 : Fin 8) a (y 2 : Fin 2048)))
      = fun a : Fin 3 => (V c main_v103 : S256x3x2048.Idx → EReal) (ix3 s a n) :=
    funext fun a => iblk4_0_apply V c t _ _ hs rfl hn
  have e1 : (fun j : Fin 13 => (iblk4 V c 1 t : Vec Ideal S8x13x1 .f32) (ix3 (y 0 : Fin 8) j 0))
      = fun j : Fin 13 => (V c main_v102 : S256x13x1.Idx → EReal) (ix3 s j 0) :=
    funext fun j => iblk4_1_apply V c t _ _ hs rfl rfl
  have e2 : (fun (k : Fin 16) (o : Fin 128) => (iblk4 V c 2 t : Vec Ideal S8x16x128 .f32) (ix3 (y 0 : Fin 8) k o))
      = fun (k : Fin 16) (o : Fin 128) => (V c main_v38 : S256x16x128.Idx → EReal) (ix3 s k o) :=
    funext fun k => funext fun o => iblk4_2_apply V c t _ _ hs rfl rfl
  have e3 : (fun o : Fin 128 => (iblk4 V c 3 t : Vec Ideal S8x1x128 .f32) (ix3 (y 0 : Fin 8) 0 o))
      = fun o : Fin 128 => (V c main_v66 : S256x1x128.Idx → EReal) (ix3 s 0 o) :=
    funext fun o => iblk4_3_apply V c t _ _ hs rfl rfl
  have e4 : (fun (k : Fin 128) (o : Fin 128) => (iblk4 V c 4 t : Vec Ideal S8x128x128 .f32) (ix3 (y 0 : Fin 8) k o))
      = fun (k : Fin 128) (o : Fin 128) => (V c main_v45 : S256x128x128.Idx → EReal) (ix3 s k o) :=
    funext fun k => funext fun o => iblk4_4_apply V c t _ _ hs rfl rfl
  have e5 : (fun o : Fin 128 => (iblk4 V c 5 t : Vec Ideal S8x1x128 .f32) (ix3 (y 0 : Fin 8) 0 o))
      = fun o : Fin 128 => (V c main_v73 : S256x1x128.Idx → EReal) (ix3 s 0 o) :=
    funext fun o => iblk4_5_apply V c t _ _ hs rfl rfl
  have e6 : (fun (k : Fin 128) (o : Fin 128) => (iblk4 V c 6 t : Vec Ideal S8x128x128 .f32) (ix3 (y 0 : Fin 8) k o))
      = fun (k : Fin 128) (o : Fin 128) => (V c main_v52 : S256x128x128.Idx → EReal) (ix3 s k o) :=
    funext fun k => funext fun o => iblk4_6_apply V c t _ _ hs rfl rfl
  have e7 : (fun o : Fin 128 => (iblk4 V c 7 t : Vec Ideal S8x1x128 .f32) (ix3 (y 0 : Fin 8) 0 o))
      = fun o : Fin 128 => (V c main_v80 : S256x1x128.Idx → EReal) (ix3 s 0 o) :=
    funext fun o => iblk4_7_apply V c t _ _ hs rfl rfl
  have e8 : (fun (k : Fin 128) (o : Fin 1) => (iblk4 V c 8 t : Vec Ideal S8x128x1 .f32) (ix3 (y 0 : Fin 8) k o))
      = fun (k : Fin 128) (o : Fin 1) => (V c main_v59 : S256x128x1.Idx → EReal) (ix3 s k o) :=
    funext fun k => funext fun o => iblk4_8_apply V c t _ _ hs rfl rfl
  have e9 : (fun o : Fin 1 => (iblk4 V c 9 t : Vec Ideal S8x1x1 .f32) (ix3 (y 0 : Fin 8) 0 o))
      = fun o : Fin 1 => (V c main_v87 : S256x1x1.Idx → EReal) (ix3 s 0 o) :=
    funext fun o => iblk4_9_apply V c t _ _ hs rfl rfl
  unfold blockOut outAt
  rw [e0, e1, e2, e3, e4, e5, e6, e7, e8, e9]

/-- What grid step `t` writes back is block `t` of the array of network outputs. -/
private theorem flushed_eq (c : Dev nD) (t : Fin cfg4.N) :
    (dat4 (F := Ideal) V c).flushed 10 t
      = ((cfg4.win 10).blk t).view.read (Elt Ideal) (fun i : S256x1x2048.Idx => outAt V c (i 0) (i 2)) := by
  show (cfg4.win 10).cut (grid4.coords t) ((dat4 V c).after 10 t) = _
  rw [after4_10, out4_10_eq (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)]
  obtain ⟨e0, e1, e2⟩ := idx4_10 t
  funext y
  show blockOut (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) y
    = outAt V c ((((cfg4.win 10).blk t).view.emb y) 0) ((((cfg4.win 10).blk t).view.emb y) 2)
  refine blockOut_at V c t y _ _ ?_ ?_
  · show win4_10.index t (0 : Fin 3) * 8 + 1 * (y 0).val = _; rw [e0]; omega
  · show win4_10.index t (2 : Fin 3) * 2048 + 1 * (y 2).val = _; rw [e2]; omega

/-- An index of the output array is in step `t`'s block iff each coordinate is in the block's range on its axis. -/
private theorem mem_blk (t : Fin cfg4.N) (i : S256x1x2048.Idx) :
    i ∈ ((cfg4.win 10).blk t).view.set ↔ ∀ a : Fin 3, win4_10.index t a * S8x1x2048.size a ≤ (i a).val
      ∧ (i a).val < win4_10.index t a * S8x1x2048.size a + S8x1x2048.size a := by
  show i ∈ ((View.whole main_v104).slice (win4_10.rect t)).set ↔ _
  rw [View.set_slice_whole, Rect.mem_set_unit]
  exact Iff.rfl

/-- Sample `s` is written by step `s / 8`: the 32 blocks cover the array. -/
private theorem cover (i : S256x1x2048.Idx) :
    ∃ t : Fin cfg4.N, (cfg4.win 10).flush t = true ∧ i ∈ ((cfg4.win 10).blk t).view.set := by
  have hi0 : (i 0).val < 256 := (i 0).isLt
  have hi1 : (i 1).val < 1 := (i 1).isLt
  have hi2 : (i 2).val < 2048 := (i 2).isLt
  have hN : cfg4.N = 32 := N_4
  obtain ⟨t, ht⟩ : ∃ t : Fin cfg4.N, t.val = (i 0).val / 8 := ⟨⟨(i 0).val / 8, by rw [hN]; omega⟩, rfl⟩
  obtain ⟨e0, e1, e2⟩ := idx4_10 t
  refine ⟨t, flush4_10 t, ?_⟩
  rw [mem_blk]
  intro a
  match a with
  | ⟨0, _⟩ =>
    show win4_10.index t (0 : Fin 3) * 8 ≤ (i 0).val ∧ (i 0).val < win4_10.index t (0 : Fin 3) * 8 + 8
    rw [e0, ht]; omega
  | ⟨1, _⟩ =>
    show win4_10.index t (1 : Fin 3) * 1 ≤ (i 1).val ∧ (i 1).val < win4_10.index t (1 : Fin 3) * 1 + 1
    rw [e1]; omega
  | ⟨2, _⟩ =>
    show win4_10.index t (2 : Fin 3) * 2048 ≤ (i 2).val ∧ (i 2).val < win4_10.index t (2 : Fin 3) * 2048 + 2048
    rw [e2]; omega

/-- The output array after the region's 32 grid steps. -/
theorem region4_array (c : Dev nD) :
    (dat4 (F := Ideal) V c).arrAt 10 cfg4.N = (fun i : S256x1x2048.Idx => outAt V c (i 0) (i 2)) :=
  (dat4 (F := Ideal) V c).arrAt_eq_of_cover 10 _ (fun t _ => flushed_eq V c t) cover

end Cert.KernelIdeal.Region4

end
-- ==== Proof.KValue.lean ====
/-
  The kernel program's result, as one function of what the main region was entered with.

  @main's result [sample, point, 0] is the main region's output [sample, 0, point] with its last two axes swapped, and
  the region's output is the network at each (sample, point) (KRegion4.lean). The region reads the points transposed,
  [sample, coordinate, point], and the latent codes as columns [sample, entry, 0]: swapping back, the result is
  `Mlp.netOut` of the points as given, the looked-up latent codes [sample, entry], and the per-sample weights and
  biases the region was entered with.
-/
import proofs.«404252_j74268574482736_3_alg».proof.Proof.KHostB
import proofs.«404252_j74268574482736_3_alg».proof.Proof.KRegion4
import proofs.«404252_j74268574482736_3_alg».proof.Proof.Mlp
import Idealize.ShloMosaic.Lib.ValueIdx
import Idealize.ShloMosaic.Lib.Pipeline.Value

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Host Cert.KernelIdeal.Region4

variable (m : (ℓ : Loc nD τ sig) → Buf (Elt Ideal) ℓ) (ρ : Dev nD → PrngReg)

/-- The samples' latent codes [sample, entry]: the latent table looked up at each sample's (network, block) pair. -/
def latent (c : Dev nD) : S256x13.Idx → EReal :=
  Host.gather gather_S256x8x13_S256x2_S256x13_1_01_n_n_01_1_1113 (m ((c : Thread nD τ).loc main_arg3)) (latIdx (m ((c : Thread nD τ).loc main_arg1)) (m ((c : Thread nD τ).loc main_arg2)))

/-- The transposed points read back: entry (sample, coordinate, point) of the region's first input is the point's coordinate. -/
theorem points_at (c : Dev nD) (s : Fin 256) (a : Fin 3) (n : Fin 2048) :
    V9 m ρ c main_v103 (ix3 s a n) = (m ((c : Thread nD τ).loc main_arg0)) (ix3 s n a) := by
  rw [v103_eq]
  exact transpose_apply [0, 2, 1] _ transposes_S256x2048x3_S256x3x2048_0_2_1 (ix3 s a n) (ix3 s n a)
    (fun b => match b with | ⟨0, _⟩ => rfl | ⟨1, _⟩ => rfl | ⟨2, _⟩ => rfl)

/-- The latent columns read back: entry (sample, j, 0) of the region's second input is the sample's latent entry j. -/
theorem latent_at (c : Dev nD) (s : Fin 256) (j : Fin 13) :
    V9 m ρ c main_v102 (ix3 s j 0) = latent m c (ix2 s j) := by
  rw [v102_eq]
  exact shapeCast_apply _ shapeCasts_S256x13_S256x13x1 (ix3 s j 0) (ix2 s j)
    (by rw [Shape.rowMajor_val_two, Shape.rowMajor_val_three]; show s.val * 13 + j.val = (s.val * 13 + j.val) * 1 + 0; omega)

/-- @main's result is the network's output on the batch. -/
theorem value_eq (c : Dev nD) :
    W11 m ρ c (Proc.devRef .tc main_v105)
      = Cert.Mlp.netOut (m ((c : Thread nD τ).loc main_arg0)) (latent m c)
          (V9 m ρ c main_v38) (V9 m ρ c main_v66) (V9 m ρ c main_v45) (V9 m ρ c main_v73)
          (V9 m ρ c main_v52) (V9 m ρ c main_v80) (V9 m ρ c main_v59) (V9 m ρ c main_v87) := by
  rw [v105_eq]
  funext i
  obtain ⟨s, n, z0, rfl⟩ : ∃ (s : Fin 256) (n : Fin 2048) (z0 : Fin 1), i = ix3 s n z0 := ⟨i 0, i 1, i 2, eq_ix3 i⟩
  have hz : z0 = 0 := Subsingleton.elim _ _
  subst hz
  rw [transpose_apply [0, 2, 1] _ transposes_S256x1x2048_S256x2048x1_0_2_1 (ix3 s n 0) (ix3 s 0 n)
    (fun b => match b with | ⟨0, _⟩ => rfl | ⟨1, _⟩ => rfl | ⟨2, _⟩ => rfl)]
  rw [region4_array]
  show outAt (V9 m ρ) c s n = Cert.Mlp.netAt _ _ _ _ _ _ _ _ _ _ s n
  unfold outAt Cert.Mlp.netAt
  rw [show (fun a => V9 m ρ c main_v103 (ix3 s a n)) = (fun a => (m ((c : Thread nD τ).loc main_arg0)) (ix3 s n a)) from funext fun a => points_at m ρ c s a n,
    show (fun j => V9 m ρ c main_v102 (ix3 s j 0)) = (fun j => latent m c (ix2 s j)) from funext fun j => latent_at m ρ c s j]

end Cert.KernelIdeal.KValue

end
-- ==== Proof.KHostA.lean ====
/-
  The host program between the launch and the main region, part one: what each dequantisation region is entered
  with, and where its output ends up.

  Each of the four codebooks (256 entries) is cut into its low and high half, each laid as one row of 128; each
  label array is laid as rows of 128. After a region, its output array (rows of 128 dequantised weights) is laid
  flat and then as [256 networks, input, output]: the layer's weight table. No later host operation or region writes
  these buffers again, so they are still there when the last host stretch before the main region reads them.
-/
import proofs.«404252_j74268574482736_3_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## Buffers that a stretch, or a region, leaves alone

An operation writes its own result and nothing else; a region writes its four arrays and nothing else. So a buffer
that is neither keeps its contents across the stretch, or the region. -/

/-- Closes "no operation of this stretch writes the buffer": the stretch is a literal list, each operation writes
    one reference, and that reference differs from the buffer's. -/
macro "stretch_skips" : tactic =>
  `(tactic| (refine List.forall_iff_forall_mem.mp ?_
             simp only [hostOps0, hostOps1, hostOps2, hostOps3, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- A buffer untouched by the first stretch and the first region still holds its launch contents. -/
private theorem W2_keep (c : Dev nD) (b : Ref sig .tc)
    (h0 : ∀ op ∈ (hostOps0 : List (HloOp τ sig (Elt F))), Proc.devRef .tc b ∉ op.writes)
    (r0 : ∀ w, Pipeline.arrRef spec0 w ≠ b) :
    W2 m ρ c (Proc.devRef .tc b) = m ((c : Thread nD τ).loc b) :=
  (W2_of_ne m ρ c b r0).trans ((StableHlo.after_of_forall_not_mem _ _ h0).trans rfl)

/-- The same through the second stretch and region. -/
private theorem W4_keep (c : Dev nD) (b : Ref sig .tc)
    (h0 : ∀ op ∈ (hostOps0 : List (HloOp τ sig (Elt F))), Proc.devRef .tc b ∉ op.writes)
    (r0 : ∀ w, Pipeline.arrRef spec0 w ≠ b)
    (h1 : ∀ op ∈ (hostOps1 : List (HloOp τ sig (Elt F))), Proc.devRef .tc b ∉ op.writes)
    (r1 : ∀ w, Pipeline.arrRef spec1 w ≠ b) :
    W4 m ρ c (Proc.devRef .tc b) = m ((c : Thread nD τ).loc b) :=
  (W4_of_ne m ρ c b r1).trans ((StableHlo.after_of_forall_not_mem _ _ h1).trans (W2_keep m ρ c b h0 r0))

/-- The same through the third stretch and region. -/
private theorem W6_keep (c : Dev nD) (b : Ref sig .tc)
    (h0 : ∀ op ∈ (hostOps0 : List (HloOp τ sig (Elt F))), Proc.devRef .tc b ∉ op.writes)
    (r0 : ∀ w, Pipeline.arrRef spec0 w ≠ b)
    (h1 : ∀ op ∈ (hostOps1 : List (HloOp τ sig (Elt F))), Proc.devRef .tc b ∉ op.writes)
    (r1 : ∀ w, Pipeline.arrRef spec1 w ≠ b)
    (h2 : ∀ op ∈ (hostOps2 : List (HloOp τ sig (Elt F))), Proc.devRef .tc b ∉ op.writes)
    (r2 : ∀ w, Pipeline.arrRef spec2 w ≠ b) :
    W6 m ρ c (Proc.devRef .tc b) = m ((c : Thread nD τ).loc b) :=
  (W6_of_ne m ρ c b r2).trans ((StableHlo.after_of_forall_not_mem _ _ h2).trans (W4_keep m ρ c b h0 r0 h1 r1))

/-- The same through the fourth stretch and region. -/
private theorem W8_keep (c : Dev nD) (b : Ref sig .tc)
    (h0 : ∀ op ∈ (hostOps0 : List (HloOp τ sig (Elt F))), Proc.devRef .tc b ∉ op.writes)
    (r0 : ∀ w, Pipeline.arrRef spec0 w ≠ b)
    (h1 : ∀ op ∈ (hostOps1 : List (HloOp τ sig (Elt F))), Proc.devRef .tc b ∉ op.writes)
    (r1 : ∀ w, Pipeline.arrRef spec1 w ≠ b)
    (h2 : ∀ op ∈ (hostOps2 : List (HloOp τ sig (Elt F))), Proc.devRef .tc b ∉ op.writes)
    (r2 : ∀ w, Pipeline.arrRef spec2 w ≠ b)
    (h3 : ∀ op ∈ (hostOps3 : List (HloOp τ sig (Elt F))), Proc.devRef .tc b ∉ op.writes)
    (r3 : ∀ w, Pipeline.arrRef spec3 w ≠ b) :
    W8 m ρ c (Proc.devRef .tc b) = m ((c : Thread nD τ).loc b) :=
  (W8_of_ne m ρ c b r3).trans ((StableHlo.after_of_forall_not_mem _ _ h3).trans (W6_keep m ρ c b h0 r0 h1 r1 h2 r2))

/-- A buffer that the fourth region, and the fourth stretch and third region before it, leave alone. -/
private theorem W8_of_W5 (c : Dev nD) (b : Ref sig .tc)
    (r2 : ∀ w, Pipeline.arrRef spec2 w ≠ b)
    (h3 : ∀ op ∈ (hostOps3 : List (HloOp τ sig (Elt F))), Proc.devRef .tc b ∉ op.writes)
    (r3 : ∀ w, Pipeline.arrRef spec3 w ≠ b) :
    W8 m ρ c (Proc.devRef .tc b) = W5 m ρ c (Proc.devRef .tc b) :=
  (W8_of_ne m ρ c b r3).trans ((StableHlo.after_of_forall_not_mem _ _ h3).trans (W6_of_ne m ρ c b r2))

/-- The same back to the second region's entry. -/
private theorem W8_of_W3 (c : Dev nD) (b : Ref sig .tc)
    (r1 : ∀ w, Pipeline.arrRef spec1 w ≠ b)
    (h2 : ∀ op ∈ (hostOps2 : List (HloOp τ sig (Elt F))), Proc.devRef .tc b ∉ op.writes)
    (r2 : ∀ w, Pipeline.arrRef spec2 w ≠ b)
    (h3 : ∀ op ∈ (hostOps3 : List (HloOp τ sig (Elt F))), Proc.devRef .tc b ∉ op.writes)
    (r3 : ∀ w, Pipeline.arrRef spec3 w ≠ b) :
    W8 m ρ c (Proc.devRef .tc b) = W3 m ρ c (Proc.devRef .tc b) :=
  (W8_of_W5 m ρ c b r2 h3 r3).trans ((StableHlo.after_of_forall_not_mem _ _ h2).trans (W4_of_ne m ρ c b r1))

/-! ## What the dequantisation regions are entered with -/

theorem v0_eq (c : Dev nD) : V1 m ρ c main_v0 = shapeCast S4096x128 (m ((c : Thread nD τ).loc main_arg5)) shapeCasts_S524288_S4096x128 := by
  show StableHlo.after hostOps0 _ (Proc.devRef .tc main_v0) = _
  after_results
  rfl
theorem v2_eq (c : Dev nD) : V1 m ρ c main_v2 = shapeCast S1x128 (extractStridedSlice S128 ![0] (m ((c : Thread nD τ).loc main_arg4)) slices_S256_S128_0) shapeCasts_S128_S1x128 := by
  show StableHlo.after hostOps0 _ (Proc.devRef .tc main_v2) = _
  after_results
  rfl
theorem v4_eq (c : Dev nD) : V1 m ρ c main_v4 = shapeCast S1x128 (extractStridedSlice S128 ![128] (m ((c : Thread nD τ).loc main_arg4)) slices_S256_S128_128) shapeCasts_S128_S1x128 := by
  show StableHlo.after hostOps0 _ (Proc.devRef .tc main_v4) = _
  after_results
  rfl

theorem v8_eq (c : Dev nD) : V3 m ρ c main_v8 = shapeCast S32768x128 (m ((c : Thread nD τ).loc main_arg8)) shapeCasts_S4194304_S32768x128 := by
  show StableHlo.after hostOps1 _ (Proc.devRef .tc main_v8) = _
  after_results
  rw [W2_keep m ρ c main_arg8 (by stretch_skips) (by decide)]
  rfl
theorem v10_eq (c : Dev nD) : V3 m ρ c main_v10 = shapeCast S1x128 (extractStridedSlice S128 ![0] (m ((c : Thread nD τ).loc main_arg7)) slices_S256_S128_0) shapeCasts_S128_S1x128 := by
  show StableHlo.after hostOps1 _ (Proc.devRef .tc main_v10) = _
  after_results
  rw [W2_keep m ρ c main_arg7 (by stretch_skips) (by decide)]
  rfl
theorem v12_eq (c : Dev nD) : V3 m ρ c main_v12 = shapeCast S1x128 (extractStridedSlice S128 ![128] (m ((c : Thread nD τ).loc main_arg7)) slices_S256_S128_128) shapeCasts_S128_S1x128 := by
  show StableHlo.after hostOps1 _ (Proc.devRef .tc main_v12) = _
  after_results
  rw [W2_keep m ρ c main_arg7 (by stretch_skips) (by decide)]
  rfl

theorem v16_eq (c : Dev nD) : V5 m ρ c main_v16 = shapeCast S32768x128 (m ((c : Thread nD τ).loc main_arg11)) shapeCasts_S4194304_S32768x128 := by
  show StableHlo.after hostOps2 _ (Proc.devRef .tc main_v16) = _
  after_results
  rw [W4_keep m ρ c main_arg11 (by stretch_skips) (by decide) (by stretch_skips) (by decide)]
  rfl
theorem v18_eq (c : Dev nD) : V5 m ρ c main_v18 = shapeCast S1x128 (extractStridedSlice S128 ![0] (m ((c : Thread nD τ).loc main_arg10)) slices_S256_S128_0) shapeCasts_S128_S1x128 := by
  show StableHlo.after hostOps2 _ (Proc.devRef .tc main_v18) = _
  after_results
  rw [W4_keep m ρ c main_arg10 (by stretch_skips) (by decide) (by stretch_skips) (by decide)]
  rfl
theorem v20_eq (c : Dev nD) : V5 m ρ c main_v20 = shapeCast S1x128 (extractStridedSlice S128 ![128] (m ((c : Thread nD τ).loc main_arg10)) slices_S256_S128_128) shapeCasts_S128_S1x128 := by
  show StableHlo.after hostOps2 _ (Proc.devRef .tc main_v20) = _
  after_results
  rw [W4_keep m ρ c main_arg10 (by stretch_skips) (by decide) (by stretch_skips) (by decide)]
  rfl

theorem v24_eq (c : Dev nD) : V7 m ρ c main_v24 = shapeCast S256x128 (m ((c : Thread nD τ).loc main_arg14)) shapeCasts_S32768_S256x128 := by
  show StableHlo.after hostOps3 _ (Proc.devRef .tc main_v24) = _
  after_results
  rw [W6_keep m ρ c main_arg14 (by stretch_skips) (by decide) (by stretch_skips) (by decide) (by stretch_skips) (by decide)]
  rfl
theorem v26_eq (c : Dev nD) : V7 m ρ c main_v26 = shapeCast S1x128 (extractStridedSlice S128 ![0] (m ((c : Thread nD τ).loc main_arg13)) slices_S256_S128_0) shapeCasts_S128_S1x128 := by
  show StableHlo.after hostOps3 _ (Proc.devRef .tc main_v26) = _
  after_results
  rw [W6_keep m ρ c main_arg13 (by stretch_skips) (by decide) (by stretch_skips) (by decide) (by stretch_skips) (by decide)]
  rfl
theorem v28_eq (c : Dev nD) : V7 m ρ c main_v28 = shapeCast S1x128 (extractStridedSlice S128 ![128] (m ((c : Thread nD τ).loc main_arg13)) slices_S256_S128_128) shapeCasts_S128_S1x128 := by
  show StableHlo.after hostOps3 _ (Proc.devRef .tc main_v28) = _
  after_results
  rw [W6_keep m ρ c main_arg13 (by stretch_skips) (by decide) (by stretch_skips) (by decide) (by stretch_skips) (by decide)]
  rfl

/-! ## The weight tables, as the last stretch before the main region finds them -/

/-- Layer 0's table [256, 16, 128]: region 0's output rows, laid flat, then by network. -/
theorem tab0_eq (c : Dev nD) : W8 m ρ c (Proc.devRef .tc main_v7)
    = shapeCast S256x16x128 (shapeCast S524288 ((dat0 (V1 m ρ) c).arrAt 3 cfg0.N) shapeCasts_S4096x128_S524288) shapeCasts_S524288_S256x16x128 := by
  rw [W8_of_W3 m ρ c main_v7 (by decide) (by stretch_skips) (by decide) (by stretch_skips) (by decide)]
  have e : W2 m ρ c (Proc.devRef .tc main_v5) = (dat0 (V1 m ρ) c).arrAt 3 cfg0.N := W2_arr m ρ c 3
  show StableHlo.after hostOps1 _ (Proc.devRef .tc main_v7) = _
  after_results
  rw [e]
  rfl
/-- Layer 1's table [256, 128, 128] from region 1's output. -/
theorem tab1_eq (c : Dev nD) : W8 m ρ c (Proc.devRef .tc main_v15)
    = shapeCast S256x128x128 (shapeCast S4194304 ((dat1 (V3 m ρ) c).arrAt 3 cfg1.N) shapeCasts_S32768x128_S4194304) shapeCasts_S4194304_S256x128x128 := by
  rw [W8_of_W5 m ρ c main_v15 (by decide) (by stretch_skips) (by decide)]
  have e : W4 m ρ c (Proc.devRef .tc main_v13) = (dat1 (V3 m ρ) c).arrAt 3 cfg1.N := W4_arr m ρ c 3
  show StableHlo.after hostOps2 _ (Proc.devRef .tc main_v15) = _
  after_results
  rw [e]
  rfl
/-- Layer 2's table [256, 128, 128] from region 2's output. -/
theorem tab2_eq (c : Dev nD) : W8 m ρ c (Proc.devRef .tc main_v23)
    = shapeCast S256x128x128 (shapeCast S4194304 ((dat2 (V5 m ρ) c).arrAt 3 cfg2.N) shapeCasts_S32768x128_S4194304) shapeCasts_S4194304_S256x128x128 := by
  rw [W8_of_ne m ρ c main_v23 (by decide)]
  have e : W6 m ρ c (Proc.devRef .tc main_v21) = (dat2 (V5 m ρ) c).arrAt 3 cfg2.N := W6_arr m ρ c 3
  show StableHlo.after hostOps3 _ (Proc.devRef .tc main_v23) = _
  after_results
  rw [e]
  rfl
/-- Region 3's output rows, still as the region left them (the last stretch lays them out itself). -/
theorem out3_eq (c : Dev nD) : W8 m ρ c (Proc.devRef .tc main_v29) = (dat3 (V7 m ρ) c).arrAt 3 cfg3.N :=
  W8_arr m ρ c 3

/-! ## The arguments are untouched up to the last stretch before the main region -/

theorem W8_arg (c : Dev nD) (b : Ref sig .tc) (hb : b = main_arg0 ∨ b = main_arg1 ∨ b = main_arg2 ∨ b = main_arg3 ∨ b = main_arg6 ∨ b = main_arg9 ∨ b = main_arg12 ∨ b = main_arg15) :
    W8 m ρ c (Proc.devRef .tc b) = m ((c : Thread nD τ).loc b) := by
  rcases hb with rfl | rfl | rfl | rfl | rfl | rfl | rfl | rfl <;>
    exact W8_keep m ρ c _ (by stretch_skips) (by decide) (by stretch_skips) (by decide)
      (by stretch_skips) (by decide) (by stretch_skips) (by decide)

end Cert.KernelIdeal.Host

end
-- ==== Proof.KDequant.lean ====
/-
  The codebook lookup of one label, as the dequantisation kernel does it, and what each dequantisation region leaves
  in its output array.

  The codebook has 256 entries, held as two rows of 128: the low half (entries 0–127) and the high half (128–255).
  For a label the kernel takes its low seven bits as a lane, reads that lane of BOTH halves, and keeps the high
  half's value when the label is at least 128, else the low half's. For a label in 0 … 255 this is the codebook
  entry the label names.
-/
import proofs.«404252_j74268574482736_3_alg».proof.Proof.Gen.KernelIdeal.Frame
import Idealize.ShloMosaic.Lib.ValueIdx
import Idealize.ShloMosaic.Lib.Pipeline.Value
import Idealize.ShloMosaic.Lib.StableHlo.Predicate

set_option maxRecDepth 16384

noncomputable section

namespace Cert.KernelIdeal.Dequant

open Idealize.ShloMosaic Idealize.ShloMosaic.ValueIdx Idealize.ShloMosaic.TcCoe Idealize.SL.Sem
open Cert.KernelIdeal Cert.KernelIdeal.Gen

variable {F : FTy → Type} [FloatOps F]

/-- The lane a label selects in either half: its low seven bits. (The kernel also adds 128 to a negative lane, which
    never happens: the low seven bits of any word are in 0 … 127.) -/
def lane (lab : BitVec 32) : Fin 128 := ⟨(Scalar.select (IntOp.cmpi .slt (lab &&& 127#32) 0#32) ((lab &&& 127#32) + 128#32) (lab &&& 127#32)).toNat % 128, Nat.mod_lt _ (by decide)⟩

/-- One label's value: the high half's lane when the label is at least 128 (signed), else the low half's. -/
def dqAt {α : Type} (lab : BitVec 32) (lo hi : Fin 128 → α) : α :=
  Scalar.select (IntOp.cmpi .sge lab 128#32) (hi (lane lab)) (lo (lane lab))

/-- The low seven bits of a word, as a number, are the word's value modulo 128. -/
private theorem and127_toNat (lab : BitVec 32) : (lab &&& 127#32).toNat = lab.toNat % 128 := by
  rw [BitVec.toNat_and]
  exact Nat.and_two_pow_sub_one_eq_mod lab.toNat 7

/-- The lane is the label's value modulo 128: the low seven bits are never negative as a signed word, so the
    correction by 128 is never taken. -/
private theorem lane_val (lab : BitVec 32) : (lane lab).val = lab.toNat % 128 := by
  have hand := and127_toNat lab
  have hlt : (lab &&& 127#32).toNat < 128 := by rw [hand]; exact Nat.mod_lt _ (by decide)
  have hs : IntOp.cmpi .slt (lab &&& 127#32) 0#32 = 0#1 := by
    apply eq_zero_of_ne_one
    intro h
    have := (StableHlo.Predicate.slt_iff_toNat (a := lab &&& 127#32) (b := 0#32) (by omega) (by decide)).mp h
    simp at this
  show (Scalar.select (IntOp.cmpi .slt (lab &&& 127#32) 0#32) ((lab &&& 127#32) + 128#32) (lab &&& 127#32)).toNat % 128 = _
  rw [hs, select_zero, hand, Nat.mod_mod]

/-- For a label in 0 … 255 the lookup is the codebook entry the label names: entry `lab` of the low half when
    `lab < 128`, entry `lab - 128` of the high half otherwise. -/
theorem dqAt_of_range {α : Type} (lab : BitVec 32) (lo hi : Fin 128 → α) (h0 : 0 ≤ lab.toInt) (h1 : lab.toInt < 256) :
    dqAt lab lo hi = if h : lab.toNat < 128 then lo ⟨lab.toNat, h⟩
      else hi ⟨lab.toNat - 128, by have : lab.toNat < 256 := by { have := BitVec.toInt_eq_toNat_cond lab; omega }; omega⟩ := by
  have hN : lab.toNat < 256 := by have := BitVec.toInt_eq_toNat_cond lab; omega
  have hl := lane_val lab
  unfold dqAt
  by_cases h : lab.toNat < 128
  · -- below 128 the signed comparison with 128 fails, and the lane is the label itself
    have hc : IntOp.cmpi .sge lab 128#32 = 0#1 := by
      apply eq_zero_of_ne_one
      intro hh
      have := (StableHlo.Predicate.sge_iff_toNat (a := lab) (b := 128#32) (by omega) (by decide)).mp hh
      simp at this; omega
    rw [hc, select_zero, dif_pos h]
    congr 1; apply Fin.ext; rw [hl]; exact Nat.mod_eq_of_lt h
  · -- from 128 to 255 the comparison holds, and the lane is the label less 128
    have hc : IntOp.cmpi .sge lab 128#32 = 1#1 :=
      (StableHlo.Predicate.sge_iff_toNat (a := lab) (b := 128#32) (by omega) (by decide)).mpr (by simp; omega)
    rw [hc, select_one, dif_neg h]
    congr 1; apply Fin.ext; rw [hl]; show lab.toNat % 128 = lab.toNat - 128; omega

variable (V : (c : Dev nD) → (b : Ref sig .tc) → Buf (Elt F) ((c : Thread nD τ).loc b))

/-- The origin of a rank-2 rectangle, as the constant function. -/
private theorem hz : (![0, 0] : Fin 2 → Nat) = fun _ => 0 := funext fun a => by fin_cases a <;> rfl

/-! ## Region 0 -/

/-- A gather along the lanes of a row broadcast down 4096 rows reads the row at the index word modulo 128. -/
private theorem gather_row0 {α : Type} (x : S1x128.Idx → α) (idx : IVec S4096x128 32) (r : Fin 4096) (l : Fin 128) :
    dynamicGather 1 (broadcastTo S4096x128 x broadcasts_S1x128_S4096x128) idx (ix2 r l)
      = x (ix2 0 ⟨(idx (ix2 r l)).toNat % 128, Nat.mod_lt _ (by decide)⟩) := by
  unfold dynamicGather
  refine broadcastTo_apply x _ _ _ ?_
  intro a
  match a with
  | ⟨0, _⟩ => rfl
  | ⟨1, _⟩ => rfl

/-- The body's value at one position of a block: the lookup of the label there in the two codebook rows. -/
private theorem pay0_at (labs : Vec F S4096x128 .i32) (clo chi : Vec F S1x128 .f32) (j : S4096x128.Idx) :
    k0_pay1 labs clo chi j = dqAt (labs j) (fun q => clo (ix2 0 q)) (fun q => chi (ix2 0 q)) := by
  obtain ⟨r, l, rfl⟩ : ∃ (r : Fin 4096) (l : Fin 128), j = ix2 r l := ⟨j 0, j 1, eq_ix2 j⟩
  unfold k0_pay1
  simp only [shapeCast_self, shapeCast_shapeCast]
  unfold dqAt lane
  show Scalar.select _ (dynamicGather 1 (broadcastTo S4096x128 chi broadcasts_S1x128_S4096x128) _ (ix2 r l)) (dynamicGather 1 (broadcastTo S4096x128 clo broadcasts_S1x128_S4096x128) _ (ix2 r l)) = _
  rw [gather_row0, gather_row0]
  rfl

/-- The index maps of region 0 at every point of its grid: the label block moves with the output block, whose row index
    is the point's number; the codebook rows are block (0, 0) at every point. -/
private theorem idx_facts0 : ∀ t : Fin cfg0.N, win0_2.index t (0 : Fin 2) = win0_3.index t (0 : Fin 2)
    ∧ win0_2.index t (1 : Fin 2) = win0_3.index t (1 : Fin 2)
    ∧ win0_0.index t (0 : Fin 2) = 0 ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- The whole output array of region 0: the lookup of the label at each position. -/
private abbrev G0 (c : Dev nD) : S4096x128.Idx → Elt F .f32 :=
  fun i => dqAt (V c main_v0 i) (fun q => V c main_v2 (ix2 0 q)) (fun q => V c main_v4 (ix2 0 q))

/-- What point `t` writes back is block `t` of that array: the label block is read at the output block's rows, the
    codebook rows whole. -/
private theorem flushed0_eq (c : Dev nD) (t : Fin cfg0.N) :
    (dat0 (F := F) V c).flushed 3 t = ((cfg0.win 3).blk t).view.read (Elt F) (G0 V c) := by
  show (cfg0.win 3).cut (grid0.coords t) ((dat0 V c).after 3 t) = _
  rw [after0_3]
  unfold out0_3
  rw [View.canon_unit_zero hz]
  simp only [View.ld_unit_zero (S := S4096x128) hz, View.ld_unit_zero (S := S1x128) hz]
  obtain ⟨e0, e1, e2, e3, e4, e5, e6, e7⟩ := idx_facts0 t
  funext j
  show k0_pay1 (iblk0 V c 2 t) (iblk0 V c 0 t) (iblk0 V c 1 t) j = G0 V c (((cfg0.win 3).blk t).view.emb j)
  refine (pay0_at (F := F) (iblk0 V c 2 t) (iblk0 V c 0 t) (iblk0 V c 1 t) j).trans ?_
  show dqAt (V c main_v0 (((cfg0.win 2).blk t).view.emb j)) (fun q => V c main_v2 (((cfg0.win 0).blk t).view.emb (ix2 0 q))) (fun q => V c main_v4 (((cfg0.win 1).blk t).view.emb (ix2 0 q)))
    = dqAt (V c main_v0 (((cfg0.win 3).blk t).view.emb j)) (fun q => V c main_v2 (ix2 0 q)) (fun q => V c main_v4 (ix2 0 q))
  have h2 : ((cfg0.win 2).blk t).view.emb j = ((cfg0.win 3).blk t).view.emb j := by
    funext a; apply Fin.ext
    match a with
    | ⟨0, _⟩ => show win0_2.index t (0 : Fin 2) * 4096 + 1 * (j 0).val = win0_3.index t (0 : Fin 2) * 4096 + 1 * (j 0).val; omega
    | ⟨1, _⟩ => show win0_2.index t (1 : Fin 2) * 128 + 1 * (j 1).val = win0_3.index t (1 : Fin 2) * 128 + 1 * (j 1).val; omega
  have h0 : ∀ q : Fin 128, ((cfg0.win 0).blk t).view.emb (ix2 0 q) = ix2 0 q := by
    intro q; funext a; apply Fin.ext
    match a with
    | ⟨0, _⟩ => show win0_0.index t (0 : Fin 2) * 1 + 1 * 0 = 0; omega
    | ⟨1, _⟩ => show win0_0.index t (1 : Fin 2) * 128 + 1 * q.val = q.val; omega
  have h1 : ∀ q : Fin 128, ((cfg0.win 1).blk t).view.emb (ix2 0 q) = ix2 0 q := by
    intro q; funext a; apply Fin.ext
    match a with
    | ⟨0, _⟩ => show win0_1.index t (0 : Fin 2) * 1 + 1 * 0 = 0; omega
    | ⟨1, _⟩ => show win0_1.index t (1 : Fin 2) * 128 + 1 * q.val = q.val; omega
  rw [h2]; simp only [h0, h1]

/-- An index of the output array is in point `t`'s block iff each coordinate is in the block's range on its axis. -/
private theorem mem_blk0 (t : Fin cfg0.N) (i : S4096x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v5).slice (win0_3.rect t)).set ↔ _
  rw [View.set_slice_whole, Rect.mem_set_unit]
  exact Iff.rfl

/-- The grid's one point covers every position: its block is the whole array. -/
private theorem cover0 (i : S4096x128.Idx) :
    ∃ t : Fin cfg0.N, (cfg0.win 3).flush t = true ∧ i ∈ ((cfg0.win 3).blk t).view.set := by
  have hi0 : (i 0).val < 4096 := (i 0).isLt
  have hi1 : (i 1).val < 128 := (i 1).isLt
  have hN := N_0
  let t : Fin cfg0.N := ⟨(i 0).val / 4096, by show _ < grid0.N; omega⟩
  have ht : t.val = (i 0).val / 4096 := rfl
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- Region 0 (first layer's labels, 4096 × 128): every entry of its output array is the lookup of the label at the
    same position, in the two codebook halves the region was given. -/
theorem region0_array (c : Dev nD) :
    (dat0 (F := F) V c).arrAt 3 cfg0.N
      = (fun i : S4096x128.Idx => dqAt (V c main_v0 i) (fun q => V c main_v2 (ix2 0 q)) (fun q => V c main_v4 (ix2 0 q))) :=
  (dat0 V c).arrAt_eq_of_cover 3 (G0 V c) (fun t _ => flushed0_eq V c t) cover0

/-! ## Region 1 -/

/-- The body's value at one position of a block: the lookup of the label there in the two codebook rows. -/
private theorem pay1_at (labs : Vec F S4096x128 .i32) (clo chi : Vec F S1x128 .f32) (j : S4096x128.Idx) :
    k1_pay1 labs clo chi j = dqAt (labs j) (fun q => clo (ix2 0 q)) (fun q => chi (ix2 0 q)) := by
  obtain ⟨r, l, rfl⟩ : ∃ (r : Fin 4096) (l : Fin 128), j = ix2 r l := ⟨j 0, j 1, eq_ix2 j⟩
  unfold k1_pay1
  simp only [shapeCast_self, shapeCast_shapeCast]
  unfold dqAt lane
  show Scalar.select _ (dynamicGather 1 (broadcastTo S4096x128 chi broadcasts_S1x128_S4096x128) _ (ix2 r l)) (dynamicGather 1 (broadcastTo S4096x128 clo broadcasts_S1x128_S4096x128) _ (ix2 r l)) = _
  rw [gather_row0, gather_row0]
  rfl

/-- The index maps of region 1 at every point of its grid: the label block moves with the output block, whose row index
    is the point's number; the codebook rows are block (0, 0) at every point. -/
private theorem idx_facts1 : ∀ t : Fin cfg1.N, win1_2.index t (0 : Fin 2) = win1_3.index t (0 : Fin 2)
    ∧ win1_2.index t (1 : Fin 2) = win1_3.index t (1 : Fin 2)
    ∧ win1_0.index t (0 : Fin 2) = 0 ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- The whole output array of region 1: the lookup of the label at each position. -/
private abbrev G1 (c : Dev nD) : S32768x128.Idx → Elt F .f32 :=
  fun i => dqAt (V c main_v8 i) (fun q => V c main_v10 (ix2 0 q)) (fun q => V c main_v12 (ix2 0 q))

/-- What point `t` writes back is block `t` of that array: the label block is read at the output block's rows, the
    codebook rows whole. -/
private theorem flushed1_eq (c : Dev nD) (t : Fin cfg1.N) :
    (dat1 (F := F) V c).flushed 3 t = ((cfg1.win 3).blk t).view.read (Elt F) (G1 V c) := by
  show (cfg1.win 3).cut (grid1.coords t) ((dat1 V c).after 3 t) = _
  rw [after1_3]
  unfold out1_3
  rw [View.canon_unit_zero hz]
  simp only [View.ld_unit_zero (S := S4096x128) hz, View.ld_unit_zero (S := S1x128) hz]
  obtain ⟨e0, e1, e2, e3, e4, e5, e6, e7⟩ := idx_facts1 t
  funext j
  show k1_pay1 (iblk1 V c 2 t) (iblk1 V c 0 t) (iblk1 V c 1 t) j = G1 V c (((cfg1.win 3).blk t).view.emb j)
  refine (pay1_at (F := F) (iblk1 V c 2 t) (iblk1 V c 0 t) (iblk1 V c 1 t) j).trans ?_
  show dqAt (V c main_v8 (((cfg1.win 2).blk t).view.emb j)) (fun q => V c main_v10 (((cfg1.win 0).blk t).view.emb (ix2 0 q))) (fun q => V c main_v12 (((cfg1.win 1).blk t).view.emb (ix2 0 q)))
    = dqAt (V c main_v8 (((cfg1.win 3).blk t).view.emb j)) (fun q => V c main_v10 (ix2 0 q)) (fun q => V c main_v12 (ix2 0 q))
  have h2 : ((cfg1.win 2).blk t).view.emb j = ((cfg1.win 3).blk t).view.emb j := by
    funext a; apply Fin.ext
    match a with
    | ⟨0, _⟩ => show win1_2.index t (0 : Fin 2) * 4096 + 1 * (j 0).val = win1_3.index t (0 : Fin 2) * 4096 + 1 * (j 0).val; omega
    | ⟨1, _⟩ => show win1_2.index t (1 : Fin 2) * 128 + 1 * (j 1).val = win1_3.index t (1 : Fin 2) * 128 + 1 * (j 1).val; omega
  have h0 : ∀ q : Fin 128, ((cfg1.win 0).blk t).view.emb (ix2 0 q) = ix2 0 q := by
    intro q; funext a; apply Fin.ext
    match a with
    | ⟨0, _⟩ => show win1_0.index t (0 : Fin 2) * 1 + 1 * 0 = 0; omega
    | ⟨1, _⟩ => show win1_0.index t (1 : Fin 2) * 128 + 1 * q.val = q.val; omega
  have h1 : ∀ q : Fin 128, ((cfg1.win 1).blk t).view.emb (ix2 0 q) = ix2 0 q := by
    intro q; funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [h2]; simp only [h0, h1]

/-- An index of the output array is in point `t`'s block iff each coordinate is in the block's range on its axis. -/
private theorem mem_blk1 (t : Fin cfg1.N) (i : S32768x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v13).slice (win1_3.rect t)).set ↔ _
  rw [View.set_slice_whole, Rect.mem_set_unit]
  exact Iff.rfl

/-- Every position is covered: row `r` lies in the block of point `r / 4096`, one of the grid's 8. -/
private theorem cover1 (i : S32768x128.Idx) :
    ∃ t : Fin cfg1.N, (cfg1.win 3).flush t = true ∧ i ∈ ((cfg1.win 3).blk t).view.set := by
  have hi0 : (i 0).val < 32768 := (i 0).isLt
  have hi1 : (i 1).val < 128 := (i 1).isLt
  have hN := N_1
  let t : Fin cfg1.N := ⟨(i 0).val / 4096, by show _ < grid1.N; omega⟩
  have ht : t.val = (i 0).val / 4096 := rfl
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- Region 1 (second layer's labels, 32768 × 128, in 8 blocks of 4096 rows). -/
theorem region1_array (c : Dev nD) :
    (dat1 (F := F) V c).arrAt 3 cfg1.N
      = (fun i : S32768x128.Idx => dqAt (V c main_v8 i) (fun q => V c main_v10 (ix2 0 q)) (fun q => V c main_v12 (ix2 0 q))) :=
  (dat1 V c).arrAt_eq_of_cover 3 (G1 V c) (fun t _ => flushed1_eq V c t) cover1

/-! ## Region 2 -/

/-- The body's value at one position of a block: the lookup of the label there in the two codebook rows. -/
private theorem pay2_at (labs : Vec F S4096x128 .i32) (clo chi : Vec F S1x128 .f32) (j : S4096x128.Idx) :
    k2_pay1 labs clo chi j = dqAt (labs j) (fun q => clo (ix2 0 q)) (fun q => chi (ix2 0 q)) := by
  obtain ⟨r, l, rfl⟩ : ∃ (r : Fin 4096) (l : Fin 128), j = ix2 r l := ⟨j 0, j 1, eq_ix2 j⟩
  unfold k2_pay1
  simp only [shapeCast_self, shapeCast_shapeCast]
  unfold dqAt lane
  show Scalar.select _ (dynamicGather 1 (broadcastTo S4096x128 chi broadcasts_S1x128_S4096x128) _ (ix2 r l)) (dynamicGather 1 (broadcastTo S4096x128 clo broadcasts_S1x128_S4096x128) _ (ix2 r l)) = _
  rw [gather_row0, gather_row0]
  rfl

/-- The index maps of region 2 at every point of its grid: the label block moves with the output block, whose row index
    is the point's number; the codebook rows are block (0, 0) at every point. -/
private theorem idx_facts2 : ∀ t : Fin cfg2.N, win2_2.index t (0 : Fin 2) = win2_3.index t (0 : Fin 2)
    ∧ win2_2.index t (1 : Fin 2) = win2_3.index t (1 : Fin 2)
    ∧ win2_0.index t (0 : Fin 2) = 0 ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

/-- The whole output array of region 2: the lookup of the label at each position. -/
private abbrev G2 (c : Dev nD) : S32768x128.Idx → Elt F .f32 :=
  fun i => dqAt (V c main_v16 i) (fun q => V c main_v18 (ix2 0 q)) (fun q => V c main_v20 (ix2 0 q))

/-- What point `t` writes back is block `t` of that array: the label block is read at the output block's rows, the
    codebook rows whole. -/
private theorem flushed2_eq (c : Dev nD) (t : Fin cfg2.N) :
    (dat2 (F := F) V c).flushed 3 t = ((cfg2.win 3).blk t).view.read (Elt F) (G2 V c) := by
  show (cfg2.win 3).cut (grid2.coords t) ((dat2 V c).after 3 t) = _
  rw [after2_3]
  unfold out2_3
  rw [View.canon_unit_zero hz]
  simp only [View.ld_unit_zero (S := S4096x128) hz, View.ld_unit_zero (S := S1x128) hz]
  obtain ⟨e0, e1, e2, e3, e4, e5, e6, e7⟩ := idx_facts2 t
  funext j
  show k2_pay1 (iblk2 V c 2 t) (iblk2 V c 0 t) (iblk2 V c 1 t) j = G2 V c (((cfg2.win 3).blk t).view.emb j)
  refine (pay2_at (F := F) (iblk2 V c 2 t) (iblk2 V c 0 t) (iblk2 V c 1 t) j).trans ?_
  show dqAt (V c main_v16 (((cfg2.win 2).blk t).view.emb j)) (fun q => V c main_v18 (((cfg2.win 0).blk t).view.emb (ix2 0 q))) (fun q => V c main_v20 (((cfg2.win 1).blk t).view.emb (ix2 0 q)))
    = dqAt (V c main_v16 (((cfg2.win 3).blk t).view.emb j)) (fun q => V c main_v18 (ix2 0 q)) (fun q => V c main_v20 (ix2 0 q))
  have h2 : ((cfg2.win 2).blk t).view.emb j = ((cfg2.win 3).blk t).view.emb j := by
    funext a; apply Fin.ext
    match a with
    | ⟨0, _⟩ => show win2_2.index t (0 : Fin 2) * 4096 + 1 * (j 0).val = win2_3.index t (0 : Fin 2) * 4096 + 1 * (j 0).val; omega
    | ⟨1, _⟩ => show win2_2.index t (1 : Fin 2) * 128 + 1 * (j 1).val = win2_3.index t (1 : Fin 2) * 128 + 1 * (j 1).val; omega
  have h0 : ∀ q : Fin 128, ((cfg2.win 0).blk t).view.emb (ix2 0 q) = ix2 0 q := by
    intro q; funext a; apply Fin.ext
    match a with
    | ⟨0, _⟩ => show win2_0.index t (0 : Fin 2) * 1 + 1 * 0 = 0; omega
    | ⟨1, _⟩ => show win2_0.index t (1 : Fin 2) * 128 + 1 * q.val = q.val; omega
  have h1 : ∀ q : Fin 128, ((cfg2.win 1).blk t).view.emb (ix2 0 q) = ix2 0 q := by
    intro q; funext a; apply Fin.ext
    match a with
    | ⟨0, _⟩ => show win2_1.index t (0 : Fin 2) * 1 + 1 * 0 = 0; omega
    | ⟨1, _⟩ => show win2_1.index t (1 : Fin 2) * 128 + 1 * q.val = q.val; omega
  rw [h2]; simp only [h0, h1]

/-- An index of the output array is in point `t`'s block iff each coordinate is in the block's range on its axis. -/
private theorem mem_blk2 (t : Fin cfg2.N) (i : S32768x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v21).slice (win2_3.rect t)).set ↔ _
  rw [View.set_slice_whole, Rect.mem_set_unit]
  exact Iff.rfl

/-- Every position is covered: row `r` lies in the block of point `r / 4096`, one of the grid's 8. -/
private theorem cover2 (i : S32768x128.Idx) :
    ∃ t : Fin cfg2.N, (cfg2.win 3).flush t = true ∧ i ∈ ((cfg2.win 3).blk t).view.set := by
  have hi0 : (i 0).val < 32768 := (i 0).isLt
  have hi1 : (i 1).val < 128 := (i 1).isLt
  have hN := N_2
  let t : Fin cfg2.N := ⟨(i 0).val / 4096, by show _ < grid2.N; omega⟩
  have ht : t.val = (i 0).val / 4096 := rfl
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 128 ≤ (i 1).val ∧ (i 1).val < win2_3.index t (1 : Fin 2) * 128 + 128; omega

/-- Region 2 (third layer's labels, 32768 × 128, in 8 blocks of 4096 rows). -/
theorem region2_array (c : Dev nD) :
    (dat2 (F := F) V c).arrAt 3 cfg2.N
      = (fun i : S32768x128.Idx => dqAt (V c main_v16 i) (fun q => V c main_v18 (ix2 0 q)) (fun q => V c main_v20 (ix2 0 q))) :=
  (dat2 V c).arrAt_eq_of_cover 3 (G2 V c) (fun t _ => flushed2_eq V c t) cover2

/-! ## Region 3 -/

/-- A gather along the lanes of a row broadcast down 256 rows reads the row at the index word modulo 128. -/
private theorem gather_row3 {α : Type} (x : S1x128.Idx → α) (idx : IVec S256x128 32) (r : Fin 256) (l : Fin 128) :
    dynamicGather 1 (broadcastTo S256x128 x broadcasts_S1x128_S256x128) idx (ix2 r l)
      = x (ix2 0 ⟨(idx (ix2 r l)).toNat % 128, Nat.mod_lt _ (by decide)⟩) := by
  unfold dynamicGather
  refine broadcastTo_apply x _ _ _ ?_
  intro a
  match a with
  | ⟨0, _⟩ => rfl
  | ⟨1, _⟩ => rfl

/-- The body's value at one position of a block: the lookup of the label there in the two codebook rows. -/
private theorem pay3_at (labs : Vec F S256x128 .i32) (clo chi : Vec F S1x128 .f32) (j : S256x128.Idx) :
    k3_pay1 labs clo chi j = dqAt (labs j) (fun q => clo (ix2 0 q)) (fun q => chi (ix2 0 q)) := by
  obtain ⟨r, l, rfl⟩ : ∃ (r : Fin 256) (l : Fin 128), j = ix2 r l := ⟨j 0, j 1, eq_ix2 j⟩
  unfold k3_pay1
  simp only [shapeCast_self, shapeCast_shapeCast]
  unfold dqAt lane
  show Scalar.select _ (dynamicGather 1 (broadcastTo S256x128 chi broadcasts_S1x128_S256x128) _ (ix2 r l)) (dynamicGather 1 (broadcastTo S256x128 clo broadcasts_S1x128_S256x128) _ (ix2 r l)) = _
  rw [gather_row3, gather_row3]
  rfl

/-- The index maps of region 3 at every point of its grid: the label block moves with the output block, whose row index
    is the point's number; the codebook rows are block (0, 0) at every point. -/
private theorem idx_facts3 : ∀ t : Fin cfg3.N, win3_2.index t (0 : Fin 2) = win3_3.index t (0 : Fin 2)
    ∧ win3_2.index t (1 : Fin 2) = win3_3.index t (1 : Fin 2)
    ∧ win3_0.index t (0 : Fin 2) = 0 ∧ win3_0.index t (1 : Fin 2) = 0
    ∧ win3_1.index t (0 : Fin 2) = 0 ∧ win3_1.index t (1 : Fin 2) = 0
    ∧ win3_3.index t (0 : Fin 2) = t.val ∧ win3_3.index t (1 : Fin 2) = 0 :=
  (by decide +kernel : ∀ t : Fin grid3.N, _)

/-- The whole output array of region 3: the lookup of the label at each position. -/
private abbrev G3 (c : Dev nD) : S256x128.Idx → Elt F .f32 :=
  fun i => dqAt (V c main_v24 i) (fun q => V c main_v26 (ix2 0 q)) (fun q => V c main_v28 (ix2 0 q))

/-- What point `t` writes back is block `t` of that array: the label block is read at the output block's rows, the
    codebook rows whole. -/
private theorem flushed3_eq (c : Dev nD) (t : Fin cfg3.N) :
    (dat3 (F := F) V c).flushed 3 t = ((cfg3.win 3).blk t).view.read (Elt F) (G3 V c) := by
  show (cfg3.win 3).cut (grid3.coords t) ((dat3 V c).after 3 t) = _
  rw [after3_3]
  unfold out3_3
  rw [View.canon_unit_zero hz]
  simp only [View.ld_unit_zero (S := S256x128) hz, View.ld_unit_zero (S := S1x128) hz]
  obtain ⟨e0, e1, e2, e3, e4, e5, e6, e7⟩ := idx_facts3 t
  funext j
  show k3_pay1 (iblk3 V c 2 t) (iblk3 V c 0 t) (iblk3 V c 1 t) j = G3 V c (((cfg3.win 3).blk t).view.emb j)
  refine (pay3_at (F := F) (iblk3 V c 2 t) (iblk3 V c 0 t) (iblk3 V c 1 t) j).trans ?_
  show dqAt (V c main_v24 (((cfg3.win 2).blk t).view.emb j)) (fun q => V c main_v26 (((cfg3.win 0).blk t).view.emb (ix2 0 q))) (fun q => V c main_v28 (((cfg3.win 1).blk t).view.emb (ix2 0 q)))
    = dqAt (V c main_v24 (((cfg3.win 3).blk t).view.emb j)) (fun q => V c main_v26 (ix2 0 q)) (fun q => V c main_v28 (ix2 0 q))
  have h2 : ((cfg3.win 2).blk t).view.emb j = ((cfg3.win 3).blk t).view.emb j := by
    funext a; apply Fin.ext
    match a with
    | ⟨0, _⟩ => show win3_2.index t (0 : Fin 2) * 256 + 1 * (j 0).val = win3_3.index t (0 : Fin 2) * 256 + 1 * (j 0).val; omega
    | ⟨1, _⟩ => show win3_2.index t (1 : Fin 2) * 128 + 1 * (j 1).val = win3_3.index t (1 : Fin 2) * 128 + 1 * (j 1).val; omega
  have h0 : ∀ q : Fin 128, ((cfg3.win 0).blk t).view.emb (ix2 0 q) = ix2 0 q := by
    intro q; funext a; apply Fin.ext
    match a with
    | ⟨0, _⟩ => show win3_0.index t (0 : Fin 2) * 1 + 1 * 0 = 0; omega
    | ⟨1, _⟩ => show win3_0.index t (1 : Fin 2) * 128 + 1 * q.val = q.val; omega
  have h1 : ∀ q : Fin 128, ((cfg3.win 1).blk t).view.emb (ix2 0 q) = ix2 0 q := by
    intro q; funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [h2]; simp only [h0, h1]

/-- An index of the output array is in point `t`'s block iff each coordinate is in the block's range on its axis. -/
private theorem mem_blk3 (t : Fin cfg3.N) (i : S256x128.Idx) :
    i ∈ ((cfg3.win 3).blk t).view.set ↔ ∀ a : Fin 2, win3_3.index t a * S256x128.size a ≤ (i a).val ∧ (i a).val < win3_3.index t a * S256x128.size a + S256x128.size a := by
  show i ∈ ((View.whole main_v29).slice (win3_3.rect t)).set ↔ _
  rw [View.set_slice_whole, Rect.mem_set_unit]
  exact Iff.rfl

/-- The grid's one point covers every position: its block is the whole array. -/
private theorem cover3 (i : S256x128.Idx) :
    ∃ t : Fin cfg3.N, (cfg3.win 3).flush t = true ∧ i ∈ ((cfg3.win 3).blk t).view.set := by
  have hi0 : (i 0).val < 256 := (i 0).isLt
  have hi1 : (i 1).val < 128 := (i 1).isLt
  have hN := N_3
  let t : Fin cfg3.N := ⟨(i 0).val / 256, by show _ < grid3.N; omega⟩
  have ht : t.val = (i 0).val / 256 := rfl
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 128 ≤ (i 1).val ∧ (i 1).val < win3_3.index t (1 : Fin 2) * 128 + 128; omega

/-- Region 3 (last layer's labels, 256 × 128, one block). -/
theorem region3_array (c : Dev nD) :
    (dat3 (F := F) V c).arrAt 3 cfg3.N
      = (fun i : S256x128.Idx => dqAt (V c main_v24 i) (fun q => V c main_v26 (ix2 0 q)) (fun q => V c main_v28 (ix2 0 q))) :=
  (dat3 V c).arrAt_eq_of_cover 3 (G3 V c) (fun t _ => flushed3_eq V c t) cover3

end Cert.KernelIdeal.Dequant

end
-- ==== Proof.KTable.lean ====
/-
  The kernel's weight tables, entry by entry, for labels in range: they are the codebook entries the labels name.

  A layer's labels, numbered row-major, are laid as rows of 128; a dequantisation region turns each label into a weight
  (KDequant.lean); the rows are laid flat again and then as [network, input, output]. So the table's entry (a, k, o) is
  the lookup of label number (a·K + k)·O + o in the two halves of the layer's codebook, and for a label in 0 … 255 that
  is the codebook's entry at the label: the low half holds entries 0–127, the high half entries 128–255.
-/
import proofs.«404252_j74268574482736_3_alg».proof.Proof.KHostA
import proofs.«404252_j74268574482736_3_alg».proof.Proof.KDequant
import Idealize.ShloMosaic.Lib.ValueIdx
import Idealize.ShloMosaic.Lib.Pipeline.Value

set_option maxRecDepth 16384

noncomputable section

namespace Cert.KernelIdeal.Table

open Idealize.ShloMosaic Idealize.ShloMosaic.ValueIdx Idealize.ShloMosaic.TcCoe Idealize.SL.Sem
open Cert.KernelIdeal Cert.KernelIdeal.Gen Cert.KernelIdeal.Host Cert.KernelIdeal.Dequant

/-! ## Reshapes read at an index (row-major numbering is kept) -/

theorem cast_1_2 {α : Type} {N R C : Nat} (x : (⟨1, ![N]⟩ : Shape).Idx → α) (h : (⟨1, ![N]⟩ : Shape).ShapeCasts ⟨2, ![R, C]⟩)
    (r : Fin R) (l : Fin C) (hN : r.val * C + l.val < N) :
    shapeCast ⟨2, ![R, C]⟩ x h (ix2 r l) = x (ix1 ⟨r.val * C + l.val, hN⟩) :=
  shapeCast_apply x h (ix2 r l) (ix1 ⟨r.val * C + l.val, hN⟩) (by rw [Shape.rowMajor_val_one, Shape.rowMajor_val_two]; rfl)

theorem cast_2_1 {α : Type} {N R C : Nat} (x : (⟨2, ![R, C]⟩ : Shape).Idx → α) (h : (⟨2, ![R, C]⟩ : Shape).ShapeCasts ⟨1, ![N]⟩)
    (r : Fin R) (l : Fin C) (hN : r.val * C + l.val < N) :
    shapeCast ⟨1, ![N]⟩ x h (ix1 ⟨r.val * C + l.val, hN⟩) = x (ix2 r l) :=
  shapeCast_apply x h (ix1 ⟨r.val * C + l.val, hN⟩) (ix2 r l) (by rw [Shape.rowMajor_val_one, Shape.rowMajor_val_two]; rfl)

theorem cast_1_3 {α : Type} {N A K O : Nat} (x : (⟨1, ![N]⟩ : Shape).Idx → α) (h : (⟨1, ![N]⟩ : Shape).ShapeCasts ⟨3, ![A, K, O]⟩)
    (a : Fin A) (k : Fin K) (o : Fin O) (hN : (a.val * K + k.val) * O + o.val < N) :
    shapeCast ⟨3, ![A, K, O]⟩ x h (ix3 a k o) = x (ix1 ⟨(a.val * K + k.val) * O + o.val, hN⟩) :=
  shapeCast_apply x h (ix3 a k o) (ix1 ⟨(a.val * K + k.val) * O + o.val, hN⟩) (by rw [Shape.rowMajor_val_one, Shape.rowMajor_val_three]; rfl)

theorem cast_1_3_unit {α : Type} {N A K : Nat} (x : (⟨1, ![N]⟩ : Shape).Idx → α) (h : (⟨1, ![N]⟩ : Shape).ShapeCasts ⟨3, ![A, K, 1]⟩)
    (a : Fin A) (k : Fin K) (hN : a.val * K + k.val < N) :
    shapeCast ⟨3, ![A, K, 1]⟩ x h (ix3 a k 0) = x (ix1 ⟨a.val * K + k.val, hN⟩) :=
  shapeCast_apply x h (ix3 a k 0) (ix1 ⟨a.val * K + k.val, hN⟩) (by
    rw [Shape.rowMajor_val_one, Shape.rowMajor_val_three]
    show a.val * K + k.val = (a.val * K + k.val) * 1 + 0
    omega)

/-! ## The two halves of a codebook, looked up at a label in range, give the codebook's entry at the label -/

variable {F : FTy → Type} [FloatOps F]

theorem halves_lookup (x : (⟨1, ![256]⟩ : Shape).Idx → Elt F .f32) (lab : BitVec 32) (h0 : 0 ≤ lab.toInt) (h1 : lab.toInt < 256) :
    dqAt lab (fun q => shapeCast S1x128 (extractStridedSlice S128 ![0] x slices_S256_S128_0) shapeCasts_S128_S1x128 (ix2 0 q))
        (fun q => shapeCast S1x128 (extractStridedSlice S128 ![128] x slices_S256_S128_128) shapeCasts_S128_S1x128 (ix2 0 q))
      = x (ix1 ⟨lab.toNat % 256, Nat.mod_lt _ (by decide)⟩) := by
  have hlt : lab.toNat < 256 := by have := BitVec.toInt_eq_toNat_cond lab; omega
  rw [dqAt_of_range lab _ _ h0 h1]
  split
  · rename_i hq
    rw [cast_1_2 (N := 128) (R := 1) (C := 128) _ shapeCasts_S128_S1x128 0 ⟨lab.toNat, hq⟩ (by simpa using hq)]
    refine (extractStridedSlice_apply _ x slices_S256_S128_0 _ (ix1 ⟨lab.toNat % 256, Nat.mod_lt _ (by decide)⟩) ?_)
    intro a
    match a with
    | ⟨0, _⟩ => show lab.toNat % 256 = 0 + (0 * 128 + lab.toNat); omega
  · rename_i hq
    rw [cast_1_2 (N := 128) (R := 1) (C := 128) _ shapeCasts_S128_S1x128 0 ⟨lab.toNat - 128, by omega⟩ (by simp; omega)]
    refine (extractStridedSlice_apply _ x slices_S256_S128_128 _ (ix1 ⟨lab.toNat % 256, Nat.mod_lt _ (by decide)⟩) ?_)
    intro a
    match a with
    | ⟨0, _⟩ => show lab.toNat % 256 = 128 + (0 * 128 + (lab.toNat - 128)); omega

variable (m : (ℓ : Loc nD τ sig) → Buf (Elt F) ℓ) (ρ : Dev nD → PrngReg)

/-- Layer 0's table [256, 16, 128]. -/
theorem ktab0_at (c : Dev nD)
    (h : ∀ p, 0 ≤ (m ((c : Thread nD τ).loc main_arg5) p).toInt ∧ (m ((c : Thread nD τ).loc main_arg5) p).toInt < 256)
    (a : Fin 256) (k : Fin 16) (o : Fin 128) :
    W8 m ρ c (Proc.devRef .tc main_v7) (ix3 a k o)
      = m ((c : Thread nD τ).loc main_arg4) (ix1 ⟨(m ((c : Thread nD τ).loc main_arg5)
          (ix1 ⟨(a.val * 16 + k.val) * 128 + o.val, by have := a.isLt; have := k.isLt; have := o.isLt; omega⟩)).toNat % 256, Nat.mod_lt _ (by decide)⟩) := by
  have ha := a.isLt; have hk := k.isLt; have ho := o.isLt
  rw [tab0_eq]
  rw [cast_1_3 (N := 524288) (A := 256) (K := 16) (O := 128) _ shapeCasts_S524288_S256x16x128 a k o (by omega)]
  rw [cast_2_1 (N := 524288) (R := 4096) (C := 128) _ shapeCasts_S4096x128_S524288 ⟨a.val * 16 + k.val, by omega⟩ o (by simp; omega)]
  rw [region0_array]
  show dqAt (V1 m ρ c main_v0 (ix2 ⟨a.val * 16 + k.val, _⟩ o)) (fun q => V1 m ρ c main_v2 (ix2 0 q)) (fun q => V1 m ρ c main_v4 (ix2 0 q)) = _
  rw [v0_eq, v2_eq, v4_eq]
  rw [cast_1_2 (N := 524288) (R := 4096) (C := 128) _ shapeCasts_S524288_S4096x128 ⟨a.val * 16 + k.val, by omega⟩ o (by simp; omega)]
  exact halves_lookup _ _ (h _).1 (h _).2

/-- Layer 1's table [256, 128, 128]. -/
theorem ktab1_at (c : Dev nD)
    (h : ∀ p, 0 ≤ (m ((c : Thread nD τ).loc main_arg8) p).toInt ∧ (m ((c : Thread nD τ).loc main_arg8) p).toInt < 256)
    (a : Fin 256) (k : Fin 128) (o : Fin 128) :
    W8 m ρ c (Proc.devRef .tc main_v15) (ix3 a k o)
      = m ((c : Thread nD τ).loc main_arg7) (ix1 ⟨(m ((c : Thread nD τ).loc main_arg8)
          (ix1 ⟨(a.val * 128 + k.val) * 128 + o.val, by have := a.isLt; have := k.isLt; have := o.isLt; omega⟩)).toNat % 256, Nat.mod_lt _ (by decide)⟩) := by
  have ha := a.isLt; have hk := k.isLt; have ho := o.isLt
  rw [tab1_eq]
  rw [cast_1_3 (N := 4194304) (A := 256) (K := 128) (O := 128) _ shapeCasts_S4194304_S256x128x128 a k o (by omega)]
  rw [cast_2_1 (N := 4194304) (R := 32768) (C := 128) _ shapeCasts_S32768x128_S4194304 ⟨a.val * 128 + k.val, by omega⟩ o (by simp; omega)]
  rw [region1_array]
  show dqAt (V3 m ρ c main_v8 (ix2 ⟨a.val * 128 + k.val, _⟩ o)) (fun q => V3 m ρ c main_v10 (ix2 0 q)) (fun q => V3 m ρ c main_v12 (ix2 0 q)) = _
  rw [v8_eq, v10_eq, v12_eq]
  rw [cast_1_2 (N := 4194304) (R := 32768) (C := 128) _ shapeCasts_S4194304_S32768x128 ⟨a.val * 128 + k.val, by omega⟩ o (by simp; omega)]
  exact halves_lookup _ _ (h _).1 (h _).2

/-- Layer 2's table [256, 128, 128]. -/
theorem ktab2_at (c : Dev nD)
    (h : ∀ p, 0 ≤ (m ((c : Thread nD τ).loc main_arg11) p).toInt ∧ (m ((c : Thread nD τ).loc main_arg11) p).toInt < 256)
    (a : Fin 256) (k : Fin 128) (o : Fin 128) :
    W8 m ρ c (Proc.devRef .tc main_v23) (ix3 a k o)
      = m ((c : Thread nD τ).loc main_arg10) (ix1 ⟨(m ((c : Thread nD τ).loc main_arg11)
          (ix1 ⟨(a.val * 128 + k.val) * 128 + o.val, by have := a.isLt; have := k.isLt; have := o.isLt; omega⟩)).toNat % 256, Nat.mod_lt _ (by decide)⟩) := by
  have ha := a.isLt; have hk := k.isLt; have ho := o.isLt
  rw [tab2_eq]
  rw [cast_1_3 (N := 4194304) (A := 256) (K := 128) (O := 128) _ shapeCasts_S4194304_S256x128x128 a k o (by omega)]
  rw [cast_2_1 (N := 4194304) (R := 32768) (C := 128) _ shapeCasts_S32768x128_S4194304 ⟨a.val * 128 + k.val, by omega⟩ o (by simp; omega)]
  rw [region2_array]
  show dqAt (V5 m ρ c main_v16 (ix2 ⟨a.val * 128 + k.val, _⟩ o)) (fun q => V5 m ρ c main_v18 (ix2 0 q)) (fun q => V5 m ρ c main_v20 (ix2 0 q)) = _
  rw [v16_eq, v18_eq, v20_eq]
  rw [cast_1_2 (N := 4194304) (R := 32768) (C := 128) _ shapeCasts_S4194304_S32768x128 ⟨a.val * 128 + k.val, by omega⟩ o (by simp; omega)]
  exact halves_lookup _ _ (h _).1 (h _).2

/-- The last layer's table [256, 128, 1]: region 3's output rows, laid flat, then by network with a unit output axis. -/
theorem ktab3_at (c : Dev nD)
    (h : ∀ p, 0 ≤ (m ((c : Thread nD τ).loc main_arg14) p).toInt ∧ (m ((c : Thread nD τ).loc main_arg14) p).toInt < 256)
    (a : Fin 256) (k : Fin 128) :
    shapeCast S256x128x1 (shapeCast S32768 (W8 m ρ c (Proc.devRef .tc main_v29)) shapeCasts_S256x128_S32768) shapeCasts_S32768_S256x128x1 (ix3 a k 0)
      = m ((c : Thread nD τ).loc main_arg13) (ix1 ⟨(m ((c : Thread nD τ).loc main_arg14)
          (ix1 ⟨a.val * 128 + k.val, by have := a.isLt; have := k.isLt; omega⟩)).toNat % 256, Nat.mod_lt _ (by decide)⟩) := by
  have ha := a.isLt; have hk := k.isLt
  rw [out3_eq]
  rw [cast_1_3_unit (N := 32768) (A := 256) (K := 128) _ shapeCasts_S32768_S256x128x1 a k (by omega)]
  rw [cast_2_1 (N := 32768) (R := 256) (C := 128) _ shapeCasts_S256x128_S32768 a k (by omega)]
  rw [region3_array]
  show dqAt (V7 m ρ c main_v24 (ix2 a k)) (fun q => V7 m ρ c main_v26 (ix2 0 q)) (fun q => V7 m ρ c main_v28 (ix2 0 q)) = _
  rw [v24_eq, v26_eq, v28_eq]
  rw [cast_1_2 (N := 32768) (R := 256) (C := 128) _ shapeCasts_S32768_S256x128 a k (by omega)]
  exact halves_lookup _ _ (h _).1 (h _).2

end Cert.KernelIdeal.Table

end
-- ==== Proof.RefTable.lean ====
/-
  The reference's weight tables, entry by entry, for labels in range.

  The reference dequantises a layer by looking every label up in the layer's 256-entry codebook and laying the
  results out as [network, input, output]. Array indexing first adds 256 to a negative label and the lookup clamps
  what is still out of range; for a label in 0 … 255 neither does anything, and the entry is the codebook's entry at
  the label.
-/
import proofs.«404252_j74268574482736_3_alg».proof.Proof.Gen.ReferenceIdeal.Read
import Idealize.ShloMosaic.Lib.ValueIdx
import Idealize.ShloMosaic.Lib.Pipeline.Value
import Idealize.ShloMosaic.Lib.StableHlo.Predicate

noncomputable section

namespace Cert.ReferenceIdeal.RefTable

open Idealize.ShloMosaic Idealize.ShloMosaic.ValueIdx Cert.ReferenceIdeal Cert.ReferenceIdeal.Read

/-- The rank-1 index at coordinate p, in its two spellings. -/
private theorem ofFin_eq_ix1 {n : Nat} (p : Fin n) : Shape.Idx.ofFin p = ix1 p := by
  funext d; match d with | ⟨0, _⟩ => exact Fin.ext rfl

/-- A word in [0, 256) signed reads the same signed and unsigned, and is below 256 unsigned. -/
private theorem toNat_of_range (w : BitVec 32) (h0 : 0 ≤ w.toInt) (h1 : w.toInt < 256) :
    w.toInt.toNat = w.toNat ∧ w.toNat < 256 := by
  have hlt := w.isLt
  have e : w.toInt = (w.toNat : Int) := by
    rw [BitVec.toInt_eq_toNat_cond] at h0 ⊢
    by_cases c : 2 * w.toNat < 2 ^ 32
    · rw [if_pos c]
    · rw [if_neg c] at h0; omega
  rw [e] at h1 ⊢
  exact ⟨Int.toNat_natCast _, by omega⟩

/-- Adding 256 to a negative label: on a non-negative label the selection keeps the label. -/
private theorem select_nonneg (w z a : BitVec 32) (hz : z = 0#32) (h0 : 0 ≤ w.toInt) :
    Scalar.select (IntOp.cmpi .slt w z) a w = w := by
  subst hz
  have hn : ¬ IntOp.cmpi .slt w 0#32 = 1#1 := by
    rw [IntOp.cmpi_slt]
    have z0 : (0#32 : BitVec 32).toInt = 0 := by decide
    rw [z0]; omega
  rw [eq_zero_of_ne_one hn, select_zero]

/-- The lookup of a rank-1 codebook of 256 entries at a column of labels: where the label is in [0, 256) the clamp
    does nothing, and the entry read is the codebook's at the label. -/
private theorem take_label {α : Type} {n : Nat} (d : GatherDims ⟨1, ![256]⟩ ⟨2, ![n, 1]⟩ ⟨1, ![n]⟩)
    (hcoll : d.collapsedSliceDims = [0]) (hob : d.operandBatchingDims = [])
    (hsim : d.startIndexMap = [0]) (hivd : d.indexVectorDim = 1)
    (tab : (⟨1, ![256]⟩ : Shape).Idx → α) (idx : IVec ⟨2, ![n, 1]⟩ 32) (p : Fin n) (w : BitVec 32)
    (hidx : idx (StableHlo.Predicate.ixP p) = w) (h0 : 0 ≤ w.toInt) (h1 : w.toInt < 256) :
    Host.gather d tab idx (ix1 p) = tab (ix1 ⟨w.toNat % 256, Nat.mod_lt _ (by decide)⟩) := by
  subst hidx
  rw [← ofFin_eq_ix1, StableHlo.Predicate.gather_take d hcoll hob hsim hivd tab idx p (by decide), ofFin_eq_ix1]
  refine congrArg tab (congrArg ix1 (Fin.ext ?_))
  obtain ⟨e, hl⟩ := toNat_of_range _ h0 h1
  show min (idx (StableHlo.Predicate.ixP p)).toInt.toNat (256 - 1) = (idx (StableHlo.Predicate.ixP p)).toNat % 256
  rw [e, Nat.mod_eq_of_lt hl]; omega

/-- Layer 0's table [256, 16, 128]: entry (a, k, o) is the codebook entry at label number (a·16 + k)·128 + o. -/
theorem tab0_at (x4 : (⟨S256, .f32⟩ : BufTy).Contents (Elt Ideal)) (x5 : (⟨S524288, .i32⟩ : BufTy).Contents (Elt Ideal))
    (h : ∀ p, 0 ≤ (x5 p).toInt ∧ (x5 p).toInt < 256) (a : Fin 256) (k : Fin 16) (o : Fin 128) :
    val_main_v24 (F := Ideal) x4 x5 (ix3 a k o)
      = x4 (ix1 ⟨(x5 (ix1 ⟨(a.val * 16 + k.val) * 128 + o.val, by have := a.isLt; have := k.isLt; have := o.isLt; omega⟩)).toNat % 256, Nat.mod_lt _ (by decide)⟩) := by
  rw [val_main_v24_apply]
  have hi : idx_main_v24 (ix3 a k o) = ix1 ⟨(a.val * 16 + k.val) * 128 + o.val, by have := a.isLt; have := k.isLt; have := o.isLt; omega⟩ := by
    funext d; match d with | ⟨0, _⟩ => rfl
  rw [hi]; unfold val_main_v23
  refine take_label _ rfl rfl rfl rfl x4 _ _ _ ?_ (h _).1 (h _).2
  rw [val_main_v22_apply]
  have hq : idx_main_v22 (StableHlo.Predicate.ixP ⟨(a.val * 16 + k.val) * 128 + o.val, by have := a.isLt; have := k.isLt; have := o.isLt; omega⟩) = ix1 ⟨(a.val * 16 + k.val) * 128 + o.val, by have := a.isLt; have := k.isLt; have := o.isLt; omega⟩ := by
    funext d; match d with | ⟨0, _⟩ => rfl
  rw [hq, val_main_v21_apply, val_main_v18_apply]
  exact select_nonneg _ _ _ (by rw [val_main_v17_apply]; rfl) (h _).1

/-- Layer 1's table [256, 128, 128]. -/
theorem tab1_at (x7 : (⟨S256, .f32⟩ : BufTy).Contents (Elt Ideal)) (x8 : (⟨S4194304, .i32⟩ : BufTy).Contents (Elt Ideal))
    (h : ∀ p, 0 ≤ (x8 p).toInt ∧ (x8 p).toInt < 256) (a : Fin 256) (k : Fin 128) (o : Fin 128) :
    val_main_v52 (F := Ideal) x7 x8 (ix3 a k o)
      = x7 (ix1 ⟨(x8 (ix1 ⟨(a.val * 128 + k.val) * 128 + o.val, by have := a.isLt; have := k.isLt; have := o.isLt; omega⟩)).toNat % 256, Nat.mod_lt _ (by decide)⟩) := by
  rw [val_main_v52_apply]
  have hi : idx_main_v52 (ix3 a k o) = ix1 ⟨(a.val * 128 + k.val) * 128 + o.val, by have := a.isLt; have := k.isLt; have := o.isLt; omega⟩ := by
    funext d; match d with | ⟨0, _⟩ => rfl
  rw [hi]; unfold val_main_v51
  refine take_label _ rfl rfl rfl rfl x7 _ _ _ ?_ (h _).1 (h _).2
  rw [val_main_v50_apply]
  have hq : idx_main_v50 (StableHlo.Predicate.ixP ⟨(a.val * 128 + k.val) * 128 + o.val, by have := a.isLt; have := k.isLt; have := o.isLt; omega⟩) = ix1 ⟨(a.val * 128 + k.val) * 128 + o.val, by have := a.isLt; have := k.isLt; have := o.isLt; omega⟩ := by
    funext d; match d with | ⟨0, _⟩ => rfl
  rw [hq, val_main_v49_apply, val_main_v46_apply]
  exact select_nonneg _ _ _ (by rw [val_main_v45_apply]; rfl) (h _).1

/-- Layer 2's table [256, 128, 128]. -/
theorem tab2_at (x10 : (⟨S256, .f32⟩ : BufTy).Contents (Elt Ideal)) (x11 : (⟨S4194304, .i32⟩ : BufTy).Contents (Elt Ideal))
    (h : ∀ p, 0 ≤ (x11 p).toInt ∧ (x11 p).toInt < 256) (a : Fin 256) (k : Fin 128) (o : Fin 128) :
    val_main_v80 (F := Ideal) x10 x11 (ix3 a k o)
      = x10 (ix1 ⟨(x11 (ix1 ⟨(a.val * 128 + k.val) * 128 + o.val, by have := a.isLt; have := k.isLt; have := o.isLt; omega⟩)).toNat % 256, Nat.mod_lt _ (by decide)⟩) := by
  rw [val_main_v80_apply]
  have hi : idx_main_v80 (ix3 a k o) = ix1 ⟨(a.val * 128 + k.val) * 128 + o.val, by have := a.isLt; have := k.isLt; have := o.isLt; omega⟩ := by
    funext d; match d with | ⟨0, _⟩ => rfl
  rw [hi]; unfold val_main_v79
  refine take_label _ rfl rfl rfl rfl x10 _ _ _ ?_ (h _).1 (h _).2
  rw [val_main_v78_apply]
  have hq : idx_main_v78 (StableHlo.Predicate.ixP ⟨(a.val * 128 + k.val) * 128 + o.val, by have := a.isLt; have := k.isLt; have := o.isLt; omega⟩) = ix1 ⟨(a.val * 128 + k.val) * 128 + o.val, by have := a.isLt; have := k.isLt; have := o.isLt; omega⟩ := by
    funext d; match d with | ⟨0, _⟩ => rfl
  rw [hq, val_main_v77_apply, val_main_v74_apply]
  exact select_nonneg _ _ _ (by rw [val_main_v73_apply]; rfl) (h _).1

/-- Layer 3's table [256, 128, 1]. -/
theorem tab3_at (x13 : (⟨S256, .f32⟩ : BufTy).Contents (Elt Ideal)) (x14 : (⟨S32768, .i32⟩ : BufTy).Contents (Elt Ideal))
    (h : ∀ p, 0 ≤ (x14 p).toInt ∧ (x14 p).toInt < 256) (a : Fin 256) (k : Fin 128) :
    val_main_v108 (F := Ideal) x13 x14 (ix3 a k 0)
      = x13 (ix1 ⟨(x14 (ix1 ⟨a.val * 128 + k.val, by have := a.isLt; have := k.isLt; omega⟩)).toNat % 256, Nat.mod_lt _ (by decide)⟩) := by
  rw [val_main_v108_apply]
  have hi : idx_main_v108 (ix3 a k 0) = ix1 ⟨a.val * 128 + k.val, by have := a.isLt; have := k.isLt; omega⟩ := by
    funext d; match d with | ⟨0, _⟩ => exact Fin.ext (by show (a.val * 128 + k.val) * 1 + 0 = a.val * 128 + k.val; omega)
  rw [hi]; unfold val_main_v107
  refine take_label _ rfl rfl rfl rfl x13 _ _ _ ?_ (h _).1 (h _).2
  rw [val_main_v106_apply]
  have hq : idx_main_v106 (StableHlo.Predicate.ixP ⟨a.val * 128 + k.val, by have := a.isLt; have := k.isLt; omega⟩) = ix1 ⟨a.val * 128 + k.val, by have := a.isLt; have := k.isLt; omega⟩ := by
    funext d; match d with | ⟨0, _⟩ => rfl
  rw [hq, val_main_v105_apply, val_main_v102_apply]
  exact select_nonneg _ _ _ (by rw [val_main_v101_apply]; rfl) (h _).1

end Cert.ReferenceIdeal.RefTable

end
-- ==== Proof.RefValue.lean ====
/-
  The reference program's result, read one operation at a time: it is the network of Mlp.lean on the batch.

  The reference stacks each point's coordinates with its sample's latent code along the LAST axis, and each layer is a
  batched matrix product over that axis with the sample's weights [sample, input, output], plus the sample's bias,
  then sin (30 · y). Its products are written input-first; `Mlp.dense_comm` turns them around. The per-sample weights,
  biases and latent codes are the reference's own lookups, carried here as whole arrays and never opened.
-/
import proofs.«404252_j74268574482736_3_alg».proof.Proof.Gen.ReferenceIdeal.Run
import proofs.«404252_j74268574482736_3_alg».proof.Proof.Gen.ReferenceIdeal.Read
import proofs.«404252_j74268574482736_3_alg».proof.Proof.Mlp
import Idealize.ShloMosaic.Lib.ValueIdx
import Idealize.ShloMosaic.Lib.Pipeline.Value
import Idealize.ShloMosaic.PureOps.Ideal.Laws

noncomputable section

namespace Cert.ReferenceIdeal.RefNet

open Idealize.ShloMosaic Idealize.ShloMosaic.ValueIdx Cert.ReferenceIdeal Cert.ReferenceIdeal.Read

section Layers

open Cert.ReferenceIdeal.Gen

variable (x0 : (⟨S256x2048x3, .f32⟩ : BufTy).Contents (Elt Ideal)) (x1 x2 : (⟨S256, .i32⟩ : BufTy).Contents (Elt Ideal)) (x3 : (⟨S256x8x13, .f32⟩ : BufTy).Contents (Elt Ideal))
    (x4 : (⟨S256, .f32⟩ : BufTy).Contents (Elt Ideal)) (x5 : (⟨S524288, .i32⟩ : BufTy).Contents (Elt Ideal)) (x6 : (⟨S256x1x128, .f32⟩ : BufTy).Contents (Elt Ideal))
    (x7 : (⟨S256, .f32⟩ : BufTy).Contents (Elt Ideal)) (x8 : (⟨S4194304, .i32⟩ : BufTy).Contents (Elt Ideal)) (x9 : (⟨S256x1x128, .f32⟩ : BufTy).Contents (Elt Ideal))
    (x10 : (⟨S256, .f32⟩ : BufTy).Contents (Elt Ideal)) (x11 : (⟨S4194304, .i32⟩ : BufTy).Contents (Elt Ideal)) (x12 : (⟨S256x1x128, .f32⟩ : BufTy).Contents (Elt Ideal))
    (x13 : (⟨S256, .f32⟩ : BufTy).Contents (Elt Ideal)) (x14 : (⟨S32768, .i32⟩ : BufTy).Contents (Elt Ideal)) (x15 : (⟨S256x1x1, .f32⟩ : BufTy).Contents (Elt Ideal))

/-- The stacked input at (sample s, point n, feature i) is the point's feature vector: a coordinate of the point for
    i < 3, and otherwise entry i - 3 of the sample's latent code, which the two broadcasts copy to every point. -/
private theorem feat_at (s : Fin 256) (n : Fin 2048) (i : Fin 16) :
    val_main_v16 (F := Ideal) x0 x1 x2 x3 (ix3 s n i)
      = Cert.Mlp.feat (fun a => x0 (ix3 s n a)) (fun j => val_main_v13 (F := Ideal) x1 x2 x3 (ix2 s j)) i := by
  unfold Cert.Mlp.feat
  by_cases h : i.val < 3
  · -- a coordinate: the joined axis' position falls in the first piece
    rw [dif_pos h]
    unfold val_main_v16
    exact concatenate_pair_apply_left (2 : Fin S256x2048x16.rank) x0 (val_main_v15 (F := Ideal) x1 x2 x3)
      concatenates_S256x2048x3_S256x2048x13_S256x2048x16_d2 (ix3 s n i) rfl (ix3 s n ⟨i.val, h⟩)
      (fun b => by match b with | ⟨0, _⟩ => rfl | ⟨1, _⟩ => rfl | ⟨2, _⟩ => rfl)
  · -- a code entry: the position falls in the second piece, 3 places in
    rw [dif_neg h]
    unfold val_main_v16
    have hi : i.val - 3 < 13 := by have := i.isLt; omega
    rw [concatenate_pair_apply_right (2 : Fin S256x2048x16.rank) x0 (val_main_v15 (F := Ideal) x1 x2 x3)
      concatenates_S256x2048x3_S256x2048x13_S256x2048x16_d2 (ix3 s n i) rfl rfl (ix3 s n ⟨i.val - 3, hi⟩)
      (fun b hb => by match b, hb with | ⟨0, _⟩, _ => rfl | ⟨1, _⟩, _ => rfl | ⟨2, _⟩, hb => exact (hb (Fin.ext rfl)).elim)
      (by show (i.val - 3) + 3 = i.val; omega)]
    rw [val_main_v15_apply, val_main_v14_apply]
    exact congrArg _ (funext fun a => Fin.ext (by match a with | ⟨0, _⟩ => rfl | ⟨1, _⟩ => rfl))

/-- First layer at (s, n, o): the product over the 16 features with the sample's weights, plus its bias, then the
    activation. -/
private theorem layer1_at (s : Fin 256) (n : Fin 2048) (o : Fin 128) :
    val_main_v44 (F := Ideal) x0 x1 x2 x3 x4 x5 x6 (ix3 s n o)
      = Cert.Mlp.act (Cert.Mlp.dense (fun k o => val_main_v31 (F := Ideal) x1 x4 x5 (ix3 s k o))
          (fun o => val_main_v39 (F := Ideal) x1 x6 (ix3 s 0 o))
          (Cert.Mlp.feat (fun a => x0 (ix3 s n a)) (fun j => val_main_v13 (F := Ideal) x1 x2 x3 (ix2 s j))) o) := by
  have el : ∀ k : Fin 16, lidx_main_v32 (ix3 s n o) k = ix3 s n k := fun k =>
    funext fun a => Fin.ext (by match a with | ⟨0, _⟩ => rfl | ⟨1, _⟩ => rfl | ⟨2, _⟩ => rfl)
  have er : ∀ k : Fin 16, ridx_main_v32 (ix3 s n o) k = ix3 s k o := fun k =>
    funext fun a => Fin.ext (by match a with | ⟨0, _⟩ => rfl | ⟨1, _⟩ => rfl | ⟨2, _⟩ => rfl)
  have eb : idx_main_v40 (ix3 s n o) = ix3 s 0 o :=
    funext fun a => Fin.ext (by match a with | ⟨0, _⟩ => rfl | ⟨1, _⟩ => rfl | ⟨2, _⟩ => rfl)
  rw [val_main_v44_apply, val_main_v43_apply, val_main_v42_apply, val_main_cst_apply, val_main_v41_apply,
    val_main_v40_apply, val_main_v32_apply, eb, ← Cert.Mlp.dense_comm]
  unfold Cert.Mlp.act
  rw [Finset.sum_congr rfl fun k _ => by rw [el k, er k, feat_at]]
  rfl

/-- Second layer at (s, n, o): the product over the first layer's 128 outputs at the same point. -/
private theorem layer2_at (s : Fin 256) (n : Fin 2048) (o : Fin 128) :
    val_main_v72 (F := Ideal) x0 x1 x2 x3 x4 x5 x6 x7 x8 x9 (ix3 s n o)
      = Cert.Mlp.act (Cert.Mlp.dense (fun k o => val_main_v59 (F := Ideal) x1 x7 x8 (ix3 s k o))
          (fun o => val_main_v67 (F := Ideal) x1 x9 (ix3 s 0 o))
          (fun o1 => Cert.Mlp.act (Cert.Mlp.dense (fun k o => val_main_v31 (F := Ideal) x1 x4 x5 (ix3 s k o))
          (fun o => val_main_v39 (F := Ideal) x1 x6 (ix3 s 0 o))
          (Cert.Mlp.feat (fun a => x0 (ix3 s n a)) (fun j => val_main_v13 (F := Ideal) x1 x2 x3 (ix2 s j))) o1)) o) := by
  have el : ∀ k : Fin 128, lidx_main_v60 (ix3 s n o) k = ix3 s n k := fun k =>
    funext fun a => Fin.ext (by match a with | ⟨0, _⟩ => rfl | ⟨1, _⟩ => rfl | ⟨2, _⟩ => rfl)
  have er : ∀ k : Fin 128, ridx_main_v60 (ix3 s n o) k = ix3 s k o := fun k =>
    funext fun a => Fin.ext (by match a with | ⟨0, _⟩ => rfl | ⟨1, _⟩ => rfl | ⟨2, _⟩ => rfl)
  have eb : idx_main_v68 (ix3 s n o) = ix3 s 0 o :=
    funext fun a => Fin.ext (by match a with | ⟨0, _⟩ => rfl | ⟨1, _⟩ => rfl | ⟨2, _⟩ => rfl)
  rw [val_main_v72_apply, val_main_v71_apply, val_main_v70_apply, val_main_cst_15_apply, val_main_v69_apply,
    val_main_v68_apply, val_main_v60_apply, eb, ← Cert.Mlp.dense_comm]
  rw [Finset.sum_congr rfl fun k _ => by rw [el k, er k, layer1_at]]
  rfl

/-- Third layer at (s, n, o): the product over the second layer's 128 outputs at the same point. -/
private theorem layer3_at (s : Fin 256) (n : Fin 2048) (o : Fin 128) :
    val_main_v100 (F := Ideal) x0 x1 x2 x3 x4 x5 x6 x7 x8 x9 x10 x11 x12 (ix3 s n o)
      = Cert.Mlp.act (Cert.Mlp.dense (fun k o => val_main_v87 (F := Ideal) x1 x10 x11 (ix3 s k o))
          (fun o => val_main_v95 (F := Ideal) x1 x12 (ix3 s 0 o))
          (fun o2 => Cert.Mlp.act (Cert.Mlp.dense (fun k o => val_main_v59 (F := Ideal) x1 x7 x8 (ix3 s k o))
          (fun o => val_main_v67 (F := Ideal) x1 x9 (ix3 s 0 o))
          (fun o1 => Cert.Mlp.act (Cert.Mlp.dense (fun k o => val_main_v31 (F := Ideal) x1 x4 x5 (ix3 s k o))
          (fun o => val_main_v39 (F := Ideal) x1 x6 (ix3 s 0 o))
          (Cert.Mlp.feat (fun a => x0 (ix3 s n a)) (fun j => val_main_v13 (F := Ideal) x1 x2 x3 (ix2 s j))) o1)) o2)) o) := by
  have el : ∀ k : Fin 128, lidx_main_v88 (ix3 s n o) k = ix3 s n k := fun k =>
    funext fun a => Fin.ext (by match a with | ⟨0, _⟩ => rfl | ⟨1, _⟩ => rfl | ⟨2, _⟩ => rfl)
  have er : ∀ k : Fin 128, ridx_main_v88 (ix3 s n o) k = ix3 s k o := fun k =>
    funext fun a => Fin.ext (by match a with | ⟨0, _⟩ => rfl | ⟨1, _⟩ => rfl | ⟨2, _⟩ => rfl)
  have eb : idx_main_v96 (ix3 s n o) = ix3 s 0 o :=
    funext fun a => Fin.ext (by match a with | ⟨0, _⟩ => rfl | ⟨1, _⟩ => rfl | ⟨2, _⟩ => rfl)
  rw [val_main_v100_apply, val_main_v99_apply, val_main_v98_apply, val_main_cst_22_apply, val_main_v97_apply,
    val_main_v96_apply, val_main_v88_apply, eb, ← Cert.Mlp.dense_comm]
  rw [Finset.sum_congr rfl fun k _ => by rw [el k, er k, layer2_at]]
  rfl

/-- The result at (s, n, 0): the last affine layer, one output, over the third layer's 128 outputs, no activation. -/
private theorem out_at (s : Fin 256) (n : Fin 2048) :
    val_main_v125 (F := Ideal) x0 x1 x2 x3 x4 x5 x6 x7 x8 x9 x10 x11 x12 x13 x14 x15 (ix3 s n 0)
      = Cert.Mlp.dense (fun k o => val_main_v115 (F := Ideal) x1 x13 x14 (ix3 s k o))
          (fun o => val_main_v123 (F := Ideal) x1 x15 (ix3 s 0 o))
          (fun o3 => Cert.Mlp.act (Cert.Mlp.dense (fun k o => val_main_v87 (F := Ideal) x1 x10 x11 (ix3 s k o))
          (fun o => val_main_v95 (F := Ideal) x1 x12 (ix3 s 0 o))
          (fun o2 => Cert.Mlp.act (Cert.Mlp.dense (fun k o => val_main_v59 (F := Ideal) x1 x7 x8 (ix3 s k o))
          (fun o => val_main_v67 (F := Ideal) x1 x9 (ix3 s 0 o))
          (fun o1 => Cert.Mlp.act (Cert.Mlp.dense (fun k o => val_main_v31 (F := Ideal) x1 x4 x5 (ix3 s k o))
          (fun o => val_main_v39 (F := Ideal) x1 x6 (ix3 s 0 o))
          (Cert.Mlp.feat (fun a => x0 (ix3 s n a)) (fun j => val_main_v13 (F := Ideal) x1 x2 x3 (ix2 s j))) o1)) o2)) o3)) 0 := by
  have el : ∀ k : Fin 128, lidx_main_v116 (ix3 s n 0) k = ix3 s n k := fun k =>
    funext fun a => Fin.ext (by match a with | ⟨0, _⟩ => rfl | ⟨1, _⟩ => rfl | ⟨2, _⟩ => rfl)
  have er : ∀ k : Fin 128, ridx_main_v116 (ix3 s n 0) k = ix3 s k 0 := fun k =>
    funext fun a => Fin.ext (by match a with | ⟨0, _⟩ => rfl | ⟨1, _⟩ => rfl | ⟨2, _⟩ => rfl)
  have eb : idx_main_v124 (ix3 s n 0) = ix3 s 0 0 :=
    funext fun a => Fin.ext (by match a with | ⟨0, _⟩ => rfl | ⟨1, _⟩ => rfl | ⟨2, _⟩ => rfl)
  rw [val_main_v125_apply, val_main_v124_apply, val_main_v116_apply, eb, ← Cert.Mlp.dense_comm]
  rw [Finset.sum_congr rfl fun k _ => by rw [el k, er k, layer3_at]]
  rfl

end Layers

/-- The reference's result array is the network's output on the batch: the points `x0`, and the reference's own
    looked-up latent codes, weights and biases. -/
theorem ref_net (x0 : (⟨S256x2048x3, .f32⟩ : BufTy).Contents (Elt Ideal)) (x1 x2 : (⟨S256, .i32⟩ : BufTy).Contents (Elt Ideal)) (x3 : (⟨S256x8x13, .f32⟩ : BufTy).Contents (Elt Ideal))
    (x4 : (⟨S256, .f32⟩ : BufTy).Contents (Elt Ideal)) (x5 : (⟨S524288, .i32⟩ : BufTy).Contents (Elt Ideal)) (x6 : (⟨S256x1x128, .f32⟩ : BufTy).Contents (Elt Ideal))
    (x7 : (⟨S256, .f32⟩ : BufTy).Contents (Elt Ideal)) (x8 : (⟨S4194304, .i32⟩ : BufTy).Contents (Elt Ideal)) (x9 : (⟨S256x1x128, .f32⟩ : BufTy).Contents (Elt Ideal))
    (x10 : (⟨S256, .f32⟩ : BufTy).Contents (Elt Ideal)) (x11 : (⟨S4194304, .i32⟩ : BufTy).Contents (Elt Ideal)) (x12 : (⟨S256x1x128, .f32⟩ : BufTy).Contents (Elt Ideal))
    (x13 : (⟨S256, .f32⟩ : BufTy).Contents (Elt Ideal)) (x14 : (⟨S32768, .i32⟩ : BufTy).Contents (Elt Ideal)) (x15 : (⟨S256x1x1, .f32⟩ : BufTy).Contents (Elt Ideal)) :
    val_main_v125 (F := Ideal) x0 x1 x2 x3 x4 x5 x6 x7 x8 x9 x10 x11 x12 x13 x14 x15
      = Cert.Mlp.netOut x0 (val_main_v13 (F := Ideal) x1 x2 x3)
          (val_main_v31 (F := Ideal) x1 x4 x5) (val_main_v39 (F := Ideal) x1 x6)
          (val_main_v59 (F := Ideal) x1 x7 x8) (val_main_v67 (F := Ideal) x1 x9)
          (val_main_v87 (F := Ideal) x1 x10 x11) (val_main_v95 (F := Ideal) x1 x12)
          (val_main_v115 (F := Ideal) x1 x13 x14) (val_main_v123 (F := Ideal) x1 x15) := by
  funext i
  -- an index of the result is (sample, point, 0): the last axis has one position
  obtain ⟨s, n, z, rfl⟩ : ∃ (s : Fin 256) (n : Fin 2048) (z : Fin 1), i = ix3 s n z := ⟨i 0, i 1, i 2, eq_ix3 i⟩
  obtain rfl : z = 0 := Subsingleton.elim _ _
  rw [out_at]
  rfl

end Cert.ReferenceIdeal.RefNet

end
-- ==== Proof.PreDecode.lean ====
/-
  UNTRUSTED — THE LABEL RANGE, READ BACK FROM THE PRINTED PRECONDITION. The precondition is a conjunction (a chain of
  `and` on one-bit words) of twenty-six "all elements" tests; the last eight say, of each of the four label arrays x,
  that every x[p] ≥ 0 and every x[p] < 256, signed. A conjunction of one-bit words that is 1 has every conjunct 1; an
  "all" reduction by `and` that is 1 had a 1 at every index; a comparison word that is 1 says the signed comparison
  holds; a broadcast scalar reads the scalar at every index. So 0 ≤ x[p] < 256 at every index p of every label array.
-/
import proofs.«404252_j74268574482736_3_alg».proof.Pre_finite_inputs
import proofs.«404252_j74268574482736_3_alg».proof.Proof.Gen.Pre_finite_inputs
import Idealize.ShloMosaic.Lib.ReduceAll
import Idealize.ShloMosaic.Lib.ValueIdx
import Idealize.ShloMosaic.Lib.StableHlo.Predicate

set_option maxRecDepth 16384

noncomputable section

namespace Cert.Pre_finite_inputs.Decode

open Cert.Pre_finite_inputs
open Idealize.ShloMosaic

/-- The rank-0 shape has one index. -/
private instance : Subsingleton S_.Idx := ⟨fun a b => funext fun d => d.elim0⟩

/-- One label array: both of its "all" tests being 1 put every element in [0, 256). -/
private theorem range_of_all {t : Shape} {axes : List (Fin t.rank)} (x : IVec t 32)
    (hb : S_.BroadcastsInDim t (![] : Fin 0 → Fin t.rank)) (hr : t.ReducesTo axes S_) (h0 : 0 < S_.numel)
    (i1 i2 : IVec S_ 1)
    (hge : Host.reduce IntOp.andi (cmpi .sge x (broadcastInDim t ![] hb (constantI S_ 32 0#32))) i1 hr h0 ValueIdx.ix0 = 1#1)
    (hlt : Host.reduce IntOp.andi (cmpi .slt x (broadcastInDim t ![] hb (constantI S_ 32 256#32))) i2 hr h0 ValueIdx.ix0 = 1#1)
    (p : t.Idx) : 0 ≤ (x p).toInt ∧ (x p).toInt < 256 := by
  have ege := Host.reduce_andi_all _ i1 hr h0 ValueIdx.ix0 hge p
  have elt := Host.reduce_andi_all _ i2 hr h0 ValueIdx.ix0 hlt p
  simp only [cmpi] at ege elt
  rw [StableHlo.Predicate.bcast_scalar hb h0] at ege elt
  rw [IntOp.cmpi_sge] at ege
  rw [IntOp.cmpi_slt] at elt
  have z0 : (constantI S_ 32 0#32 (Shape.Idx.first h0)).toInt = 0 :=
    show (0#32 : BitVec 32).toInt = 0 from by decide
  have z256 : (constantI S_ 32 256#32 (Shape.Idx.first h0)).toInt = 256 :=
    show (256#32 : BitVec 32).toInt = 256 from by decide
  rw [z0] at ege
  rw [z256] at elt
  exact ⟨ege, elt⟩

theorem labels_range {F : FTy → Type} [FloatOps F] [Cert.Pre_finite_inputs.Facts]
    (a0 : FVec F S256x2048x3 .f32) (a1 a2 : IVec S256 32) (a3 : FVec F S256x8x13 .f32) (a4 : FVec F S256 .f32) (a5 : IVec S524288 32) (a6 : FVec F S256x1x128 .f32) (a7 : FVec F S256 .f32) (a8 : IVec S4194304 32) (a9 : FVec F S256x1x128 .f32) (a10 : FVec F S256 .f32) (a11 : IVec S4194304 32) (a12 : FVec F S256x1x128 .f32) (a13 : FVec F S256 .f32) (a14 : IVec S32768 32) (a15 : FVec F S256x1x1 .f32)
    (h : Cert.Pre_finite_inputs.fn (F := F) a0 a1 a2 a3 a4 a5 a6 a7 a8 a9 a10 a11 a12 a13 a14 a15 = fun _ => 1#1) :
    (∀ p, 0 ≤ (a5 p).toInt ∧ (a5 p).toInt < 256) ∧ (∀ p, 0 ≤ (a8 p).toInt ∧ (a8 p).toInt < 256) ∧ (∀ p, 0 ≤ (a11 p).toInt ∧ (a11 p).toInt < 256) ∧ (∀ p, 0 ≤ (a14 p).toInt ∧ (a14 p).toInt < 256) := by
  have e := congrFun h ValueIdx.ix0
  dsimp only [fn, fn_part1, fn_part2, fn_part3, fn_part4] at e
  simp only [andi, IntOp.andi_eq_one] at e
  obtain ⟨⟨⟨⟨⟨⟨⟨⟨-, h5a⟩, h5b⟩, h8a⟩, h8b⟩, h11a⟩, h11b⟩, h14a⟩, h14b⟩ := e
  exact ⟨range_of_all a5 _ _ _ _ _ h5a h5b, range_of_all a8 _ _ _ _ _ h8a h8b,
    range_of_all a11 _ _ _ _ _ h11a h11b, range_of_all a14 _ _ _ _ _ h14a h14b⟩

end Cert.Pre_finite_inputs.Decode

end
-- ==== Proof.Bridge.lean ====
/-
  The two programs' results are the same array, for labels in range.

  Both results are `Mlp.netOut` of the points and of per-sample latent codes, weights and biases (RefValue.lean for the
  reference, KValue.lean for the kernel). The latent codes and the biases are the SAME lookups of the same arguments on
  both sides. The weights are the same lookup by the sample's network index into a layer's weight table, and the two
  programs' tables agree entry by entry once every label is in 0 … 255: each is the codebook's entry at the label
  (RefTable.lean, KTable.lean). The precondition gives the labels' range (PreDecode.lean).
-/
import proofs.«404252_j74268574482736_3_alg».proof.Defs
import proofs.«404252_j74268574482736_3_alg».proof.Proof.KValue
import proofs.«404252_j74268574482736_3_alg».proof.Proof.KTable
import proofs.«404252_j74268574482736_3_alg».proof.Proof.RefTable
import proofs.«404252_j74268574482736_3_alg».proof.Proof.RefValue
import proofs.«404252_j74268574482736_3_alg».proof.Proof.PreDecode
import proofs.«404252_j74268574482736_3_alg».proof.Proof.Gen.Pre_finite_inputs

set_option maxRecDepth 16384

noncomputable section

namespace Cert.Proof.Bridge

open Idealize.ShloMosaic Idealize.ShloMosaic.ValueIdx Idealize.ShloMosaic.TcCoe Idealize.SL.Sem
open Cert.KernelIdeal.Gen Cert.KernelIdeal.Host Cert.KernelIdeal.KValue Cert.KernelIdeal.Table
open Cert.ReferenceIdeal.Read Cert.ReferenceIdeal.RefTable

variable (m : (ℓ : Loc Cert.KernelIdeal.nD Cert.KernelIdeal.τ Cert.KernelIdeal.sig) → Buf (Elt Ideal) ℓ) (ρ : Dev Cert.KernelIdeal.nD → PrngReg)

/-! ## The lookups that are the same term on both sides -/

theorem latent_eq (c : Dev Cert.KernelIdeal.nD) :
    val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = latent m c := rfl

theorem bias0_eq (c : Dev Cert.KernelIdeal.nD) : val_main_v39 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) = V9 m ρ c Cert.KernelIdeal.main_v66 := by
  rw [v66_eq]; rfl
theorem bias1_eq (c : Dev Cert.KernelIdeal.nD) : val_main_v67 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) = V9 m ρ c Cert.KernelIdeal.main_v73 := by
  rw [v73_eq]; rfl
theorem bias2_eq (c : Dev Cert.KernelIdeal.nD) : val_main_v95 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) = V9 m ρ c Cert.KernelIdeal.main_v80 := by
  rw [v80_eq]; rfl
theorem bias3_eq (c : Dev Cert.KernelIdeal.nD) : val_main_v123 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg15)) = V9 m ρ c Cert.KernelIdeal.main_v87 := by
  rw [v87_eq]; rfl

/-! ## The weights: the same lookup into tables that agree for labels in range -/

theorem weights0_eq (c : Dev Cert.KernelIdeal.nD) (h : ∀ p, 0 ≤ ((m ((c.tc : Thread Cert.KernelIdeal.nD Cert.KernelIdeal.τ).loc Cert.KernelIdeal.main_arg5)) p).toInt ∧ ((m ((c.tc : Thread Cert.KernelIdeal.nD Cert.KernelIdeal.τ).loc Cert.KernelIdeal.main_arg5)) p).toInt < 256) :
    val_main_v31 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = V9 m ρ c Cert.KernelIdeal.main_v38 := by
  rw [v38_eq]
  have ht : val_main_v24 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = W8 m ρ c (Proc.devRef .tc Cert.KernelIdeal.main_v7) := by
    funext i
    obtain ⟨a, k, o, rfl⟩ : ∃ (a : Fin 256) (k : Fin 16) (o : Fin 128), i = ix3 a k o := ⟨i 0, i 1, i 2, eq_ix3 i⟩
    rw [tab0_at _ _ h a k o, ktab0_at m ρ c h a k o]
  unfold val_main_v31
  rw [ht]
  rfl

theorem weights1_eq (c : Dev Cert.KernelIdeal.nD) (h : ∀ p, 0 ≤ ((m ((c.tc : Thread Cert.KernelIdeal.nD Cert.KernelIdeal.τ).loc Cert.KernelIdeal.main_arg8)) p).toInt ∧ ((m ((c.tc : Thread Cert.KernelIdeal.nD Cert.KernelIdeal.τ).loc Cert.KernelIdeal.main_arg8)) p).toInt < 256) :
    val_main_v59 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = V9 m ρ c Cert.KernelIdeal.main_v45 := by
  rw [v45_eq]
  have ht : val_main_v52 (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = W8 m ρ c (Proc.devRef .tc Cert.KernelIdeal.main_v15) := by
    funext i
    obtain ⟨a, k, o, rfl⟩ : ∃ (a : Fin 256) (k : Fin 128) (o : Fin 128), i = ix3 a k o := ⟨i 0, i 1, i 2, eq_ix3 i⟩
    rw [tab1_at _ _ h a k o, ktab1_at m ρ c h a k o]
  unfold val_main_v59
  rw [ht]
  rfl

theorem weights2_eq (c : Dev Cert.KernelIdeal.nD) (h : ∀ p, 0 ≤ ((m ((c.tc : Thread Cert.KernelIdeal.nD Cert.KernelIdeal.τ).loc Cert.KernelIdeal.main_arg11)) p).toInt ∧ ((m ((c.tc : Thread Cert.KernelIdeal.nD Cert.KernelIdeal.τ).loc Cert.KernelIdeal.main_arg11)) p).toInt < 256) :
    val_main_v87 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = V9 m ρ c Cert.KernelIdeal.main_v52 := by
  rw [v52_eq]
  have ht : val_main_v80 (F := Ideal) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = W8 m ρ c (Proc.devRef .tc Cert.KernelIdeal.main_v23) := by
    funext i
    obtain ⟨a, k, o, rfl⟩ : ∃ (a : Fin 256) (k : Fin 128) (o : Fin 128), i = ix3 a k o := ⟨i 0, i 1, i 2, eq_ix3 i⟩
    rw [tab2_at _ _ h a k o, ktab2_at m ρ c h a k o]
  unfold val_main_v87
  rw [ht]
  rfl

theorem weights3_eq (c : Dev Cert.KernelIdeal.nD) (h : ∀ p, 0 ≤ ((m ((c.tc : Thread Cert.KernelIdeal.nD Cert.KernelIdeal.τ).loc Cert.KernelIdeal.main_arg14)) p).toInt ∧ ((m ((c.tc : Thread Cert.KernelIdeal.nD Cert.KernelIdeal.τ).loc Cert.KernelIdeal.main_arg14)) p).toInt < 256) :
    val_main_v115 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = V9 m ρ c Cert.KernelIdeal.main_v59 := by
  rw [v59_eq]
  have ht : val_main_v108 (F := Ideal) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = shapeCast Cert.KernelIdeal.S256x128x1 (shapeCast Cert.KernelIdeal.S32768 (W8 m ρ c (Proc.devRef .tc Cert.KernelIdeal.main_v29)) Cert.KernelIdeal.Gen.shapeCasts_S256x128_S32768) Cert.KernelIdeal.Gen.shapeCasts_S32768_S256x128x1 := by
    funext i
    obtain ⟨a, k, z0, rfl⟩ : ∃ (a : Fin 256) (k : Fin 128) (z0 : Fin 1), i = ix3 a k z0 := ⟨i 0, i 1, i 2, eq_ix3 i⟩
    have hz : z0 = 0 := Subsingleton.elim _ _
    subst hz
    rw [tab3_at _ _ h a k, ktab3_at m ρ c h a k]
  unfold val_main_v115
  rw [ht]
  rfl

/-! ## The results -/

/-- Under the precondition, the reference's result term at the kernel's arguments is the kernel's result. -/
theorem result_eq (c : Dev Cert.KernelIdeal.nD) (hpre : Cert.Pre_KernelIdeal m) :
    val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      = W11 m ρ c (Proc.devRef .tc Cert.KernelIdeal.main_v105) := by
  obtain ⟨h5, h8, h11, h14⟩ := Cert.Pre_finite_inputs.Decode.labels_range (F := Ideal) _ _ _ _ _ _ _ _ _ _ _ _ _ _ _ _ (hpre c)
  rw [Cert.ReferenceIdeal.RefNet.ref_net, value_eq m ρ c, latent_eq m c, weights0_eq m ρ c h5, bias0_eq m ρ c, weights1_eq m ρ c h8, bias1_eq m ρ c,
    weights2_eq m ρ c h11, bias2_eq m ρ c, weights3_eq m ρ c h14, bias3_eq m ρ c]

end Cert.Proof.Bridge

end
-- ==== Proof.lean ====
/-
  A batch of 256 small networks (sine activations, scale 30), each with its own weights, evaluated at 2048 points per
  sample: the kernel program against the reference, over the extended reals.

  The weights are stored as 8-bit labels into per-layer codebooks of 256 entries. The reference looks each label up in
  the whole codebook; the kernel splits the codebook into two halves of 128 and selects by the label's top bit after
  masking the label to seven bits. The two agree exactly when every label lies in 0 … 255, which the precondition
  states; outside that range the masked lookup and the reference's clamped lookup differ.
  After the weights, both programs compute the same four affine layers; the kernel works feature-major, with the
  products written weight-first, and the reference row-major, with the products written input-first. Multiplication of
  extended reals commutes and each sum runs over the same index, so no finiteness is used.

  The frames of the two kernel programs are the generated ones; the reference's frame is its generated run with the
  result dropped; the idealization rewrote nothing, so `preserves` is trivial.
-/
import proofs.«404252_j74268574482736_3_alg».proof.Defs
import proofs.«404252_j74268574482736_3_alg».proof.Proof.Gen.Kernel
import proofs.«404252_j74268574482736_3_alg».proof.Proof.Gen.Kernel.Frame
import proofs.«404252_j74268574482736_3_alg».proof.Proof.Gen.KernelIdeal
import proofs.«404252_j74268574482736_3_alg».proof.Proof.Gen.KernelIdeal.Frame
import proofs.«404252_j74268574482736_3_alg».proof.Proof.Gen.ReferenceIdeal
import proofs.«404252_j74268574482736_3_alg».proof.Proof.Gen.ReferenceIdeal.Run
import proofs.«404252_j74268574482736_3_alg».proof.Proof.Gen.ReferenceIdeal.Read
import proofs.«404252_j74268574482736_3_alg».proof.Proof.Gen.Pre_finite_inputs
import proofs.«404252_j74268574482736_3_alg».proof.Proof.KRunValue
import proofs.«404252_j74268574482736_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the last boundary's contents at its result buffer, and the reference's
    result term, at arguments that agree with the kernel's, is that same array (Bridge.lean). -/
theorem algebraic : Cert.algebraic_KernelIdeal_ReferenceIdeal := by
  intro m ρ m' ρ' hpre hagree
  refine ⟨fun c => Cert.KernelIdeal.Gen.W11 m ρ c (Proc.devRef .tc Cert.KernelIdeal.main_v105),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v125_eq, e0, e1, e2, e3, e4, e5, e6, e7, e8, e9, e10, e11, e12, e13, e14, e15]
  exact Cert.Proof.Bridge.result_eq m ρ c hpre

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
